-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v64_0)) (v1 : (c : Dev Cert.KernelIdeal.nD) → Buf (Elt Ideal) ((c.tc : Thread Cert.KernelIdeal.nD Cert.KernelIdeal.τ).loc Cert.KernelIdeal.main_v64_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64_0) = v0 c
          ∧ r.2.mem ((c.tc : Thread Cert.KernelIdeal.nD Cert.KernelIdeal.τ).loc Cert.KernelIdeal.main_v64_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x8x257 : Shape := ⟨3, ![16384, 8, 257]⟩
abbrev S8x257 : Shape := ⟨2, ![8, 257]⟩
abbrev S_ : Shape := ⟨0, ![]⟩

class Facts : Prop where
  bcast_S_S16384x8x257 : S_.BroadcastsInDim S16384x8x257 (![] : Fin 0 → Fin S16384x8x257.rank)
  reducesTo_S16384x8x257_S_d0_1_2 : S16384x8x257.ReducesTo [0, 1, 2] S_
  h_S_ : 0 < S_.numel
  bcast_S_S8x257 : S_.BroadcastsInDim S8x257 (![] : Fin 0 → Fin S8x257.rank)
  reducesTo_S8x257_S_d0_1 : S8x257.ReducesTo [0, 1] S_

variable [Facts]

def fn_part1 {F : FTy → Type} [FloatOps F] (main_arg4 : FVec F S8x257 .f32) (main_arg5 : FVec F S8x257 .f32) (main_arg6 : FVec F S8x257 .f32) (main_v13 : IVec S_ 1) (main_v16 : IVec S8x257 1) : IVec S_ 1 :=
  let main_c_5 : IVec S_ 1 := constantI S_ 1 1#1
  let main_v17 : IVec S_ 1 := (fun x v => Host.reduce IntOp.andi x v reducesTo_S8x257_S_d0_1 h_S_) main_v16 main_c_5
  let main_v18 : IVec S_ 1 := andi main_v13 main_v17
  let main_v19 : FVec F S8x257 .f32 := Host.absf main_arg4
  let main_cst_6 : FVec F S_ .f32 := constant S_ .f32 0x7F800000#32
  let main_v20 : FVec F S8x257 .f32 := broadcastInDim S8x257 ![] bcast_S_S8x257 main_cst_6
  let main_v21 : IVec S8x257 1 := cmpf .olt main_v19 main_v20
  let main_c_7 : IVec S_ 1 := constantI S_ 1 1#1
  let main_v22 : IVec S_ 1 := (fun x v => Host.reduce IntOp.andi x v reducesTo_S8x257_S_d0_1 h_S_) main_v21 main_c_7
  let main_v23 : IVec S_ 1 := andi main_v18 main_v22
  let main_v24 : FVec F S8x257 .f32 := Host.absf main_arg5
  let main_cst_8 : FVec F S_ .f32 := constant S_ .f32 0x7F800000#32
  let main_v25 : FVec F S8x257 .f32 := broadcastInDim S8x257 ![] bcast_S_S8x257 main_cst_8
  let main_v26 : IVec S8x257 1 := cmpf .olt main_v24 main_v25
  let main_c_9 : IVec S_ 1 := constantI S_ 1 1#1
  let main_v27 : IVec S_ 1 := (fun x v => Host.reduce IntOp.andi x v reducesTo_S8x257_S_d0_1 h_S_) main_v26 main_c_9
  let main_v28 : IVec S_ 1 := andi main_v23 main_v27
  let main_v29 : FVec F S8x257 .f32 := Host.absf main_arg6
  let main_cst_10 : FVec F S_ .f32 := constant S_ .f32 0x7F800000#32
  let main_v30 : FVec F S8x257 .f32 := broadcastInDim S8x257 ![] bcast_S_S8x257 main_cst_10
  let main_v31 : IVec S8x257 1 := cmpf .olt main_v29 main_v30
  let main_c_11 : IVec S_ 1 := constantI S_ 1 1#1
  let main_v32 : IVec S_ 1 := (fun x v => Host.reduce IntOp.andi x v reducesTo_S8x257_S_d0_1 h_S_) main_v31 main_c_11
  let main_v33 : IVec S_ 1 := andi main_v28 main_v32
  main_v33

def fn {F : FTy → Type} [FloatOps F] (main_arg0 : FVec F S16384x8x257 .f32) (main_arg1 : FVec F S16384x8x257 .f32) (main_arg2 : FVec F S8x257 .f32) (main_arg3 : FVec F S8x257 .f32) (main_arg4 : FVec F S8x257 .f32) (main_arg5 : FVec F S8x257 .f32) (main_arg6 : FVec F S8x257 .f32) : IVec S_ 1 :=
  let main_v0 : FVec F S16384x8x257 .f32 := Host.absf main_arg0
  let main_cst : FVec F S_ .f32 := constant S_ .f32 0x7F800000#32
  let main_v1 : FVec F S16384x8x257 .f32 := broadcastInDim S16384x8x257 ![] bcast_S_S16384x8x257 main_cst
  let main_v2 : IVec S16384x8x257 1 := cmpf .olt main_v0 main_v1
  let main_c : IVec S_ 1 := constantI S_ 1 1#1
  let main_v3 : IVec S_ 1 := (fun x v => Host.reduce IntOp.andi x v reducesTo_S16384x8x257_S_d0_1_2 h_S_) main_v2 main_c
  let main_v4 : FVec F S16384x8x257 .f32 := Host.absf main_arg1
  let main_cst_0 : FVec F S_ .f32 := constant S_ .f32 0x7F800000#32
  let main_v5 : FVec F S16384x8x257 .f32 := broadcastInDim S16384x8x257 ![] bcast_S_S16384x8x257 main_cst_0
  let main_v6 : IVec S16384x8x257 1 := cmpf .olt main_v4 main_v5
  let main_c_1 : IVec S_ 1 := constantI S_ 1 1#1
  let main_v7 : IVec S_ 1 := (fun x v => Host.reduce IntOp.andi x v reducesTo_S16384x8x257_S_d0_1_2 h_S_) main_v6 main_c_1
  let main_v8 : IVec S_ 1 := andi main_v3 main_v7
  let main_v9 : FVec F S8x257 .f32 := Host.absf main_arg2
  let main_cst_2 : FVec F S_ .f32 := constant S_ .f32 0x7F800000#32
  let main_v10 : FVec F S8x257 .f32 := broadcastInDim S8x257 ![] bcast_S_S8x257 main_cst_2
  let main_v11 : IVec S8x257 1 := cmpf .olt main_v9 main_v10
  let main_c_3 : IVec S_ 1 := constantI S_ 1 1#1
  let main_v12 : IVec S_ 1 := (fun x v => Host.reduce IntOp.andi x v reducesTo_S8x257_S_d0_1 h_S_) main_v11 main_c_3
  let main_v13 : IVec S_ 1 := andi main_v8 main_v12
  let main_v14 : FVec F S8x257 .f32 := Host.absf main_arg3
  let main_cst_4 : FVec F S_ .f32 := constant S_ .f32 0x7F800000#32
  let main_v15 : FVec F S8x257 .f32 := broadcastInDim S8x257 ![] bcast_S_S8x257 main_cst_4
  let main_v16 : IVec S8x257 1 := cmpf .olt main_v14 main_v15
  fn_part1 (F := F) main_arg4 main_arg5 main_arg6 main_v13 main_v16
-- ==== Kernel.lean ====
abbrev S16384x8x257 : Shape := ⟨3, ![16384, 8, 257]⟩
abbrev S8x257 : Shape := ⟨2, ![8, 257]⟩
abbrev S5x8x257 : Shape := ⟨3, ![5, 8, 257]⟩
abbrev S1024x8x257 : Shape := ⟨3, ![1024, 8, 257]⟩
abbrev S1x8x257 : Shape := ⟨3, ![1, 8, 257]⟩
abbrev S_ : Shape := ⟨0, ![]⟩
abbrev S8x8x257 : Shape := ⟨3, ![8, 8, 257]⟩
abbrev S512x8x257 : Shape := ⟨3, ![512, 8, 257]⟩

abbrev nBuf : Space → Nat
  | .hbm => 87
  | .vmem => 14
  | .smem => 0
  | _ => 0

abbrev bufTy : (tb : Table) → Fin (tcTables nBuf tb) → BufTy
  | .hbm, ⟨0, _⟩ => ⟨S16384x8x257, .f32⟩
  | .hbm, ⟨1, _⟩ => ⟨S16384x8x257, .f32⟩
  | .hbm, ⟨2, _⟩ => ⟨S8x257, .f32⟩
  | .hbm, ⟨3, _⟩ => ⟨S8x257, .f32⟩
  | .hbm, ⟨4, _⟩ => ⟨S8x257, .f32⟩
  | .hbm, ⟨5, _⟩ => ⟨S8x257, .f32⟩
  | .hbm, ⟨6, _⟩ => ⟨S8x257, .f32⟩
  | .hbm, ⟨7, _⟩ => ⟨S5x8x257, .f32⟩
  | .hbm, ⟨8, _⟩ => ⟨S1x8x257, .f32⟩
  | .hbm, ⟨9, _⟩ => ⟨S1x8x257, .f32⟩
  | .hbm, ⟨10, _⟩ => ⟨S1x8x257, .f32⟩
  | .hbm, ⟨11, _⟩ => ⟨S1x8x257, .f32⟩
  | .hbm, ⟨12, _⟩ => ⟨S1x8x257, .f32⟩
  | .hbm, ⟨13, _⟩ => ⟨S_, .f32⟩
  | .hbm, ⟨14, _⟩ => ⟨S1x8x257, .f32⟩
  | .hbm, ⟨15, _⟩ => ⟨S1x8x257, .f32⟩
  | .hbm, ⟨16, _⟩ => ⟨S_, .f32⟩
  | .hbm, ⟨17, _⟩ => ⟨S1x8x257, .f32⟩
  | .hbm, ⟨18, _⟩ => ⟨S1x8x257, .f32⟩
  | .hbm, ⟨19, _⟩ => ⟨S_, .f32⟩
  | .hbm, ⟨20, _⟩ => ⟨S1x8x257, .f32⟩
  | .hbm, ⟨21, _⟩ => ⟨S1x8x257, .f32⟩
  | .hbm, ⟨22, _⟩ => ⟨S1x8x257, .f32⟩
  | .hbm, ⟨23, _⟩ => ⟨S1x8x257, .f32⟩
  | .hbm, ⟨24, _⟩ => ⟨S_, .f32⟩
  | .hbm, ⟨25, _⟩ => ⟨S1x8x257, .f32⟩
  | .hbm, ⟨26, _⟩ => ⟨S1x8x257, .f32⟩
  | .hbm, ⟨27, _⟩ => ⟨S1x8x257, .f32⟩
  | .hbm, ⟨28, _⟩ => ⟨S1x8x257, .f32⟩
  | .hbm, ⟨29, _⟩ => ⟨S_, .f32⟩
  | .hbm, ⟨30, _⟩ => ⟨S1x8x257, .f32⟩
  | .hbm, ⟨31, _⟩ => ⟨S1x8x257, .f32⟩
  | .hbm, ⟨32, _⟩ => ⟨S1x8x257, .f32⟩
  | .hbm, ⟨33, _⟩ => ⟨S1x8x257, .f32⟩
  | .hbm, ⟨34, _⟩ => ⟨S1x8x257, .f32⟩
  | .hbm, ⟨35, _⟩ => ⟨S1x8x257, .f32⟩
  | .hbm, ⟨36, _⟩ => ⟨S1x8x257, .f32⟩
  | .hbm, ⟨37, _⟩ => ⟨S1x8x257, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S1x8x257, .f32⟩
  | .hbm, ⟨42, _⟩ => ⟨S1x8x257, .f32⟩
  | .hbm, ⟨43, _⟩ => ⟨S_, .f32⟩
  | .hbm, ⟨44, _⟩ => ⟨S1x8x257, .f32⟩
  | .hbm, ⟨45, _⟩ => ⟨S1x8x257, .f32⟩
  | .hbm, ⟨46, _⟩ => ⟨S1x8x257, .f32⟩
  | .hbm, ⟨47, _⟩ => ⟨S_, .f32⟩
  | .hbm, ⟨48, _⟩ => ⟨S1x8x257, .f32⟩
  | .hbm, ⟨49, _⟩ => ⟨S1x8x257, .f32⟩
  | .hbm, ⟨50, _⟩ => ⟨S1x8x257, .f32⟩
  | .hbm, ⟨51, _⟩ => ⟨S1x8x257, .f32⟩
  | .hbm, ⟨52, _⟩ => ⟨S1x8x257, .f32⟩
  | .hbm, ⟨53, _⟩ => ⟨S_, .f32⟩
  | .hbm, ⟨54, _⟩ => ⟨S1x8x257, .f32⟩
  | .hbm, ⟨55, _⟩ => ⟨S1x8x257, .f32⟩
  | .hbm, ⟨56, _⟩ => ⟨S1x8x257, .f32⟩
  | .hbm, ⟨57, _⟩ => ⟨S1x8x257, .f32⟩
  | .hbm, ⟨58, _⟩ => ⟨S1x8x257, .f32⟩
  | .hbm, ⟨59, _⟩ => ⟨S1x8x257, .f32⟩
  | .hbm, ⟨60, _⟩ => ⟨S1x8x257, .f32⟩
  | .hbm, ⟨61, _⟩ => ⟨S1x8x257, .f32⟩
  | .hbm, ⟨62, _⟩ => ⟨S1x8x257, .f32⟩
  | .hbm, ⟨63, _⟩ => ⟨S1x8x257, .f32⟩
  | .hbm, ⟨64, _⟩ => ⟨S1x8x257, .f32⟩
  | .hbm, ⟨65, _⟩ => ⟨S1x8x257, .f32⟩
  | .hbm, ⟨66, _⟩ => ⟨S1x8x257, .f32⟩
  | .hbm, ⟨67, _⟩ => ⟨S1x8x257, .f32⟩
  | .hbm, ⟨68, _⟩ => ⟨S1x8x257, .f32⟩
  | .hbm, ⟨69, _⟩ => ⟨S1x8x257, .f32⟩
  | .hbm, ⟨70, _⟩ => ⟨S1x8x257, .f32⟩
  | .hbm, ⟨71, _⟩ => ⟨S1x8x257, .f32⟩
  | .hbm, ⟨72, _⟩ => ⟨S1x8x257, .f32⟩
  | .hbm, ⟨73, _⟩ => ⟨S1x8x257, .f32⟩
  | .hbm, ⟨74, _⟩ => ⟨S1x8x257, .f32⟩
  | .hbm, ⟨75, _⟩ => ⟨S1x8x257, .f32⟩
  | .hbm, ⟨76, _⟩ => ⟨S1x8x257, .f32⟩
  | .hbm, ⟨77, _⟩ => ⟨S1x8x257, .f32⟩
  | .hbm, ⟨78, _⟩ => ⟨S1x8x257, .f32⟩
  | .hbm, ⟨79, _⟩ => ⟨S1x8x257, .f32⟩
  | .hbm, ⟨80, _⟩ => ⟨S1x8x257, .f32⟩
  | .hbm, ⟨81, _⟩ => ⟨S1x8x257, .f32⟩
  | .hbm, ⟨82, _⟩ => ⟨S1x8x257, .f32⟩
  | .hbm, ⟨83, _⟩ => ⟨S1x8x257, .f32⟩
  | .hbm, ⟨84, _⟩ => ⟨S8x8x257, .f32⟩
  | .hbm, ⟨85, _⟩ => ⟨S16384x8x257, .f32⟩
  | .hbm, ⟨86, _⟩ => ⟨S16384x8x257, .f32⟩
  | .local _ .vmem, ⟨0, _⟩ => ⟨S1024x8x257, .f32⟩
  | .local _ .vmem, ⟨1, _⟩ => ⟨S1024x8x257, .f32⟩
  | .local _ .vmem, ⟨2, _⟩ => ⟨S1024x8x257, .f32⟩
  | .local _ .vmem, ⟨3, _⟩ => ⟨S1024x8x257, .f32⟩
  | .local _ .vmem, ⟨4, _⟩ => ⟨S5x8x257, .f32⟩
  | .local _ .vmem, ⟨5, _⟩ => ⟨S512x8x257, .f32⟩
  | .local _ .vmem, ⟨6, _⟩ => ⟨S512x8x257, .f32⟩
  | .local _ .vmem, ⟨7, _⟩ => ⟨S512x8x257, .f32⟩
  | .local _ .vmem, ⟨8, _⟩ => ⟨S512x8x257, .f32⟩
  | .local _ .vmem, ⟨9, _⟩ => ⟨S8x8x257, .f32⟩
  | .local _ .vmem, ⟨10, _⟩ => ⟨S512x8x257, .f32⟩
  | .local _ .vmem, ⟨11, _⟩ => ⟨S512x8x257, .f32⟩
  | .local _ .vmem, ⟨12, _⟩ => ⟨S512x8x257, .f32⟩
  | .local _ .vmem, ⟨13, _⟩ => ⟨S512x8x257, .f32⟩
  | _, _ => ⟨S16384x8x257, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_cst_5 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_v26 : Ref sig .tc := ⟨.hbm, 45, rfl⟩
abbrev main_v27 : Ref sig .tc := ⟨.hbm, 46, rfl⟩
abbrev main_cst_6 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64_0 : Ref sig .tc := ⟨.hbm, 85, rfl⟩
abbrev main_v64_1 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x8x257 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x8x257 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5x8x257 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S512x8x257 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x8x257 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S8x8x257 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x8x257 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x8x257 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  inb_S5x8x257_S5x8x257_0_0_0 : ∀ a, (![0, 0, 0] : Fin 3 → Nat) a + S5x8x257.size a ≤ S5x8x257.size a
  h_S5x8x257 : 0 < S5x8x257.numel
  inb_S1024x8x257_S1024x8x257_0_0_0 : ∀ a, (![0, 0, 0] : Fin 3 → Nat) a + S1024x8x257.size a ≤ S1024x8x257.size a
  h_S1024x8x257 : 0 < S1024x8x257.numel
  inb_S5x8x257_S1x8x257_0_0_0 : ∀ a, (![0, 0, 0] : Fin 3 → Nat) a + S1x8x257.size a ≤ S5x8x257.size a
  h_S1x8x257 : 0 < S1x8x257.numel
  shapeCasts_S1x8x257_S1x8x257 : S1x8x257.ShapeCasts S1x8x257
  reduces_S1024x8x257_S8x257 : S1024x8x257.Reduces [0] S8x257
  shapeCasts_S8x257_S1x8x257 : S8x257.ShapeCasts S1x8x257
  inb_S5x8x257_S1x8x257_1_0_0 : ∀ a, (![1, 0, 0] : Fin 3 → Nat) a + S1x8x257.size a ≤ S5x8x257.size a
  inb_S5x8x257_S1x8x257_2_0_0 : ∀ a, (![2, 0, 0] : Fin 3 → Nat) a + S1x8x257.size a ≤ S5x8x257.size a
  inb_S5x8x257_S1x8x257_3_0_0 : ∀ a, (![3, 0, 0] : Fin 3 → Nat) a + S1x8x257.size a ≤ S5x8x257.size a
  inb_S5x8x257_S1x8x257_4_0_0 : ∀ a, (![4, 0, 0] : Fin 3 → Nat) a + S1x8x257.size a ≤ S5x8x257.size a
  slices_S5x8x257_S1x8x257_0_0_0 : S5x8x257.Slices ![0, 0, 0] S1x8x257
  slices_S5x8x257_S1x8x257_1_0_0 : S5x8x257.Slices ![1, 0, 0] S1x8x257
  slices_S5x8x257_S1x8x257_2_0_0 : S5x8x257.Slices ![2, 0, 0] S1x8x257
  slices_S5x8x257_S1x8x257_3_0_0 : S5x8x257.Slices ![3, 0, 0] S1x8x257
  slices_S5x8x257_S1x8x257_4_0_0 : S5x8x257.Slices ![4, 0, 0] S1x8x257
  bcast_S_S1x8x257 : S_.BroadcastsInDim S1x8x257 (![] : Fin 0 → Fin S1x8x257.rank)
  bcast_S8x257_S1x8x257_1_2 : S8x257.BroadcastsInDim S1x8x257 (![1, 2] : Fin 2 → Fin S1x8x257.rank)
  concatenates_S1x8x257_S1x8x257_S1x8x257_S1x8x257_S1x8x257_S1x8x257_S1x8x257_S1x8x257_S8x8x257_d0 : Shape.Concatenates [S1x8x257, S1x8x257, S1x8x257, S1x8x257, S1x8x257, S1x8x257, S1x8x257, S1x8x257] S8x8x257 0
  inb_S8x8x257_S8x8x257_0_0_0 : ∀ a, (![0, 0, 0] : Fin 3 → Nat) a + S8x8x257.size a ≤ S8x8x257.size a
  h_S8x8x257 : 0 < S8x8x257.numel
  shapeCasts_S8x8x257_S8x8x257 : S8x8x257.ShapeCasts S8x8x257
  slices_S8x8x257_o0_0_0_S1x8x257 : S8x8x257.Slices ![0, 0, 0] S1x8x257
  slices_S8x8x257_o1_0_0_S1x8x257 : S8x8x257.Slices ![1, 0, 0] S1x8x257
  slices_S8x8x257_o2_0_0_S1x8x257 : S8x8x257.Slices ![2, 0, 0] S1x8x257
  slices_S8x8x257_o3_0_0_S1x8x257 : S8x8x257.Slices ![3, 0, 0] S1x8x257
  slices_S8x8x257_o4_0_0_S1x8x257 : S8x8x257.Slices ![4, 0, 0] S1x8x257
  slices_S8x8x257_o5_0_0_S1x8x257 : S8x8x257.Slices ![5, 0, 0] S1x8x257
  slices_S8x8x257_o6_0_0_S1x8x257 : S8x8x257.Slices ![6, 0, 0] S1x8x257
  slices_S8x8x257_o7_0_0_S1x8x257 : S8x8x257.Slices ![7, 0, 0] S1x8x257
  inb_S512x8x257_S512x8x257_0_0_0 : ∀ a, (![0, 0, 0] : Fin 3 → Nat) a + S512x8x257.size a ≤ S512x8x257.size a
  h_S512x8x257 : 0 < S512x8x257.numel
  broadcasts_S1x8x257_S512x8x257 : S1x8x257.Broadcasts S512x8x257
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x8x257.size a ≤ S16384x8x257.size a
  hwx0_0 : ∀ i : grid0.Coords, EltTy.bits .f32 = 32 ∨ (Rect.block (s := S16384x8x257) S1024x8x257.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x8x257.size a ≤ S16384x8x257.size a
  hwx0_1 : ∀ i : grid0.Coords, EltTy.bits .f32 = 32 ∨ (Rect.block (s := S16384x8x257) S1024x8x257.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S5x8x257.size a ≤ S5x8x257.size a
  hwx0_2 : ∀ i : grid0.Coords, EltTy.bits .f32 = 32 ∨ (Rect.block (s := S5x8x257) S5x8x257.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x8x257.size a ≤ S16384x8x257.size a
  hwx1_0 : ∀ i : grid1.Coords, EltTy.bits .f32 = 32 ∨ (Rect.block (s := S16384x8x257) S512x8x257.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x8x257.size a ≤ S16384x8x257.size a
  hwx1_1 : ∀ i : grid1.Coords, EltTy.bits .f32 = 32 ∨ (Rect.block (s := S16384x8x257) S512x8x257.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8x8x257.size a ≤ S8x8x257.size a
  hwx1_2 : ∀ i : grid1.Coords, EltTy.bits .f32 = 32 ∨ (Rect.block (s := S8x8x257) S8x8x257.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x8x257.size a ≤ S16384x8x257.size a
  hwx1_3 : ∀ i : grid1.Coords, EltTy.bits .f32 = 32 ∨ (Rect.block (s := S16384x8x257) S512x8x257.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x8x257.size a ≤ S16384x8x257.size a
  hwx1_4 : ∀ i : grid1.Coords, EltTy.bits .f32 = 32 ∨ (Rect.block (s := S16384x8x257) S512x8x257.size (cc1_transform_4 i) (hinb1_4 i)).WholeWords (EltTy.packing .f32)

variable [Facts₀]

abbrev win0_0 : Pipeline.Window sig grid0 :=
  Pipeline.Window.ofSpec (Memref.whole main_arg0) S1024x8x257.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x8x257.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5x8x257.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S512x8x257.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S512x8x257.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v63) S8x8x257.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v64_0) S512x8x257.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v64_1) S512x8x257.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S16384x8x257 : Shape := ⟨3, ![16384, 8, 257]⟩
abbrev S8x257 : Shape := ⟨2, ![8, 257]⟩
abbrev S_ : Shape := ⟨0, ![]⟩
abbrev S1x8x257 : Shape := ⟨3, ![1, 8, 257]⟩

abbrev nBuf : Space → Nat
  | .hbm => 108
  | .vmem => 0
  | .smem => 0
  | _ => 0

abbrev bufTy : (tb : Table) → Fin (tcTables nBuf tb) → BufTy
  | .hbm, ⟨0, _⟩ => ⟨S16384x8x257, .f32⟩
  | .hbm, ⟨1, _⟩ => ⟨S16384x8x257, .f32⟩
  | .hbm, ⟨2, _⟩ => ⟨S8x257, .f32⟩
  | .hbm, ⟨3, _⟩ => ⟨S8x257, .f32⟩
  | .hbm, ⟨4, _⟩ => ⟨S8x257, .f32⟩
  | .hbm, ⟨5, _⟩ => ⟨S8x257, .f32⟩
  | .hbm, ⟨6, _⟩ => ⟨S8x257, .f32⟩
  | .hbm, ⟨7, _⟩ => ⟨S_, .f32⟩
  | .hbm, ⟨8, _⟩ => ⟨S8x257, .f32⟩
  | .hbm, ⟨9, _⟩ => ⟨S1x8x257, .f32⟩
  | .hbm, ⟨10, _⟩ => ⟨S_, .f32⟩
  | .hbm, ⟨11, _⟩ => ⟨S1x8x257, .f32⟩
  | .hbm, ⟨12, _⟩ => ⟨S1x8x257, .f32⟩
  | .hbm, ⟨13, _⟩ => ⟨S_, .f32⟩
  | .hbm, ⟨14, _⟩ => ⟨S8x257, .f32⟩
  | .hbm, ⟨15, _⟩ => ⟨S1x8x257, .f32⟩
  | .hbm, ⟨16, _⟩ => ⟨S_, .f32⟩
  | .hbm, ⟨17, _⟩ => ⟨S1x8x257, .f32⟩
  | .hbm, ⟨18, _⟩ => ⟨S1x8x257, .f32⟩
  | .hbm, ⟨19, _⟩ => ⟨S16384x8x257, .f32⟩
  | .hbm, ⟨20, _⟩ => ⟨S16384x8x257, .f32⟩
  | .hbm, ⟨21, _⟩ => ⟨S16384x8x257, .f32⟩
  | .hbm, ⟨22, _⟩ => ⟨S16384x8x257, .f32⟩
  | .hbm, ⟨23, _⟩ => ⟨S16384x8x257, .f32⟩
  | .hbm, ⟨24, _⟩ => ⟨S_, .f32⟩
  | .hbm, ⟨25, _⟩ => ⟨S8x257, .f32⟩
  | .hbm, ⟨26, _⟩ => ⟨S1x8x257, .f32⟩
  | .hbm, ⟨27, _⟩ => ⟨S_, .f32⟩
  | .hbm, ⟨28, _⟩ => ⟨S1x8x257, .f32⟩
  | .hbm, ⟨29, _⟩ => ⟨S1x8x257, .f32⟩
  | .hbm, ⟨30, _⟩ => ⟨S16384x8x257, .f32⟩
  | .hbm, ⟨31, _⟩ => ⟨S_, .f32⟩
  | .hbm, ⟨32, _⟩ => ⟨S8x257, .f32⟩
  | .hbm, ⟨33, _⟩ => ⟨S1x8x257, .f32⟩
  | .hbm, ⟨34, _⟩ => ⟨S_, .f32⟩
  | .hbm, ⟨35, _⟩ => ⟨S1x8x257, .f32⟩
  | .hbm, ⟨36, _⟩ => ⟨S1x8x257, .f32⟩
  | .hbm, ⟨37, _⟩ => ⟨S16384x8x257, .f32⟩
  | .hbm, ⟨38, _⟩ => ⟨S_, .f32⟩
  | .hbm, ⟨39, _⟩ => ⟨S8x257, .f32⟩
  | .hbm, ⟨40, _⟩ => ⟨S1x8x257, .f32⟩
  | .hbm, ⟨41, _⟩ => ⟨S_, .f32⟩
  | .hbm, ⟨42, _⟩ => ⟨S1x8x257, .f32⟩
  | .hbm, ⟨43, _⟩ => ⟨S1x8x257, .f32⟩
  | .hbm, ⟨44, _⟩ => ⟨S1x8x257, .f32⟩
  | .hbm, ⟨45, _⟩ => ⟨S1x8x257, .f32⟩
  | .hbm, ⟨46, _⟩ => ⟨S1x8x257, .f32⟩
  | .hbm, ⟨47, _⟩ => ⟨S1x8x257, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S1x8x257, .f32⟩
  | .hbm, ⟨52, _⟩ => ⟨S1x8x257, .f32⟩
  | .hbm, ⟨53, _⟩ => ⟨S_, .f32⟩
  | .hbm, ⟨54, _⟩ => ⟨S1x8x257, .f32⟩
  | .hbm, ⟨55, _⟩ => ⟨S1x8x257, .f32⟩
  | .hbm, ⟨56, _⟩ => ⟨S1x8x257, .f32⟩
  | .hbm, ⟨57, _⟩ => ⟨S_, .f32⟩
  | .hbm, ⟨58, _⟩ => ⟨S1x8x257, .f32⟩
  | .hbm, ⟨59, _⟩ => ⟨S1x8x257, .f32⟩
  | .hbm, ⟨60, _⟩ => ⟨S1x8x257, .f32⟩
  | .hbm, ⟨61, _⟩ => ⟨S1x8x257, .f32⟩
  | .hbm, ⟨62, _⟩ => ⟨S1x8x257, .f32⟩
  | .hbm, ⟨63, _⟩ => ⟨S_, .f32⟩
  | .hbm, ⟨64, _⟩ => ⟨S1x8x257, .f32⟩
  | .hbm, ⟨65, _⟩ => ⟨S1x8x257, .f32⟩
  | .hbm, ⟨66, _⟩ => ⟨S1x8x257, .f32⟩
  | .hbm, ⟨67, _⟩ => ⟨S1x8x257, .f32⟩
  | .hbm, ⟨68, _⟩ => ⟨S1x8x257, .f32⟩
  | .hbm, ⟨69, _⟩ => ⟨S1x8x257, .f32⟩
  | .hbm, ⟨70, _⟩ => ⟨S1x8x257, .f32⟩
  | .hbm, ⟨71, _⟩ => ⟨S1x8x257, .f32⟩
  | .hbm, ⟨72, _⟩ => ⟨S1x8x257, .f32⟩
  | .hbm, ⟨73, _⟩ => ⟨S1x8x257, .f32⟩
  | .hbm, ⟨74, _⟩ => ⟨S1x8x257, .f32⟩
  | .hbm, ⟨75, _⟩ => ⟨S1x8x257, .f32⟩
  | .hbm, ⟨76, _⟩ => ⟨S1x8x257, .f32⟩
  | .hbm, ⟨77, _⟩ => ⟨S1x8x257, .f32⟩
  | .hbm, ⟨78, _⟩ => ⟨S1x8x257, .f32⟩
  | .hbm, ⟨79, _⟩ => ⟨S1x8x257, .f32⟩
  | .hbm, ⟨80, _⟩ => ⟨S1x8x257, .f32⟩
  | .hbm, ⟨81, _⟩ => ⟨S1x8x257, .f32⟩
  | .hbm, ⟨82, _⟩ => ⟨S1x8x257, .f32⟩
  | .hbm, ⟨83, _⟩ => ⟨S1x8x257, .f32⟩
  | .hbm, ⟨84, _⟩ => ⟨S1x8x257, .f32⟩
  | .hbm, ⟨85, _⟩ => ⟨S1x8x257, .f32⟩
  | .hbm, ⟨86, _⟩ => ⟨S1x8x257, .f32⟩
  | .hbm, ⟨87, _⟩ => ⟨S1x8x257, .f32⟩
  | .hbm, ⟨88, _⟩ => ⟨S1x8x257, .f32⟩
  | .hbm, ⟨89, _⟩ => ⟨S1x8x257, .f32⟩
  | .hbm, ⟨90, _⟩ => ⟨S1x8x257, .f32⟩
  | .hbm, ⟨91, _⟩ => ⟨S1x8x257, .f32⟩
  | .hbm, ⟨92, _⟩ => ⟨S16384x8x257, .f32⟩
  | .hbm, ⟨93, _⟩ => ⟨S16384x8x257, .f32⟩
  | .hbm, ⟨94, _⟩ => ⟨S16384x8x257, .f32⟩
  | .hbm, ⟨95, _⟩ => ⟨S16384x8x257, .f32⟩
  | .hbm, ⟨96, _⟩ => ⟨S16384x8x257, .f32⟩
  | .hbm, ⟨97, _⟩ => ⟨S1x8x257, .f32⟩
  | .hbm, ⟨98, _⟩ => ⟨S16384x8x257, .f32⟩
  | .hbm, ⟨99, _⟩ => ⟨S16384x8x257, .f32⟩
  | .hbm, ⟨100, _⟩ => ⟨S16384x8x257, .f32⟩
  | .hbm, ⟨101, _⟩ => ⟨S16384x8x257, .f32⟩
  | .hbm, ⟨102, _⟩ => ⟨S16384x8x257, .f32⟩
  | .hbm, ⟨103, _⟩ => ⟨S16384x8x257, .f32⟩
  | .hbm, ⟨104, _⟩ => ⟨S16384x8x257, .f32⟩
  | .hbm, ⟨105, _⟩ => ⟨S1x8x257, .f32⟩
  | .hbm, ⟨106, _⟩ => ⟨S16384x8x257, .f32⟩
  | .hbm, ⟨107, _⟩ => ⟨S16384x8x257, .f32⟩
  | _, _ => ⟨S16384x8x257, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_cst_6 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_7 : Ref sig .tc := ⟨.hbm, 38, rfl⟩
abbrev main_v23 : Ref sig .tc := ⟨.hbm, 39, rfl⟩
abbrev main_v24 : Ref sig .tc := ⟨.hbm, 40, rfl⟩
abbrev main_cst_8 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_9 : Ref sig .tc := ⟨.hbm, 48, rfl⟩
abbrev main_cst_10 : Ref sig .tc := ⟨.hbm, 49, rfl⟩
abbrev main_call0_v0 : Ref sig .tc := ⟨.hbm, 50, rfl⟩
abbrev main_call0_v1 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_v31 : Ref sig .tc := ⟨.hbm, 55, rfl⟩
abbrev main_v32 : Ref sig .tc := ⟨.hbm, 56, rfl⟩
abbrev main_cst_11 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_12 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩

abbrev nD : Nat := 1
abbrev τ : Topo := Topo.v7x

variable {F : FTy → Type} [FloatOps F]

class Facts₀ : Prop where
  reducesTo_S16384x8x257_S8x257_d0 : S16384x8x257.ReducesTo [0] S8x257
  h_S_ : 0 < S_.numel
  bcast_S8x257_S1x8x257_1_2 : S8x257.BroadcastsInDim S1x8x257 (![1, 2] : Fin 2 → Fin S1x8x257.rank)
  bcast_S_S1x8x257 : S_.BroadcastsInDim S1x8x257 (![] : Fin 0 → Fin S1x8x257.rank)
  bcast_S1x8x257_S16384x8x257_0_1_2 : S1x8x257.BroadcastsInDim S16384x8x257 (![0, 1, 2] : Fin 3 → Fin S16384x8x257.rank)

variable [Facts₀]

class Facts : Prop extends Facts₀ where

variable [Facts]
-- ==== Proof.Word.StatsBody.lean ====
import proofs.«156525_j26182120636725_1_alg».proof.Proof.Gen.Kernel.Launch
import proofs.«156525_j26182120636725_1_alg».proof.Proof.Gen.Kernel.Skeleton
import proofs.«156525_j26182120636725_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The statistics pass, point by point

The first pallas_call walks the batch axis in 16 blocks of 1024 rows. Its output block (five rows of
running sums) stays in one staging buffer through the whole grid: at the first point it is filled with
zeros, at every point each of its five rows is read, a column sum of the current input blocks is added,
and the row is stored back; only the last point writes the block back to its array. This module states
what that buffer holds after each point, as a recursion on the point, at ANY contents `V` of the
TensorCore's buffers when the region is entered, and proves the pipeline's body obligation for it. -/

set_option maxRecDepth 16384

noncomputable section

namespace Cert.Kernel.Pass

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for ANY proof data whose array is
    `V`'s and whose body leaves the block in place: the window is fetched whole and is never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The reset condition -/

/-- The condition under which the body zeroes the block of sums: the grid coordinate is 0. -/
abbrev isFirst0 (i : grid0.Coords) : Prop := (Scalar.cmpi .ne (Scalar.extui (Scalar.cmpi .eq (BitVec.ofNat 32 (i 0).val) 0#32)) 0#32) = 1#1
/-- It holds at the first point only — decided over the grid. -/
theorem isFirst0_iff : ∀ t : Fin cfg0.N, isFirst0 (grid0.coords t) ↔ t.val % 16 = 0 :=
  (by decide +kernel : ∀ t : Fin grid0.N, isFirst0 (grid0.coords t) ↔ t.val % 16 = 0)

/-! ## The staging memrefs the body is called with -/

/-- One staging view of the block of sums, through which its contents are stated (the choice does not matter:
    pieces that cover a whole buffer read back the same through any whole memref of the shape). -/
abbrev sumsView : View sig .tc .vmem S5x8x257 .f32 := (Memref.whole cc0_stg2_0 : Memref sig .tc .vmem S5x8x257 .f32).view
/-- Each window's current staging memref at point `t`, and its wholeness. -/
abbrev stg0_0 (t : Fin cfg0.N) : Memref sig .tc .vmem S1024x8x257 .f32 := win0_0.stage (cfg0.slots t 0)
abbrev hstg0_0 (t : Fin cfg0.N) : (stg0_0 t).IsWhole := hstage0_0 ((cfg0.slots t 0).cast nbuf0_0)
abbrev stg0_1 (t : Fin cfg0.N) : Memref sig .tc .vmem S1024x8x257 .f32 := win0_1.stage (cfg0.slots t 1)
abbrev hstg0_1 (t : Fin cfg0.N) : (stg0_1 t).IsWhole := hstage0_1 ((cfg0.slots t 1).cast nbuf0_1)
abbrev stg0_2 (t : Fin cfg0.N) : Memref sig .tc .vmem S5x8x257 .f32 := win0_2.stage (cfg0.slots t 2)
abbrev hstg0_2 (t : Fin cfg0.N) : (stg0_2 t).IsWhole := hstage0_2 ((cfg0.slots t 2).cast nbuf0_2)

/-! ## The body's run, case by case -/

set_option maxHeartbeats 1000000 in
/-- AT THE FIRST POINT (the reset condition holds): the pieces the body's stores leave in the block of sums, last
    first — the zero fill of the whole block, then one store per row of "row + column sum" —, WITH the proof that on
    whole staging memrefs, the two inputs' at their contents and the sums' at anything, the body runs to the
    continuation holding the inputs' as they were and the sums' buffer with those pieces written. -/
noncomputable def statsRunFirst (c : Dev nD) (i : grid0.Coords) (arg1 : Memref sig .tc .vmem S1024x8x257 .f32) (harg1 : arg1.IsWhole) (arg2 : Memref sig .tc .vmem S1024x8x257 .f32) (harg2 : arg2.IsWhole) (arg3 : Memref sig .tc .vmem S5x8x257 .f32) (harg3 : arg3.IsWhole) (h : isFirst0 i)
    (x0 x1 : Vec F S1024x8x257 .f32) :
    { L : List (View.Piece (Elt F) S5x8x257 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L)) -∗ K ⟨⟩))
          ⊢ wp frame (wpE (defs₀ (F := F)) Variants.none c none) E (cc0__stats_kernel i arg1 harg1 arg2 harg2 arg3 harg3) K } := by
  refine ⟨?_, fun E K => ?run⟩
  case run =>
    simp only [cc0__stats_kernel_eq_skeleton]; unfold cc0__stats_kernel_skel
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec (disch := first | exact h)
    sl_step
    iapply Hk
    isplitl [H0]
    · iexists _; isplitr; · ipureintro; exact harg1.read_unread _
      iexact H0
    isplitl [H1]
    · iexists _; isplitr; · ipureintro; exact harg2.read_unread _
      iexact H1
    iexists _; iexact H2

set_option maxHeartbeats 1000000 in
/-- AT A LATER POINT (the reset condition fails): the same with no fill, the sums' buffer entered at the running
    contents `acc` — each row's load reads `acc`'s row, the five row stores tile the block. -/
noncomputable def statsRunLater (c : Dev nD) (i : grid0.Coords) (arg1 : Memref sig .tc .vmem S1024x8x257 .f32) (harg1 : arg1.IsWhole) (arg2 : Memref sig .tc .vmem S1024x8x257 .f32) (harg2 : arg2.IsWhole) (arg3 : Memref sig .tc .vmem S5x8x257 .f32) (harg3 : arg3.IsWhole) (h : ¬isFirst0 i)
    (x0 x1 : Vec F S1024x8x257 .f32) (acc : Vec F S5x8x257 .f32) :
    { L : List (View.Piece (Elt F) S5x8x257 .f32) //
      ∀ (E : Set ℕ) (K : PUnit → sProp 𝕄),
        iprop(owns (c : Thread nD τ) arg1 fullShare x0 ∗ owns (c : Thread nD τ) arg2 fullShare x1 ∗ owns (c : Thread nD τ) arg3 fullShare acc
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L)) -∗ K ⟨⟩))
          ⊢ wp frame (wpE (defs₀ (F := F)) Variants.none c none) E (cc0__stats_kernel i arg1 harg1 arg2 harg2 arg3 harg3) K } := by
  refine ⟨?_, fun E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact h)
    sl_step
    iapply Hk
    isplitl [H0]
    · iexists _; isplitr; · ipureintro; exact harg1.read_unread _
      iexact H0
    isplitl [H1]
    · iexists _; isplitr; · ipureintro; exact harg2.read_unread _
      iexact H1
    iexists _; iexact H2

/-! ## What each case leaves in the block of sums -/

/-- The first point's pieces cover the block. -/
theorem coverFirst (c : Dev nD) (i : grid0.Coords) (arg1 : Memref sig .tc .vmem S1024x8x257 .f32) (harg1 : arg1.IsWhole) (arg2 : Memref sig .tc .vmem S1024x8x257 .f32) (harg2 : arg2.IsWhole) (arg3 : Memref sig .tc .vmem S5x8x257 .f32) (harg3 : arg3.IsWhole) (h : isFirst0 i)
    (x0 x1 : Vec F S1024x8x257 .f32) (y : S5x8x257.Idx) :
    ∃ pc ∈ (statsRunFirst c i arg1 harg1 arg2 harg2 arg3 harg3 h x0 x1).1, y ∈ pc.1.set := by
  exact View.cover_of_tiledL (statsRunFirst c i arg1 harg1 arg2 harg2 arg3 harg3 h x0 x1).1 S1x8x257.size (by sl_kernel_rfl) y

/-- What the first point leaves in the block of sums: its pieces read back over junk. -/
def sumsFirst (c : Dev nD) (i : grid0.Coords) (arg1 : Memref sig .tc .vmem S1024x8x257 .f32) (harg1 : arg1.IsWhole) (arg2 : Memref sig .tc .vmem S1024x8x257 .f32) (harg2 : arg2.IsWhole) (arg3 : Memref sig .tc .vmem S5x8x257 .f32) (harg3 : arg3.IsWhole) (h : isFirst0 i)
    (x0 x1 : Vec F S1024x8x257 .f32) : Vec F S5x8x257 .f32 :=
  sumsView.read (Elt F) (sumsView.writes (Elt F) sumsView.junk (statsRunFirst c i arg1 harg1 arg2 harg2 arg3 harg3 h x0 x1).1)

/-- A later point's pieces (five row stores) tile the block, so they cover it. -/
theorem coverLater (c : Dev nD) (i : grid0.Coords) (arg1 : Memref sig .tc .vmem S1024x8x257 .f32) (harg1 : arg1.IsWhole) (arg2 : Memref sig .tc .vmem S1024x8x257 .f32) (harg2 : arg2.IsWhole) (arg3 : Memref sig .tc .vmem S5x8x257 .f32) (harg3 : arg3.IsWhole) (h : ¬isFirst0 i)
    (x0 x1 : Vec F S1024x8x257 .f32) (acc : Vec F S5x8x257 .f32) (y : S5x8x257.Idx) :
    ∃ pc ∈ (statsRunLater c i arg1 harg1 arg2 harg2 arg3 harg3 h x0 x1 acc).1, y ∈ pc.1.set := by
  exact View.cover_of_tiledL (statsRunLater c i arg1 harg1 arg2 harg2 arg3 harg3 h x0 x1 acc).1 S1x8x257.size (by sl_kernel_rfl) y

/-- What a later point leaves in the block of sums: its pieces read back over junk. -/
def sumsLater (c : Dev nD) (i : grid0.Coords) (arg1 : Memref sig .tc .vmem S1024x8x257 .f32) (harg1 : arg1.IsWhole) (arg2 : Memref sig .tc .vmem S1024x8x257 .f32) (harg2 : arg2.IsWhole) (arg3 : Memref sig .tc .vmem S5x8x257 .f32) (harg3 : arg3.IsWhole) (h : ¬isFirst0 i)
    (x0 x1 : Vec F S1024x8x257 .f32) (acc : Vec F S5x8x257 .f32) : Vec F S5x8x257 .f32 :=
  sumsView.read (Elt F) (sumsView.writes (Elt F) sumsView.junk (statsRunLater c i arg1 harg1 arg2 harg2 arg3 harg3 h x0 x1 acc).1)

/-! ## The accumulation, point by point -/

/-- What the block of sums holds after the body at position `n`: at the first point the reset case at the point's
    memrefs and input blocks; at a later one the accumulating case over what this leaves at `n - 1` (the buffer is
    not written back in between). -/
def sumsAt (c : Dev nD) : (n : ℕ) → n < cfg0.N → Vec F S5x8x257 .f32
  | 0, hn => sumsFirst c (grid0.coords ⟨0, hn⟩) (stg0_0 ⟨0, hn⟩) (hstg0_0 ⟨0, hn⟩) (stg0_1 ⟨0, hn⟩) (hstg0_1 ⟨0, hn⟩) (stg0_2 ⟨0, hn⟩) (hstg0_2 ⟨0, hn⟩) ((isFirst0_iff ⟨0, hn⟩).mpr (Nat.zero_mod _)) (iblk0 V c 0 ⟨0, hn⟩) (iblk0 V c 1 ⟨0, hn⟩)
  | n + 1, hn =>
    if h0 : (n + 1) % 16 = 0 then
      sumsFirst c (grid0.coords ⟨n + 1, hn⟩) (stg0_0 ⟨n + 1, hn⟩) (hstg0_0 ⟨n + 1, hn⟩) (stg0_1 ⟨n + 1, hn⟩) (hstg0_1 ⟨n + 1, hn⟩) (stg0_2 ⟨n + 1, hn⟩) (hstg0_2 ⟨n + 1, hn⟩) ((isFirst0_iff ⟨n + 1, hn⟩).mpr h0) (iblk0 V c 0 ⟨n + 1, hn⟩) (iblk0 V c 1 ⟨n + 1, hn⟩)
    else
      sumsLater c (grid0.coords ⟨n + 1, hn⟩) (stg0_0 ⟨n + 1, hn⟩) (hstg0_0 ⟨n + 1, hn⟩) (stg0_1 ⟨n + 1, hn⟩) (hstg0_1 ⟨n + 1, hn⟩) (stg0_2 ⟨n + 1, hn⟩) (hstg0_2 ⟨n + 1, hn⟩) (fun h => h0 ((isFirst0_iff ⟨n + 1, hn⟩).mp h)) (iblk0 V c 0 ⟨n + 1, hn⟩) (iblk0 V c 1 ⟨n + 1, hn⟩) (sumsAt c n (Nat.lt_of_succ_lt hn))

/-- `sumsAt` at the first point: the reset case's contents. -/
theorem sumsAt_first (c : Dev nD) (t : Fin cfg0.N) (h0 : t.val % 16 = 0) :
    sumsAt V c t.val t.isLt = sumsFirst c (grid0.coords t) (stg0_0 t) (hstg0_0 t) (stg0_1 t) (hstg0_1 t) (stg0_2 t) (hstg0_2 t) ((isFirst0_iff t).mpr h0) (iblk0 V c 0 t) (iblk0 V c 1 t) := by
  obtain ⟨n, hn⟩ := t
  cases n with
  | zero => exact rfl
  | succ n => exact (dif_pos h0).trans rfl

/-- `sumsAt` at a later point: the accumulating case's contents, over what the point before left. -/
theorem sumsAt_later (c : Dev nD) (t : Fin cfg0.N) (h0 : ¬t.val % 16 = 0) :
    sumsAt V c t.val t.isLt = sumsLater c (grid0.coords t) (stg0_0 t) (hstg0_0 t) (stg0_1 t) (hstg0_1 t) (stg0_2 t) (hstg0_2 t) (fun h => h0 ((isFirst0_iff t).mp h)) (iblk0 V c 0 t) (iblk0 V c 1 t) (sumsAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the statistics pipeline on core `c`: the arrays as the region finds them (`V`); after the body
    at point `t` each input's buffer at its block and the sums' at `sumsAt`; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (sumsAt V c t.val t.isLt)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (sumsAt V c t.val t.isLt) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
/-- At a later point the sums' staging buffer holds what the body left at the point before: the point is not the
    first, and the buffer is written back at the last point only, so not in between. -/
theorem before0_2_later (c : Dev nD) (t : Fin cfg0.N) (h0 : ¬t.val % 16 = 0) (d) :
    (dat0 V c).before 2 t d = (sumsAt V c (t.val - 1) (Nat.lt_of_le_of_lt (Nat.sub_le _ _) t.isLt)) := by
  have hN : t.val < 16 := lt_of_lt_of_eq t.isLt (show cfg0.N = 16 from N_0)
  rw [Dat.before_out_kept _ 2 rfl t (by omega) (Bool.eq_false_iff.mpr fun h => by have := (flush0_2 _).mp h; dsimp only at this; omega)
    (fun _ => rfl) (fun _ _ => rfl)]
  dsimp only [dat0]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (stg0_0 t) fullShare ((dat0 V c).before 0 t d))
    ∗ (∃ d, owns (c : Thread nD τ) (stg0_1 t) fullShare ((dat0 V c).before 1 t d))
    ∗ (∃ d, owns (c : Thread nD τ) (stg0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (stg0_0 t) fullShare ((dat0 V c).after 0 t)
    ∗ owns (c : Thread nD τ) (stg0_1 t) fullShare ((dat0 V c).after 1 t)
    ∗ owns (c : Thread nD τ) (stg0_2 t) fullShare ((dat0 V c).after 2 t))

set_option maxHeartbeats 800000 in
/-- The body at any point: the inputs' memrefs hold their blocks; the closed form of the reset condition says which
    case the point is in; at a later point the sums' buffer holds what the point before left; so the case's run
    applies, and its pieces, covering the block, read back as `sumsAt` through the point's own staging memref. The
    invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  have hN : t.val < 16 := lt_of_lt_of_eq t.isLt (show cfg0.N = 16 from N_0)
  by_cases h0 : t.val % 16 = 0
  · rw [sumsAt_first V c t h0]
    unfold sumsFirst
    iintro ⟨HΦ, Ho, ⟨%d0, H0⟩, ⟨%d1, H1⟩, ⟨%d2, H2⟩⟩
    iapply ((statsRunFirst c (grid0.coords t) _ _ _ _ _ _ ((isFirst0_iff t).mpr h0) (iblk0 V c 0 t) (iblk0 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverFirst c _ _ _ _ _ _ _ _ _ _)
  · rw [sumsAt_later V c t h0]
    simp only [before0_2_later V c t h0]
    unfold sumsLater
    iintro ⟨HΦ, Ho, ⟨%d0, H0⟩, ⟨%d1, H1⟩, ⟨%d2, H2⟩⟩
    iapply ((statsRunLater c (grid0.coords t) _ _ _ _ _ _ (fun h => h0 ((isFirst0_iff t).mp h)) (iblk0 V c 0 t) (iblk0 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverLater c _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Pass

end
-- ==== Proof.Word.AffineBody.lean ====
import proofs.«156525_j26182120636725_1_alg».proof.Proof.Gen.Kernel.Launch
import proofs.«156525_j26182120636725_1_alg».proof.Proof.Gen.Kernel.Skeleton
import proofs.«156525_j26182120636725_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The affine pass at a parameter: the second pipeline's body half of the frame

The second kernel of the two-pass complex batch normalisation is pointwise: at every grid point it reads the whole
parameter block (eight rows of per-feature statistics) and one block of each of the two inputs (real and imaginary
parts), and overwrites one whole block of each of the two outputs. Stated at a PARAMETER `V` — the TensorCore's
buffer contents when the region is entered —: each window's block at a point, what the body leaves in each output
buffer as a closed function of the three blocks it read, the body's triple, the pipeline's proof data and its
body obligation. -/

-- membership in a rectangle of large extents: the structural look recurses once per coordinate of the long axes
set_option maxRecDepth 16384

noncomputable section

namespace Cert.Kernel.Pass

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses -/

/-- The whole of an input or output block (512 rows of 8 × 257). -/
abbrev rBlk1 : Rect S512x8x257 := Rect.unit (s := S512x8x257) ![0, 0, 0] S512x8x257.size inb_S512x8x257_S512x8x257_0_0_0
/-- The whole of the parameter block (8 rows of 8 × 257). -/
abbrev rPar1 : Rect S8x8x257 := Rect.unit (s := S8x8x257) ![0, 0, 0] S8x8x257.size inb_S8x8x257_S8x8x257_0_0_0

/-! ## What the body leaves in each output window's buffer -/

/-- The real output's buffer after the body, from the blocks read: one store over the whole buffer, of
    `Zrr*(xr-Mr) + Zri*(xi-Mi) + Br` (the skeleton's payload). -/
def outRe1 (x0 x1 : Vec F S512x8x257 .f32) (p : Vec F S8x8x257 .f32) : Vec F S512x8x257 .f32 :=
  View.canon [⟨rBlk1, k1_pay4 (View.ld p rPar1) (View.ld x0 rBlk1) (View.ld x1 rBlk1)⟩]

/-- The imaginary output's buffer after the body: one store over the whole buffer, of
    `Zir*(xr-Mr) + Zii*(xi-Mi) + Bi`. -/
def outIm1 (x0 x1 : Vec F S512x8x257 .f32) (p : Vec F S8x8x257 .f32) : Vec F S512x8x257 .f32 :=
  View.canon [⟨rBlk1, k1_pay5 (View.ld p rPar1) (View.ld x0 rBlk1) (View.ld x1 rBlk1)⟩]

/-- An input window's current staging buffer holds its block at every point, fetched there or not, for ANY proof
    data whose array is `V`'s (`hA`) and whose body leaves the block in place (`hafter`): where the pipeline does not
    fetch, the block index has not moved, and the previous point's block is this point's. The windows are uncut and
    never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The parameter window is fetched at the first point only; its index map is constant, so at every later point the
    buffer still holds the one block there is. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- One store over the whole buffer covers it. -/
theorem cover1 (p0 : Vec F S512x8x257 .f32) (y : S512x8x257.Idx) :
    ∃ pc ∈ ([⟨rBlk1, p0⟩] : List (View.Piece (Elt F) S512x8x257 .f32)), y ∈ pc.1.set :=
  View.cover_of_tiled [⟨rBlk1, p0⟩] S512x8x257.size (by rfl) y

/-! ## The body's triple -/

set_option maxHeartbeats 1000000 in
/-- The kernel body on whole staging memrefs, the three inputs' at read contents `x0`, `x1`, `p` and the outputs' at
    anything, runs to the continuation holding the inputs' as they were and each output's at its closed form of the
    inputs'. The body also loads each output buffer once before overwriting it; the loaded value is used nowhere. -/
theorem sound_kernel1 (c : Dev nD) (E : Set ℕ) (i : grid1.Coords)
    (arg1 : Memref sig .tc .vmem S512x8x257 .f32) (harg1 : arg1.IsWhole) (arg2 : Memref sig .tc .vmem S512x8x257 .f32) (harg2 : arg2.IsWhole)
    (arg3 : Memref sig .tc .vmem S8x8x257 .f32) (harg3 : arg3.IsWhole) (arg4 : Memref sig .tc .vmem S512x8x257 .f32) (harg4 : arg4.IsWhole)
    (arg5 : Memref sig .tc .vmem S512x8x257 .f32) (harg5 : arg5.IsWhole)
    (x0 x1 : Vec F S512x8x257 .f32) (p : Vec F S8x8x257 .f32) (K : PUnit → sProp 𝕄) :
    iprop(owns (c : Thread nD τ) arg1 fullShare x0 ∗ owns (c : Thread nD τ) arg2 fullShare x1 ∗ owns (c : Thread nD τ) arg3 fullShare p
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare p
            ∗ owns (c : Thread nD τ) arg4 fullShare (outRe1 x0 x1 p) ∗ owns (c : Thread nD τ) arg5 fullShare (outIm1 x0 x1 p)) -∗ K ⟨⟩))
      ⊢ wp frame (wpE (defs₀ (F := F)) Variants.none c none) E (cc1__affine_kernel i arg1 harg1 arg2 harg2 arg3 harg3 arg4 harg4 arg5 harg5) K := by
  simp only [cc1__affine_kernel_eq_skeleton]; unfold cc1__affine_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1 _)
  iexists _; isplitr
  swap; · iexact H4
  ipureintro
  exact View.read_writes_eq_canon _ _ _ (cover1 _)

/-! ## The pipeline's proof data -/

/-- The proof data of the second pipeline on core `c`: the arrays as the region finds them (`V`); after the body at
    point `t` each input's buffer at its block and each output's at its closed form of the three input blocks; the
    invariant the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outRe1 (iblk1 V c 0 t) (iblk1 V c 1 t) (iblk1 V c 2 t)
    | ⟨4, _⟩ => outIm1 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = outRe1 (iblk1 V c 0 t) (iblk1 V c 1 t) (iblk1 V c 2 t) := by dsimp only [dat1]
theorem after1_4 (c : Dev nD) (t : Fin cfg1.N) :
    (dat1 V c).after 4 t = outIm1 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Pass

end
-- ==== Proof.Word.TwoPass.lean ====
import proofs.«156525_j26182120636725_1_alg».proof.Proof.Word.StatsBody
import proofs.«156525_j26182120636725_1_alg».proof.Proof.Word.AffineBody
import proofs.«156525_j26182120636725_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The run of the two-pass program

@main is five items in a row: the statistics pass (the first pipeline: five sums over the batch axis into one
`(5, 8, 257)` array), three stretches of host operations that turn the sums into the eight parameter rows and stack
them into one `(8, 8, 257)` array, and the affine pass (the second pipeline: two outputs, pointwise in the two
inputs and the parameter rows). This module follows every TensorCore buffer through the five items: its contents
at each of the six boundaries as a fold from the launch memory, each pass as a region entered from the boundary
before it and left at the one after, each stretch as a line of operations between two boundaries, @main as the
run of the five, and one launch whose post reads every unscoped buffer at the last boundary's contents. The
arguments are read back through the fold to the launch memory: no stretch writes one, and a pass only reads the
two it takes as input windows. -/

-- membership in a rectangle of large extents: the structural look recurses once per coordinate of the long axes
set_option maxRecDepth 16384

noncomputable section

namespace Cert.Kernel.Pass

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through @main -/

/-- Core `c`'s buffers at launch: what the statistics pass is entered from. -/
abbrev W0 : Dev nD → Valuation τ sig (Elt F) := fun c b => m (c, b)
/-- The same read at the TensorCore's references (what the statistics pass's proof data take). -/
abbrev V0 : (c : Dev nD) → (b : Ref sig .tc) → Buf (Elt F) ((c : Thread nD τ).loc b) := fun c b => W0 m c b

/-- After the statistics pass: its arrays at what the pipeline leaves (the two inputs as entered, the sums' array at
    its write-backs folded over all sixteen points), every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same read at the TensorCore's references (the statistics pass's exit contents). -/
abbrev V1 : (c : Dev nD) → (b : Ref sig .tc) → Buf (Elt F) ((c : Thread nD τ).loc b) := fun c b => W1 m c b
/-- At the statistics pass's exit each of its arrays holds what the pipeline leaves (`hF0`) and every other buffer
    what it held at entry (`hrest0`). -/
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the first stretch (the sums divided by the batch size, the centred second moments, the two clamp bounds). -/
abbrev W2 : Dev nD → Valuation τ sig (Elt F) := fun c => StableHlo.after hostOps1 (W1 m c)
/-- After the second stretch (the determinant clamped between the two bounds). -/
abbrev W3 : Dev nD → Valuation τ sig (Elt F) := fun c => StableHlo.after hostOps1_1 (W2 m c)
/-- After the third stretch (the inverse square root's four entries, the four mixed weights, the two biases, all
    eight rows stacked): what the affine pass is entered from. -/
abbrev W4 : Dev nD → Valuation τ sig (Elt F) := fun c => StableHlo.after hostOps1_2 (W3 m c)
/-- The same read at the TensorCore's references (what the affine pass's proof data take). -/
abbrev V4 : (c : Dev nD) → (b : Ref sig .tc) → Buf (Elt F) ((c : Thread nD τ).loc b) := fun c b => W4 m c b

/-- After the affine pass, the end of @main: its arrays at what the pipeline leaves (the three inputs as entered,
    each output at its write-backs folded over all thirty-two points), every other buffer as entered. -/
def W5 (c : Dev nD) : Valuation τ sig (Elt F) :=
  Pipeline.withArrays spec1 c (W4 m c) fun w => (dat1 (V4 m) c).arrAt w cfg1.N
theorem W5_arr (c : Dev nD) (w : Fin cfg1.W) :
    W5 m c (Proc.devRef .tc (Pipeline.arrRef spec1 w)) = (dat1 (V4 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
/-- The same read at the TensorCore's references (the affine pass's exit contents). -/
abbrev V5 : (c : Dev nD) → (b : Ref sig .tc) → Buf (Elt F) ((c : Thread nD τ).loc b) := fun c b => W5 m c b
/-- At the affine pass's exit each of its arrays holds what the pipeline leaves (`hF1`) and every other buffer what
    it held at entry (`hrest1`). -/
theorem hF1 (c : Dev nD) (w : Fin cfg1.W) : (dat1 (V4 m) c).arrAt w cfg1.N = V5 m c (Pipeline.arrRef spec1 w) :=
  (W5_arr m c w).symm
theorem hrest1 (c : Dev nD) : ∀ b, b ∉ Finset.univ.image (Pipeline.arrRef spec1) → V5 m c b = V4 m c b :=
  fun b hb => W5_of_ne m c b fun w e => hb (Finset.mem_image.mpr ⟨w, Finset.mem_univ _, e⟩)

/-! ### The passes' outputs at the boundaries -/

/-- The sums' array after the statistics pass is the third window's array at the last point. -/
theorem W1_stats (c : Dev nD) : W1 m c (Proc.devRef .tc main_v0) = (dat0 (V0 m) c).arrAt 2 cfg0.N :=
  W1_arr m c 2
/-- The real output at the end is the fourth window's array at the last point, -/
theorem W5_re (c : Dev nD) : W5 m c (Proc.devRef .tc main_v64_0) = (dat1 (V4 m) c).arrAt 3 cfg1.N :=
  W5_arr m c 3
/-- and the imaginary output the fifth's. -/
theorem W5_im (c : Dev nD) : W5 m c (Proc.devRef .tc main_v64_1) = (dat1 (V4 m) c).arrAt 4 cfg1.N :=
  W5_arr m c 4

/-! ### What no stretch writes is carried across the three stretches -/

/-- A buffer none of the three stretches writes holds before the affine pass what the statistics pass left in it. -/
theorem W4_of_host (c : Dev nD) (r : Ref sig .tc) (h1 : r ∉ hostOps1_W) (h2 : r ∉ hostOps1_1_W) (h3 : r ∉ hostOps1_2_W) :
    W4 m c (Proc.devRef .tc r) = W1 m c (Proc.devRef .tc r) :=
  (StableHlo.after_of_writes_sub hostOps1_2 _ hostOps1_2_writes h3).trans <|
    (StableHlo.after_of_writes_sub hostOps1_1 _ hostOps1_1_writes h2).trans <|
    StableHlo.after_of_writes_sub hostOps1 _ hostOps1_writes h1

/-- The first stretch reads the sums' array and does not write it. -/
theorem W4_stats (c : Dev nD) : W2 m c (Proc.devRef .tc main_v0) = W1 m c (Proc.devRef .tc main_v0) :=
  StableHlo.after_of_writes_sub hostOps1 _ hostOps1_writes (by decide)
/-- No stretch writes the sums' array: the affine pass still finds it as the statistics pass left it. -/
theorem W4_v0 (c : Dev nD) : W4 m c (Proc.devRef .tc main_v0) = W1 m c (Proc.devRef .tc main_v0) :=
  W4_of_host m c main_v0 (by decide) (by decide) (by decide)

/-! ### The arguments end as launched: no stretch writes one, the statistics pass reads the first two through input
    windows and bypasses the rest, and so does the affine pass -/

theorem W1_arg0 (c : Dev nD) : W1 m c (Proc.devRef .tc main_arg0) = m ((c : Thread nD τ).loc main_arg0) :=
  (W1_arr m c 0).trans (((dat0 (V0 m) c).arrAt_in 0 rfl _).trans (A_eq0 (V0 m) c 0))
theorem W1_arg1 (c : Dev nD) : W1 m c (Proc.devRef .tc main_arg1) = m ((c : Thread nD τ).loc main_arg1) :=
  (W1_arr m c 1).trans (((dat0 (V0 m) c).arrAt_in 1 rfl _).trans (A_eq0 (V0 m) c 1))
theorem W1_arg2 (c : Dev nD) : W1 m c (Proc.devRef .tc main_arg2) = m ((c : Thread nD τ).loc main_arg2) :=
  W1_of_ne m c main_arg2 (by decide)
theorem W1_arg3 (c : Dev nD) : W1 m c (Proc.devRef .tc main_arg3) = m ((c : Thread nD τ).loc main_arg3) :=
  W1_of_ne m c main_arg3 (by decide)
theorem W1_arg4 (c : Dev nD) : W1 m c (Proc.devRef .tc main_arg4) = m ((c : Thread nD τ).loc main_arg4) :=
  W1_of_ne m c main_arg4 (by decide)
theorem W1_arg5 (c : Dev nD) : W1 m c (Proc.devRef .tc main_arg5) = m ((c : Thread nD τ).loc main_arg5) :=
  W1_of_ne m c main_arg5 (by decide)
theorem W1_arg6 (c : Dev nD) : W1 m c (Proc.devRef .tc main_arg6) = m ((c : Thread nD τ).loc main_arg6) :=
  W1_of_ne m c main_arg6 (by decide)

theorem W4_arg0 (c : Dev nD) : W4 m c (Proc.devRef .tc main_arg0) = m ((c : Thread nD τ).loc main_arg0) :=
  (W4_of_host m c main_arg0 (by decide) (by decide) (by decide)).trans (W1_arg0 m c)
theorem W4_arg1 (c : Dev nD) : W4 m c (Proc.devRef .tc main_arg1) = m ((c : Thread nD τ).loc main_arg1) :=
  (W4_of_host m c main_arg1 (by decide) (by decide) (by decide)).trans (W1_arg1 m c)
theorem W4_arg2 (c : Dev nD) : W4 m c (Proc.devRef .tc main_arg2) = m ((c : Thread nD τ).loc main_arg2) :=
  (W4_of_host m c main_arg2 (by decide) (by decide) (by decide)).trans (W1_arg2 m c)
theorem W4_arg3 (c : Dev nD) : W4 m c (Proc.devRef .tc main_arg3) = m ((c : Thread nD τ).loc main_arg3) :=
  (W4_of_host m c main_arg3 (by decide) (by decide) (by decide)).trans (W1_arg3 m c)
theorem W4_arg4 (c : Dev nD) : W4 m c (Proc.devRef .tc main_arg4) = m ((c : Thread nD τ).loc main_arg4) :=
  (W4_of_host m c main_arg4 (by decide) (by decide) (by decide)).trans (W1_arg4 m c)
theorem W4_arg5 (c : Dev nD) : W4 m c (Proc.devRef .tc main_arg5) = m ((c : Thread nD τ).loc main_arg5) :=
  (W4_of_host m c main_arg5 (by decide) (by decide) (by decide)).trans (W1_arg5 m c)
theorem W4_arg6 (c : Dev nD) : W4 m c (Proc.devRef .tc main_arg6) = m ((c : Thread nD τ).loc main_arg6) :=
  (W4_of_host m c main_arg6 (by decide) (by decide) (by decide)).trans (W1_arg6 m c)

theorem W5_arg0 (c : Dev nD) : W5 m c (Proc.devRef .tc main_arg0) = m ((c : Thread nD τ).loc main_arg0) :=
  (W5_arr m c 0).trans (((dat1 (V4 m) c).arrAt_in 0 rfl _).trans ((A_eq1 (V4 m) c 0).trans (W4_arg0 m c)))
theorem W5_arg1 (c : Dev nD) : W5 m c (Proc.devRef .tc main_arg1) = m ((c : Thread nD τ).loc main_arg1) :=
  (W5_arr m c 1).trans (((dat1 (V4 m) c).arrAt_in 1 rfl _).trans ((A_eq1 (V4 m) c 1).trans (W4_arg1 m c)))
theorem W5_arg2 (c : Dev nD) : W5 m c (Proc.devRef .tc main_arg2) = m ((c : Thread nD τ).loc main_arg2) :=
  (W5_of_ne m c main_arg2 (by decide)).trans (W4_arg2 m c)
theorem W5_arg3 (c : Dev nD) : W5 m c (Proc.devRef .tc main_arg3) = m ((c : Thread nD τ).loc main_arg3) :=
  (W5_of_ne m c main_arg3 (by decide)).trans (W4_arg3 m c)
theorem W5_arg4 (c : Dev nD) : W5 m c (Proc.devRef .tc main_arg4) = m ((c : Thread nD τ).loc main_arg4) :=
  (W5_of_ne m c main_arg4 (by decide)).trans (W4_arg4 m c)
theorem W5_arg5 (c : Dev nD) : W5 m c (Proc.devRef .tc main_arg5) = m ((c : Thread nD τ).loc main_arg5) :=
  (W5_of_ne m c main_arg5 (by decide)).trans (W4_arg5 m c)
theorem W5_arg6 (c : Dev nD) : W5 m c (Proc.devRef .tc main_arg6) = m ((c : Thread nD τ).loc main_arg6) :=
  (W5_of_ne m c main_arg6 (by decide)).trans (W4_arg6 m c)

/-! ## The proof data family and the thread state -/

/-- Every pipeline's proof data, each at its pass's entry contents — a literal `match`, so that the pinned
    configuration at a numeral reduces to the printed one. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V4 m) c
abbrev 𝒱₀ : Variants := Variants.none
/-- No core owes another anything: no level is assigned. -/
abbrev noPairs : GSem nD τ sig → Finset Unit := fun _ => ∅
abbrev noLevel : GSem nD τ sig → Unit → ℕ := fun _ _ => 0
/-- What rides beside the buffers through every item: the core's generator register at some state (each pass's
    invariant takes it in and gives it back) and its `owes`, at nothing. -/
abbrev Rest (c : Dev nD) : sProp 𝕄 := iprop((∃ r, prngReg c r) ∗ ∃ W, owes (c : Thread nD τ) (0 : CellTallies nD τ sig Unit) W)
/-- A stretch of host operations as an item: a line of operations over the unscoped references from the contents
    `W`, `Rest` riding along; it ends with those references at `StableHlo.after ops (W c)`, the next boundary's
    contents by name. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ noPairs noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the chain ends at it BESIDE the core owing nothing): every unscoped
    buffer at the last boundary's contents `W5`, the generator register at some state. -/
abbrev Tend (c : Dev nD) : sProp 𝕄 := iprop(StableHlo.held (c : Thread nD τ) (Pipeline.ucRefs τ sig) (W5 m c) ∗ ∃ r, prngReg c r)

/-! ## The passes as regions -/

-- a library lemma stated over the pinned configuration unifies with the printed one only when unification may
-- unfold plain definitions in a metavariable's type
set_option backward.isDefEq.respectTransparency.types false in
/-- THE STATISTICS PASS over the thread state: entered from every unscoped buffer at `W0` (the launch memory), left
    at `W1`. Its arrays split out of the unscoped buffers and put back at the exit contents; the generator register
    into the invariant and out; nothing owed; no semaphore of the kernel's own. -/
def reg0 : Pipeline.RegionSeg (pcfgs (F := F)) adm (pdats m) () defs₀ 𝒱₀ noPairs noLevel 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ noPairs noLevel 0 fun _ _ => rfl
  pre c := iprop(StableHlo.held (c : Thread nD τ) (Pipeline.ucRefs τ sig) (W0 m c) ∗ Rest c)
  post c := iprop(StableHlo.held (c : Thread nD τ) (Pipeline.ucRefs τ sig) (W1 m c) ∗ Rest c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- as above
set_option backward.isDefEq.respectTransparency.types false in
/-- THE AFFINE PASS over the thread state: entered from every unscoped buffer at `W4`, left at `W5` (what the launch
    reads at the end). Its arrays split out of the unscoped buffers and put back at the exit contents; the generator
    register into the invariant and out; nothing owed; no semaphore of the kernel's own. -/
def reg1 : Pipeline.RegionSeg (pcfgs (F := F)) adm (pdats m) () defs₀ 𝒱₀ noPairs noLevel 1 where
  win := launch1.win.to₀
  block_pos := launch1.block_pos
  stage_whole := launch1.stage_whole
  K := PEmpty
  osem k := k.elim
  ho := Pipeline.OwnSemFacts.none _
  hbody c := (body_obligation1 (V4 m) c).loose
  hwaits := Pipeline.hwaits_of_owed_zero _ _ _ _ noPairs noLevel 1 fun _ _ => rfl
  pre c := iprop(StableHlo.held (c : Thread nD τ) (Pipeline.ucRefs τ sig) (W4 m c) ∗ Rest c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V4 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V4 m c) (V5 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as its items, and the launch -/

/-- @main's five items in order: the statistics pass, a line of operations per stretch from its boundary's contents,
    the affine pass. -/
abbrev segs : List (Pipeline.Seg (pcfgs (F := F)) adm (pdats m) () defs₀ 𝒱₀ noPairs noLevel) :=
  [ .region (reg0 m),
    .host (hostSeg hostOps1 hostOps1_sub hostOps1_fresh (W1 m)),
    .host (hostSeg hostOps1_1 hostOps1_1_sub hostOps1_1_fresh (W2 m)),
    .host (hostSeg hostOps1_2 hostOps1_2_sub hostOps1_2_fresh (W3 m)),
    .region (reg1 m) ]
/-- @main IS the run of the five items: it is the chain of their programs, and the run of a list of items is the
    chain of the items' programs. -/
theorem main_run (c : Dev nD) : main (F := F) c = Pipeline.Seg.run (segs m) := by
  rewrite [main_chain c, Pipeline.Seg.run_eq_chain,
    show (segs m).map Pipeline.Seg.prog = [
      Prog.lift (.customCall (Pipeline.entry 0) ()),
      StableHlo.seq hostOps1,
      StableHlo.seq hostOps1_1,
      StableHlo.seq hostOps1_2,
      Prog.lift (.customCall (Pipeline.entry 1) ()) ] from rfl]
  rfl

-- the launch's implicit arguments are found by unifying its conclusion with this one, which takes unfolding plain
-- definitions in a metavariable's type
set_option backward.isDefEq.respectTransparency.types false in
/-- THE RUN: at the compiled mesh, from any memory with zero counters, every weakly fair execution of @main on the
    TensorCores terminates, nothing faulting, and every final state holds EVERY unscoped buffer at the last
    boundary's contents `W5`: the launch over the five items, the last thread state read against the final state. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W5 m c b) :=
  Pipeline.θ_run_regions_kit (pcfgs (F := F)) adm (pdats m) () cellOf_inj emb₁ defs₀ 𝒱₀ noPairs noLevel m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rest c)) (Tₙ := Tend m)
    (hch := ⟨fun _ => .rfl, fun _ => .rfl, fun _ => .rfl, fun _ => .rfl, fun _ => .rfl, fun _ => .rfl⟩)
    (hinit := by
      refine Pipeline.initEach noPairs noLevel fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- THE FRAME, at any float family: @main runs and every argument array ends as launched — each argument is an
    unscoped buffer, read at `W5` by `run_all` and walked back through the fold to the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W5_arg0 m c),
     (h c _ (mem_uc main_arg1 (by decide))).trans (W5_arg1 m c),
     (h c _ (mem_uc main_arg2 (by decide))).trans (W5_arg2 m c),
     (h c _ (mem_uc main_arg3 (by decide))).trans (W5_arg3 m c),
     (h c _ (mem_uc main_arg4 (by decide))).trans (W5_arg4 m c),
     (h c _ (mem_uc main_arg5 (by decide))).trans (W5_arg5 m c),
     (h c _ (mem_uc main_arg6 (by decide))).trans (W5_arg6 m c)⟩) (run_all m ρ)

end Cert.Kernel.Pass

end
-- ==== Proof.Ideal.StatsBody.lean ====
import proofs.«156525_j26182120636725_1_alg».proof.Proof.Gen.KernelIdeal.Launch
import proofs.«156525_j26182120636725_1_alg».proof.Proof.Gen.KernelIdeal.Skeleton
import proofs.«156525_j26182120636725_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The statistics pass, point by point

The first pallas_call walks the batch axis in 16 blocks of 1024 rows. Its output block (five rows of
running sums) stays in one staging buffer through the whole grid: at the first point it is filled with
zeros, at every point each of its five rows is read, a column sum of the current input blocks is added,
and the row is stored back; only the last point writes the block back to its array. This module states
what that buffer holds after each point, as a recursion on the point, at ANY contents `V` of the
TensorCore's buffers when the region is entered, and proves the pipeline's body obligation for it. -/

set_option maxRecDepth 16384

noncomputable section

namespace Cert.KernelIdeal.Pass

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for ANY proof data whose array is
    `V`'s and whose body leaves the block in place: the window is fetched whole and is never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The reset condition -/

/-- The condition under which the body zeroes the block of sums: the grid coordinate is 0. -/
abbrev isFirst0 (i : grid0.Coords) : Prop := (Scalar.cmpi .ne (Scalar.extui (Scalar.cmpi .eq (BitVec.ofNat 32 (i 0).val) 0#32)) 0#32) = 1#1
/-- It holds at the first point only — decided over the grid. -/
theorem isFirst0_iff : ∀ t : Fin cfg0.N, isFirst0 (grid0.coords t) ↔ t.val % 16 = 0 :=
  (by decide +kernel : ∀ t : Fin grid0.N, isFirst0 (grid0.coords t) ↔ t.val % 16 = 0)

/-! ## The staging memrefs the body is called with -/

/-- One staging view of the block of sums, through which its contents are stated (the choice does not matter:
    pieces that cover a whole buffer read back the same through any whole memref of the shape). -/
abbrev sumsView : View sig .tc .vmem S5x8x257 .f32 := (Memref.whole cc0_stg2_0 : Memref sig .tc .vmem S5x8x257 .f32).view
/-- Each window's current staging memref at point `t`, and its wholeness. -/
abbrev stg0_0 (t : Fin cfg0.N) : Memref sig .tc .vmem S1024x8x257 .f32 := win0_0.stage (cfg0.slots t 0)
abbrev hstg0_0 (t : Fin cfg0.N) : (stg0_0 t).IsWhole := hstage0_0 ((cfg0.slots t 0).cast nbuf0_0)
abbrev stg0_1 (t : Fin cfg0.N) : Memref sig .tc .vmem S1024x8x257 .f32 := win0_1.stage (cfg0.slots t 1)
abbrev hstg0_1 (t : Fin cfg0.N) : (stg0_1 t).IsWhole := hstage0_1 ((cfg0.slots t 1).cast nbuf0_1)
abbrev stg0_2 (t : Fin cfg0.N) : Memref sig .tc .vmem S5x8x257 .f32 := win0_2.stage (cfg0.slots t 2)
abbrev hstg0_2 (t : Fin cfg0.N) : (stg0_2 t).IsWhole := hstage0_2 ((cfg0.slots t 2).cast nbuf0_2)

/-! ## The body's run, case by case -/

set_option maxHeartbeats 1000000 in
/-- AT THE FIRST POINT (the reset condition holds): the pieces the body's stores leave in the block of sums, last
    first — the zero fill of the whole block, then one store per row of "row + column sum" —, WITH the proof that on
    whole staging memrefs, the two inputs' at their contents and the sums' at anything, the body runs to the
    continuation holding the inputs' as they were and the sums' buffer with those pieces written. -/
noncomputable def statsRunFirst (c : Dev nD) (i : grid0.Coords) (arg1 : Memref sig .tc .vmem S1024x8x257 .f32) (harg1 : arg1.IsWhole) (arg2 : Memref sig .tc .vmem S1024x8x257 .f32) (harg2 : arg2.IsWhole) (arg3 : Memref sig .tc .vmem S5x8x257 .f32) (harg3 : arg3.IsWhole) (h : isFirst0 i)
    (x0 x1 : Vec F S1024x8x257 .f32) :
    { L : List (View.Piece (Elt F) S5x8x257 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L)) -∗ K ⟨⟩))
          ⊢ wp frame (wpE (defs₀ (F := F)) Variants.none c none) E (cc0__stats_kernel i arg1 harg1 arg2 harg2 arg3 harg3) K } := by
  refine ⟨?_, fun E K => ?run⟩
  case run =>
    simp only [cc0__stats_kernel_eq_skeleton]; unfold cc0__stats_kernel_skel
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec (disch := first | exact h)
    sl_step
    iapply Hk
    isplitl [H0]
    · iexists _; isplitr; · ipureintro; exact harg1.read_unread _
      iexact H0
    isplitl [H1]
    · iexists _; isplitr; · ipureintro; exact harg2.read_unread _
      iexact H1
    iexists _; iexact H2

set_option maxHeartbeats 1000000 in
/-- AT A LATER POINT (the reset condition fails): the same with no fill, the sums' buffer entered at the running
    contents `acc` — each row's load reads `acc`'s row, the five row stores tile the block. -/
noncomputable def statsRunLater (c : Dev nD) (i : grid0.Coords) (arg1 : Memref sig .tc .vmem S1024x8x257 .f32) (harg1 : arg1.IsWhole) (arg2 : Memref sig .tc .vmem S1024x8x257 .f32) (harg2 : arg2.IsWhole) (arg3 : Memref sig .tc .vmem S5x8x257 .f32) (harg3 : arg3.IsWhole) (h : ¬isFirst0 i)
    (x0 x1 : Vec F S1024x8x257 .f32) (acc : Vec F S5x8x257 .f32) :
    { L : List (View.Piece (Elt F) S5x8x257 .f32) //
      ∀ (E : Set ℕ) (K : PUnit → sProp 𝕄),
        iprop(owns (c : Thread nD τ) arg1 fullShare x0 ∗ owns (c : Thread nD τ) arg2 fullShare x1 ∗ owns (c : Thread nD τ) arg3 fullShare acc
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L)) -∗ K ⟨⟩))
          ⊢ wp frame (wpE (defs₀ (F := F)) Variants.none c none) E (cc0__stats_kernel i arg1 harg1 arg2 harg2 arg3 harg3) K } := by
  refine ⟨?_, fun E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact h)
    sl_step
    iapply Hk
    isplitl [H0]
    · iexists _; isplitr; · ipureintro; exact harg1.read_unread _
      iexact H0
    isplitl [H1]
    · iexists _; isplitr; · ipureintro; exact harg2.read_unread _
      iexact H1
    iexists _; iexact H2

/-! ## What each case leaves in the block of sums -/

/-- The first point's pieces cover the block. -/
theorem coverFirst (c : Dev nD) (i : grid0.Coords) (arg1 : Memref sig .tc .vmem S1024x8x257 .f32) (harg1 : arg1.IsWhole) (arg2 : Memref sig .tc .vmem S1024x8x257 .f32) (harg2 : arg2.IsWhole) (arg3 : Memref sig .tc .vmem S5x8x257 .f32) (harg3 : arg3.IsWhole) (h : isFirst0 i)
    (x0 x1 : Vec F S1024x8x257 .f32) (y : S5x8x257.Idx) :
    ∃ pc ∈ (statsRunFirst c i arg1 harg1 arg2 harg2 arg3 harg3 h x0 x1).1, y ∈ pc.1.set := by
  exact View.cover_of_tiledL (statsRunFirst c i arg1 harg1 arg2 harg2 arg3 harg3 h x0 x1).1 S1x8x257.size (by sl_kernel_rfl) y

/-- What the first point leaves in the block of sums: its pieces read back over junk. -/
def sumsFirst (c : Dev nD) (i : grid0.Coords) (arg1 : Memref sig .tc .vmem S1024x8x257 .f32) (harg1 : arg1.IsWhole) (arg2 : Memref sig .tc .vmem S1024x8x257 .f32) (harg2 : arg2.IsWhole) (arg3 : Memref sig .tc .vmem S5x8x257 .f32) (harg3 : arg3.IsWhole) (h : isFirst0 i)
    (x0 x1 : Vec F S1024x8x257 .f32) : Vec F S5x8x257 .f32 :=
  sumsView.read (Elt F) (sumsView.writes (Elt F) sumsView.junk (statsRunFirst c i arg1 harg1 arg2 harg2 arg3 harg3 h x0 x1).1)

/-- A later point's pieces (five row stores) tile the block, so they cover it. -/
theorem coverLater (c : Dev nD) (i : grid0.Coords) (arg1 : Memref sig .tc .vmem S1024x8x257 .f32) (harg1 : arg1.IsWhole) (arg2 : Memref sig .tc .vmem S1024x8x257 .f32) (harg2 : arg2.IsWhole) (arg3 : Memref sig .tc .vmem S5x8x257 .f32) (harg3 : arg3.IsWhole) (h : ¬isFirst0 i)
    (x0 x1 : Vec F S1024x8x257 .f32) (acc : Vec F S5x8x257 .f32) (y : S5x8x257.Idx) :
    ∃ pc ∈ (statsRunLater c i arg1 harg1 arg2 harg2 arg3 harg3 h x0 x1 acc).1, y ∈ pc.1.set := by
  exact View.cover_of_tiledL (statsRunLater c i arg1 harg1 arg2 harg2 arg3 harg3 h x0 x1 acc).1 S1x8x257.size (by sl_kernel_rfl) y

/-- What a later point leaves in the block of sums: its pieces read back over junk. -/
def sumsLater (c : Dev nD) (i : grid0.Coords) (arg1 : Memref sig .tc .vmem S1024x8x257 .f32) (harg1 : arg1.IsWhole) (arg2 : Memref sig .tc .vmem S1024x8x257 .f32) (harg2 : arg2.IsWhole) (arg3 : Memref sig .tc .vmem S5x8x257 .f32) (harg3 : arg3.IsWhole) (h : ¬isFirst0 i)
    (x0 x1 : Vec F S1024x8x257 .f32) (acc : Vec F S5x8x257 .f32) : Vec F S5x8x257 .f32 :=
  sumsView.read (Elt F) (sumsView.writes (Elt F) sumsView.junk (statsRunLater c i arg1 harg1 arg2 harg2 arg3 harg3 h x0 x1 acc).1)

/-! ## The accumulation, point by point -/

/-- What the block of sums holds after the body at position `n`: at the first point the reset case at the point's
    memrefs and input blocks; at a later one the accumulating case over what this leaves at `n - 1` (the buffer is
    not written back in between). -/
def sumsAt (c : Dev nD) : (n : ℕ) → n < cfg0.N → Vec F S5x8x257 .f32
  | 0, hn => sumsFirst c (grid0.coords ⟨0, hn⟩) (stg0_0 ⟨0, hn⟩) (hstg0_0 ⟨0, hn⟩) (stg0_1 ⟨0, hn⟩) (hstg0_1 ⟨0, hn⟩) (stg0_2 ⟨0, hn⟩) (hstg0_2 ⟨0, hn⟩) ((isFirst0_iff ⟨0, hn⟩).mpr (Nat.zero_mod _)) (iblk0 V c 0 ⟨0, hn⟩) (iblk0 V c 1 ⟨0, hn⟩)
  | n + 1, hn =>
    if h0 : (n + 1) % 16 = 0 then
      sumsFirst c (grid0.coords ⟨n + 1, hn⟩) (stg0_0 ⟨n + 1, hn⟩) (hstg0_0 ⟨n + 1, hn⟩) (stg0_1 ⟨n + 1, hn⟩) (hstg0_1 ⟨n + 1, hn⟩) (stg0_2 ⟨n + 1, hn⟩) (hstg0_2 ⟨n + 1, hn⟩) ((isFirst0_iff ⟨n + 1, hn⟩).mpr h0) (iblk0 V c 0 ⟨n + 1, hn⟩) (iblk0 V c 1 ⟨n + 1, hn⟩)
    else
      sumsLater c (grid0.coords ⟨n + 1, hn⟩) (stg0_0 ⟨n + 1, hn⟩) (hstg0_0 ⟨n + 1, hn⟩) (stg0_1 ⟨n + 1, hn⟩) (hstg0_1 ⟨n + 1, hn⟩) (stg0_2 ⟨n + 1, hn⟩) (hstg0_2 ⟨n + 1, hn⟩) (fun h => h0 ((isFirst0_iff ⟨n + 1, hn⟩).mp h)) (iblk0 V c 0 ⟨n + 1, hn⟩) (iblk0 V c 1 ⟨n + 1, hn⟩) (sumsAt c n (Nat.lt_of_succ_lt hn))

/-- `sumsAt` at the first point: the reset case's contents. -/
theorem sumsAt_first (c : Dev nD) (t : Fin cfg0.N) (h0 : t.val % 16 = 0) :
    sumsAt V c t.val t.isLt = sumsFirst c (grid0.coords t) (stg0_0 t) (hstg0_0 t) (stg0_1 t) (hstg0_1 t) (stg0_2 t) (hstg0_2 t) ((isFirst0_iff t).mpr h0) (iblk0 V c 0 t) (iblk0 V c 1 t) := by
  obtain ⟨n, hn⟩ := t
  cases n with
  | zero => exact rfl
  | succ n => exact (dif_pos h0).trans rfl

/-- `sumsAt` at a later point: the accumulating case's contents, over what the point before left. -/
theorem sumsAt_later (c : Dev nD) (t : Fin cfg0.N) (h0 : ¬t.val % 16 = 0) :
    sumsAt V c t.val t.isLt = sumsLater c (grid0.coords t) (stg0_0 t) (hstg0_0 t) (stg0_1 t) (hstg0_1 t) (stg0_2 t) (hstg0_2 t) (fun h => h0 ((isFirst0_iff t).mp h)) (iblk0 V c 0 t) (iblk0 V c 1 t) (sumsAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the statistics pipeline on core `c`: the arrays as the region finds them (`V`); after the body
    at point `t` each input's buffer at its block and the sums' at `sumsAt`; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (sumsAt V c t.val t.isLt)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (sumsAt V c t.val t.isLt) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
/-- At a later point the sums' staging buffer holds what the body left at the point before: the point is not the
    first, and the buffer is written back at the last point only, so not in between. -/
theorem before0_2_later (c : Dev nD) (t : Fin cfg0.N) (h0 : ¬t.val % 16 = 0) (d) :
    (dat0 V c).before 2 t d = (sumsAt V c (t.val - 1) (Nat.lt_of_le_of_lt (Nat.sub_le _ _) t.isLt)) := by
  have hN : t.val < 16 := lt_of_lt_of_eq t.isLt (show cfg0.N = 16 from N_0)
  rw [Dat.before_out_kept _ 2 rfl t (by omega) (Bool.eq_false_iff.mpr fun h => by have := (flush0_2 _).mp h; dsimp only at this; omega)
    (fun _ => rfl) (fun _ _ => rfl)]
  dsimp only [dat0]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (stg0_0 t) fullShare ((dat0 V c).before 0 t d))
    ∗ (∃ d, owns (c : Thread nD τ) (stg0_1 t) fullShare ((dat0 V c).before 1 t d))
    ∗ (∃ d, owns (c : Thread nD τ) (stg0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (stg0_0 t) fullShare ((dat0 V c).after 0 t)
    ∗ owns (c : Thread nD τ) (stg0_1 t) fullShare ((dat0 V c).after 1 t)
    ∗ owns (c : Thread nD τ) (stg0_2 t) fullShare ((dat0 V c).after 2 t))

set_option maxHeartbeats 800000 in
/-- The body at any point: the inputs' memrefs hold their blocks; the closed form of the reset condition says which
    case the point is in; at a later point the sums' buffer holds what the point before left; so the case's run
    applies, and its pieces, covering the block, read back as `sumsAt` through the point's own staging memref. The
    invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  have hN : t.val < 16 := lt_of_lt_of_eq t.isLt (show cfg0.N = 16 from N_0)
  by_cases h0 : t.val % 16 = 0
  · rw [sumsAt_first V c t h0]
    unfold sumsFirst
    iintro ⟨HΦ, Ho, ⟨%d0, H0⟩, ⟨%d1, H1⟩, ⟨%d2, H2⟩⟩
    iapply ((statsRunFirst c (grid0.coords t) _ _ _ _ _ _ ((isFirst0_iff t).mpr h0) (iblk0 V c 0 t) (iblk0 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverFirst c _ _ _ _ _ _ _ _ _ _)
  · rw [sumsAt_later V c t h0]
    simp only [before0_2_later V c t h0]
    unfold sumsLater
    iintro ⟨HΦ, Ho, ⟨%d0, H0⟩, ⟨%d1, H1⟩, ⟨%d2, H2⟩⟩
    iapply ((statsRunLater c (grid0.coords t) _ _ _ _ _ _ (fun h => h0 ((isFirst0_iff t).mp h)) (iblk0 V c 0 t) (iblk0 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverLater c _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Pass

end
-- ==== Proof.Ideal.AffineBody.lean ====
import proofs.«156525_j26182120636725_1_alg».proof.Proof.Gen.KernelIdeal.Launch
import proofs.«156525_j26182120636725_1_alg».proof.Proof.Gen.KernelIdeal.Skeleton
import proofs.«156525_j26182120636725_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The affine pass at a parameter: the second pipeline's body half of the frame

The second kernel of the two-pass complex batch normalisation is pointwise: at every grid point it reads the whole
parameter block (eight rows of per-feature statistics) and one block of each of the two inputs (real and imaginary
parts), and overwrites one whole block of each of the two outputs. Stated at a PARAMETER `V` — the TensorCore's
buffer contents when the region is entered —: each window's block at a point, what the body leaves in each output
buffer as a closed function of the three blocks it read, the body's triple, the pipeline's proof data and its
body obligation. -/

-- membership in a rectangle of large extents: the structural look recurses once per coordinate of the long axes
set_option maxRecDepth 16384

noncomputable section

namespace Cert.KernelIdeal.Pass

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses -/

/-- The whole of an input or output block (512 rows of 8 × 257). -/
abbrev rBlk1 : Rect S512x8x257 := Rect.unit (s := S512x8x257) ![0, 0, 0] S512x8x257.size inb_S512x8x257_S512x8x257_0_0_0
/-- The whole of the parameter block (8 rows of 8 × 257). -/
abbrev rPar1 : Rect S8x8x257 := Rect.unit (s := S8x8x257) ![0, 0, 0] S8x8x257.size inb_S8x8x257_S8x8x257_0_0_0

/-! ## What the body leaves in each output window's buffer -/

/-- The real output's buffer after the body, from the blocks read: one store over the whole buffer, of
    `Zrr*(xr-Mr) + Zri*(xi-Mi) + Br` (the skeleton's payload). -/
def outRe1 (x0 x1 : Vec F S512x8x257 .f32) (p : Vec F S8x8x257 .f32) : Vec F S512x8x257 .f32 :=
  View.canon [⟨rBlk1, k1_pay4 (View.ld p rPar1) (View.ld x0 rBlk1) (View.ld x1 rBlk1)⟩]

/-- The imaginary output's buffer after the body: one store over the whole buffer, of
    `Zir*(xr-Mr) + Zii*(xi-Mi) + Bi`. -/
def outIm1 (x0 x1 : Vec F S512x8x257 .f32) (p : Vec F S8x8x257 .f32) : Vec F S512x8x257 .f32 :=
  View.canon [⟨rBlk1, k1_pay5 (View.ld p rPar1) (View.ld x0 rBlk1) (View.ld x1 rBlk1)⟩]

/-- An input window's current staging buffer holds its block at every point, fetched there or not, for ANY proof
    data whose array is `V`'s (`hA`) and whose body leaves the block in place (`hafter`): where the pipeline does not
    fetch, the block index has not moved, and the previous point's block is this point's. The windows are uncut and
    never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The parameter window is fetched at the first point only; its index map is constant, so at every later point the
    buffer still holds the one block there is. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- One store over the whole buffer covers it. -/
theorem cover1 (p0 : Vec F S512x8x257 .f32) (y : S512x8x257.Idx) :
    ∃ pc ∈ ([⟨rBlk1, p0⟩] : List (View.Piece (Elt F) S512x8x257 .f32)), y ∈ pc.1.set :=
  View.cover_of_tiled [⟨rBlk1, p0⟩] S512x8x257.size (by rfl) y

/-! ## The body's triple -/

set_option maxHeartbeats 1000000 in
/-- The kernel body on whole staging memrefs, the three inputs' at read contents `x0`, `x1`, `p` and the outputs' at
    anything, runs to the continuation holding the inputs' as they were and each output's at its closed form of the
    inputs'. The body also loads each output buffer once before overwriting it; the loaded value is used nowhere. -/
theorem sound_kernel1 (c : Dev nD) (E : Set ℕ) (i : grid1.Coords)
    (arg1 : Memref sig .tc .vmem S512x8x257 .f32) (harg1 : arg1.IsWhole) (arg2 : Memref sig .tc .vmem S512x8x257 .f32) (harg2 : arg2.IsWhole)
    (arg3 : Memref sig .tc .vmem S8x8x257 .f32) (harg3 : arg3.IsWhole) (arg4 : Memref sig .tc .vmem S512x8x257 .f32) (harg4 : arg4.IsWhole)
    (arg5 : Memref sig .tc .vmem S512x8x257 .f32) (harg5 : arg5.IsWhole)
    (x0 x1 : Vec F S512x8x257 .f32) (p : Vec F S8x8x257 .f32) (K : PUnit → sProp 𝕄) :
    iprop(owns (c : Thread nD τ) arg1 fullShare x0 ∗ owns (c : Thread nD τ) arg2 fullShare x1 ∗ owns (c : Thread nD τ) arg3 fullShare p
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare p
            ∗ owns (c : Thread nD τ) arg4 fullShare (outRe1 x0 x1 p) ∗ owns (c : Thread nD τ) arg5 fullShare (outIm1 x0 x1 p)) -∗ K ⟨⟩))
      ⊢ wp frame (wpE (defs₀ (F := F)) Variants.none c none) E (cc1__affine_kernel i arg1 harg1 arg2 harg2 arg3 harg3 arg4 harg4 arg5 harg5) K := by
  simp only [cc1__affine_kernel_eq_skeleton]; unfold cc1__affine_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1 _)
  iexists _; isplitr
  swap; · iexact H4
  ipureintro
  exact View.read_writes_eq_canon _ _ _ (cover1 _)

/-! ## The pipeline's proof data -/

/-- The proof data of the second pipeline on core `c`: the arrays as the region finds them (`V`); after the body at
    point `t` each input's buffer at its block and each output's at its closed form of the three input blocks; the
    invariant the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outRe1 (iblk1 V c 0 t) (iblk1 V c 1 t) (iblk1 V c 2 t)
    | ⟨4, _⟩ => outIm1 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = outRe1 (iblk1 V c 0 t) (iblk1 V c 1 t) (iblk1 V c 2 t) := by dsimp only [dat1]
theorem after1_4 (c : Dev nD) (t : Fin cfg1.N) :
    (dat1 V c).after 4 t = outIm1 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Pass

end
-- ==== Proof.Ideal.TwoPass.lean ====
import proofs.«156525_j26182120636725_1_alg».proof.Proof.Ideal.StatsBody
import proofs.«156525_j26182120636725_1_alg».proof.Proof.Ideal.AffineBody
import proofs.«156525_j26182120636725_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The run of the two-pass program

@main is five items in a row: the statistics pass (the first pipeline: five sums over the batch axis into one
`(5, 8, 257)` array), three stretches of host operations that turn the sums into the eight parameter rows and stack
them into one `(8, 8, 257)` array, and the affine pass (the second pipeline: two outputs, pointwise in the two
inputs and the parameter rows). This module follows every TensorCore buffer through the five items: its contents
at each of the six boundaries as a fold from the launch memory, each pass as a region entered from the boundary
before it and left at the one after, each stretch as a line of operations between two boundaries, @main as the
run of the five, and one launch whose post reads every unscoped buffer at the last boundary's contents. The
arguments are read back through the fold to the launch memory: no stretch writes one, and a pass only reads the
two it takes as input windows. -/

-- membership in a rectangle of large extents: the structural look recurses once per coordinate of the long axes
set_option maxRecDepth 16384

noncomputable section

namespace Cert.KernelIdeal.Pass

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through @main -/

/-- Core `c`'s buffers at launch: what the statistics pass is entered from. -/
abbrev W0 : Dev nD → Valuation τ sig (Elt F) := fun c b => m (c, b)
/-- The same read at the TensorCore's references (what the statistics pass's proof data take). -/
abbrev V0 : (c : Dev nD) → (b : Ref sig .tc) → Buf (Elt F) ((c : Thread nD τ).loc b) := fun c b => W0 m c b

/-- After the statistics pass: its arrays at what the pipeline leaves (the two inputs as entered, the sums' array at
    its write-backs folded over all sixteen points), every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same read at the TensorCore's references (the statistics pass's exit contents). -/
abbrev V1 : (c : Dev nD) → (b : Ref sig .tc) → Buf (Elt F) ((c : Thread nD τ).loc b) := fun c b => W1 m c b
/-- At the statistics pass's exit each of its arrays holds what the pipeline leaves (`hF0`) and every other buffer
    what it held at entry (`hrest0`). -/
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the first stretch (the sums divided by the batch size, the centred second moments, the two clamp bounds). -/
abbrev W2 : Dev nD → Valuation τ sig (Elt F) := fun c => StableHlo.after hostOps1 (W1 m c)
/-- After the second stretch (the determinant clamped between the two bounds). -/
abbrev W3 : Dev nD → Valuation τ sig (Elt F) := fun c => StableHlo.after hostOps1_1 (W2 m c)
/-- After the third stretch (the inverse square root's four entries, the four mixed weights, the two biases, all
    eight rows stacked): what the affine pass is entered from. -/
abbrev W4 : Dev nD → Valuation τ sig (Elt F) := fun c => StableHlo.after hostOps1_2 (W3 m c)
/-- The same read at the TensorCore's references (what the affine pass's proof data take). -/
abbrev V4 : (c : Dev nD) → (b : Ref sig .tc) → Buf (Elt F) ((c : Thread nD τ).loc b) := fun c b => W4 m c b

/-- After the affine pass, the end of @main: its arrays at what the pipeline leaves (the three inputs as entered,
    each output at its write-backs folded over all thirty-two points), every other buffer as entered. -/
def W5 (c : Dev nD) : Valuation τ sig (Elt F) :=
  Pipeline.withArrays spec1 c (W4 m c) fun w => (dat1 (V4 m) c).arrAt w cfg1.N
theorem W5_arr (c : Dev nD) (w : Fin cfg1.W) :
    W5 m c (Proc.devRef .tc (Pipeline.arrRef spec1 w)) = (dat1 (V4 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
/-- The same read at the TensorCore's references (the affine pass's exit contents). -/
abbrev V5 : (c : Dev nD) → (b : Ref sig .tc) → Buf (Elt F) ((c : Thread nD τ).loc b) := fun c b => W5 m c b
/-- At the affine pass's exit each of its arrays holds what the pipeline leaves (`hF1`) and every other buffer what
    it held at entry (`hrest1`). -/
theorem hF1 (c : Dev nD) (w : Fin cfg1.W) : (dat1 (V4 m) c).arrAt w cfg1.N = V5 m c (Pipeline.arrRef spec1 w) :=
  (W5_arr m c w).symm
theorem hrest1 (c : Dev nD) : ∀ b, b ∉ Finset.univ.image (Pipeline.arrRef spec1) → V5 m c b = V4 m c b :=
  fun b hb => W5_of_ne m c b fun w e => hb (Finset.mem_image.mpr ⟨w, Finset.mem_univ _, e⟩)

/-! ### The passes' outputs at the boundaries -/

/-- The sums' array after the statistics pass is the third window's array at the last point. -/
theorem W1_stats (c : Dev nD) : W1 m c (Proc.devRef .tc main_v0) = (dat0 (V0 m) c).arrAt 2 cfg0.N :=
  W1_arr m c 2
/-- The real output at the end is the fourth window's array at the last point, -/
theorem W5_re (c : Dev nD) : W5 m c (Proc.devRef .tc main_v64_0) = (dat1 (V4 m) c).arrAt 3 cfg1.N :=
  W5_arr m c 3
/-- and the imaginary output the fifth's. -/
theorem W5_im (c : Dev nD) : W5 m c (Proc.devRef .tc main_v64_1) = (dat1 (V4 m) c).arrAt 4 cfg1.N :=
  W5_arr m c 4

/-! ### What no stretch writes is carried across the three stretches -/

/-- A buffer none of the three stretches writes holds before the affine pass what the statistics pass left in it. -/
theorem W4_of_host (c : Dev nD) (r : Ref sig .tc) (h1 : r ∉ hostOps1_W) (h2 : r ∉ hostOps1_1_W) (h3 : r ∉ hostOps1_2_W) :
    W4 m c (Proc.devRef .tc r) = W1 m c (Proc.devRef .tc r) :=
  (StableHlo.after_of_writes_sub hostOps1_2 _ hostOps1_2_writes h3).trans <|
    (StableHlo.after_of_writes_sub hostOps1_1 _ hostOps1_1_writes h2).trans <|
    StableHlo.after_of_writes_sub hostOps1 _ hostOps1_writes h1

/-- The first stretch reads the sums' array and does not write it. -/
theorem W4_stats (c : Dev nD) : W2 m c (Proc.devRef .tc main_v0) = W1 m c (Proc.devRef .tc main_v0) :=
  StableHlo.after_of_writes_sub hostOps1 _ hostOps1_writes (by decide)
/-- No stretch writes the sums' array: the affine pass still finds it as the statistics pass left it. -/
theorem W4_v0 (c : Dev nD) : W4 m c (Proc.devRef .tc main_v0) = W1 m c (Proc.devRef .tc main_v0) :=
  W4_of_host m c main_v0 (by decide) (by decide) (by decide)

/-! ### The arguments end as launched: no stretch writes one, the statistics pass reads the first two through input
    windows and bypasses the rest, and so does the affine pass -/

theorem W1_arg0 (c : Dev nD) : W1 m c (Proc.devRef .tc main_arg0) = m ((c : Thread nD τ).loc main_arg0) :=
  (W1_arr m c 0).trans (((dat0 (V0 m) c).arrAt_in 0 rfl _).trans (A_eq0 (V0 m) c 0))
theorem W1_arg1 (c : Dev nD) : W1 m c (Proc.devRef .tc main_arg1) = m ((c : Thread nD τ).loc main_arg1) :=
  (W1_arr m c 1).trans (((dat0 (V0 m) c).arrAt_in 1 rfl _).trans (A_eq0 (V0 m) c 1))
theorem W1_arg2 (c : Dev nD) : W1 m c (Proc.devRef .tc main_arg2) = m ((c : Thread nD τ).loc main_arg2) :=
  W1_of_ne m c main_arg2 (by decide)
theorem W1_arg3 (c : Dev nD) : W1 m c (Proc.devRef .tc main_arg3) = m ((c : Thread nD τ).loc main_arg3) :=
  W1_of_ne m c main_arg3 (by decide)
theorem W1_arg4 (c : Dev nD) : W1 m c (Proc.devRef .tc main_arg4) = m ((c : Thread nD τ).loc main_arg4) :=
  W1_of_ne m c main_arg4 (by decide)
theorem W1_arg5 (c : Dev nD) : W1 m c (Proc.devRef .tc main_arg5) = m ((c : Thread nD τ).loc main_arg5) :=
  W1_of_ne m c main_arg5 (by decide)
theorem W1_arg6 (c : Dev nD) : W1 m c (Proc.devRef .tc main_arg6) = m ((c : Thread nD τ).loc main_arg6) :=
  W1_of_ne m c main_arg6 (by decide)

theorem W4_arg0 (c : Dev nD) : W4 m c (Proc.devRef .tc main_arg0) = m ((c : Thread nD τ).loc main_arg0) :=
  (W4_of_host m c main_arg0 (by decide) (by decide) (by decide)).trans (W1_arg0 m c)
theorem W4_arg1 (c : Dev nD) : W4 m c (Proc.devRef .tc main_arg1) = m ((c : Thread nD τ).loc main_arg1) :=
  (W4_of_host m c main_arg1 (by decide) (by decide) (by decide)).trans (W1_arg1 m c)
theorem W4_arg2 (c : Dev nD) : W4 m c (Proc.devRef .tc main_arg2) = m ((c : Thread nD τ).loc main_arg2) :=
  (W4_of_host m c main_arg2 (by decide) (by decide) (by decide)).trans (W1_arg2 m c)
theorem W4_arg3 (c : Dev nD) : W4 m c (Proc.devRef .tc main_arg3) = m ((c : Thread nD τ).loc main_arg3) :=
  (W4_of_host m c main_arg3 (by decide) (by decide) (by decide)).trans (W1_arg3 m c)
theorem W4_arg4 (c : Dev nD) : W4 m c (Proc.devRef .tc main_arg4) = m ((c : Thread nD τ).loc main_arg4) :=
  (W4_of_host m c main_arg4 (by decide) (by decide) (by decide)).trans (W1_arg4 m c)
theorem W4_arg5 (c : Dev nD) : W4 m c (Proc.devRef .tc main_arg5) = m ((c : Thread nD τ).loc main_arg5) :=
  (W4_of_host m c main_arg5 (by decide) (by decide) (by decide)).trans (W1_arg5 m c)
theorem W4_arg6 (c : Dev nD) : W4 m c (Proc.devRef .tc main_arg6) = m ((c : Thread nD τ).loc main_arg6) :=
  (W4_of_host m c main_arg6 (by decide) (by decide) (by decide)).trans (W1_arg6 m c)

theorem W5_arg0 (c : Dev nD) : W5 m c (Proc.devRef .tc main_arg0) = m ((c : Thread nD τ).loc main_arg0) :=
  (W5_arr m c 0).trans (((dat1 (V4 m) c).arrAt_in 0 rfl _).trans ((A_eq1 (V4 m) c 0).trans (W4_arg0 m c)))
theorem W5_arg1 (c : Dev nD) : W5 m c (Proc.devRef .tc main_arg1) = m ((c : Thread nD τ).loc main_arg1) :=
  (W5_arr m c 1).trans (((dat1 (V4 m) c).arrAt_in 1 rfl _).trans ((A_eq1 (V4 m) c 1).trans (W4_arg1 m c)))
theorem W5_arg2 (c : Dev nD) : W5 m c (Proc.devRef .tc main_arg2) = m ((c : Thread nD τ).loc main_arg2) :=
  (W5_of_ne m c main_arg2 (by decide)).trans (W4_arg2 m c)
theorem W5_arg3 (c : Dev nD) : W5 m c (Proc.devRef .tc main_arg3) = m ((c : Thread nD τ).loc main_arg3) :=
  (W5_of_ne m c main_arg3 (by decide)).trans (W4_arg3 m c)
theorem W5_arg4 (c : Dev nD) : W5 m c (Proc.devRef .tc main_arg4) = m ((c : Thread nD τ).loc main_arg4) :=
  (W5_of_ne m c main_arg4 (by decide)).trans (W4_arg4 m c)
theorem W5_arg5 (c : Dev nD) : W5 m c (Proc.devRef .tc main_arg5) = m ((c : Thread nD τ).loc main_arg5) :=
  (W5_of_ne m c main_arg5 (by decide)).trans (W4_arg5 m c)
theorem W5_arg6 (c : Dev nD) : W5 m c (Proc.devRef .tc main_arg6) = m ((c : Thread nD τ).loc main_arg6) :=
  (W5_of_ne m c main_arg6 (by decide)).trans (W4_arg6 m c)

/-! ## The proof data family and the thread state -/

/-- Every pipeline's proof data, each at its pass's entry contents — a literal `match`, so that the pinned
    configuration at a numeral reduces to the printed one. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V4 m) c
abbrev 𝒱₀ : Variants := Variants.none
/-- No core owes another anything: no level is assigned. -/
abbrev noPairs : GSem nD τ sig → Finset Unit := fun _ => ∅
abbrev noLevel : GSem nD τ sig → Unit → ℕ := fun _ _ => 0
/-- What rides beside the buffers through every item: the core's generator register at some state (each pass's
    invariant takes it in and gives it back) and its `owes`, at nothing. -/
abbrev Rest (c : Dev nD) : sProp 𝕄 := iprop((∃ r, prngReg c r) ∗ ∃ W, owes (c : Thread nD τ) (0 : CellTallies nD τ sig Unit) W)
/-- A stretch of host operations as an item: a line of operations over the unscoped references from the contents
    `W`, `Rest` riding along; it ends with those references at `StableHlo.after ops (W c)`, the next boundary's
    contents by name. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ noPairs noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the chain ends at it BESIDE the core owing nothing): every unscoped
    buffer at the last boundary's contents `W5`, the generator register at some state. -/
abbrev Tend (c : Dev nD) : sProp 𝕄 := iprop(StableHlo.held (c : Thread nD τ) (Pipeline.ucRefs τ sig) (W5 m c) ∗ ∃ r, prngReg c r)

/-! ## The passes as regions -/

-- a library lemma stated over the pinned configuration unifies with the printed one only when unification may
-- unfold plain definitions in a metavariable's type
set_option backward.isDefEq.respectTransparency.types false in
/-- THE STATISTICS PASS over the thread state: entered from every unscoped buffer at `W0` (the launch memory), left
    at `W1`. Its arrays split out of the unscoped buffers and put back at the exit contents; the generator register
    into the invariant and out; nothing owed; no semaphore of the kernel's own. -/
def reg0 : Pipeline.RegionSeg (pcfgs (F := F)) adm (pdats m) () defs₀ 𝒱₀ noPairs noLevel 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ noPairs noLevel 0 fun _ _ => rfl
  pre c := iprop(StableHlo.held (c : Thread nD τ) (Pipeline.ucRefs τ sig) (W0 m c) ∗ Rest c)
  post c := iprop(StableHlo.held (c : Thread nD τ) (Pipeline.ucRefs τ sig) (W1 m c) ∗ Rest c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- as above
set_option backward.isDefEq.respectTransparency.types false in
/-- THE AFFINE PASS over the thread state: entered from every unscoped buffer at `W4`, left at `W5` (what the launch
    reads at the end). Its arrays split out of the unscoped buffers and put back at the exit contents; the generator
    register into the invariant and out; nothing owed; no semaphore of the kernel's own. -/
def reg1 : Pipeline.RegionSeg (pcfgs (F := F)) adm (pdats m) () defs₀ 𝒱₀ noPairs noLevel 1 where
  win := launch1.win.to₀
  block_pos := launch1.block_pos
  stage_whole := launch1.stage_whole
  K := PEmpty
  osem k := k.elim
  ho := Pipeline.OwnSemFacts.none _
  hbody c := (body_obligation1 (V4 m) c).loose
  hwaits := Pipeline.hwaits_of_owed_zero _ _ _ _ noPairs noLevel 1 fun _ _ => rfl
  pre c := iprop(StableHlo.held (c : Thread nD τ) (Pipeline.ucRefs τ sig) (W4 m c) ∗ Rest c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V4 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V4 m c) (V5 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as its items, and the launch -/

/-- @main's five items in order: the statistics pass, a line of operations per stretch from its boundary's contents,
    the affine pass. -/
abbrev segs : List (Pipeline.Seg (pcfgs (F := F)) adm (pdats m) () defs₀ 𝒱₀ noPairs noLevel) :=
  [ .region (reg0 m),
    .host (hostSeg hostOps1 hostOps1_sub hostOps1_fresh (W1 m)),
    .host (hostSeg hostOps1_1 hostOps1_1_sub hostOps1_1_fresh (W2 m)),
    .host (hostSeg hostOps1_2 hostOps1_2_sub hostOps1_2_fresh (W3 m)),
    .region (reg1 m) ]
/-- @main IS the run of the five items: it is the chain of their programs, and the run of a list of items is the
    chain of the items' programs. -/
theorem main_run (c : Dev nD) : main (F := F) c = Pipeline.Seg.run (segs m) := by
  rewrite [main_chain c, Pipeline.Seg.run_eq_chain,
    show (segs m).map Pipeline.Seg.prog = [
      Prog.lift (.customCall (Pipeline.entry 0) ()),
      StableHlo.seq hostOps1,
      StableHlo.seq hostOps1_1,
      StableHlo.seq hostOps1_2,
      Prog.lift (.customCall (Pipeline.entry 1) ()) ] from rfl]
  rfl

-- the launch's implicit arguments are found by unifying its conclusion with this one, which takes unfolding plain
-- definitions in a metavariable's type
set_option backward.isDefEq.respectTransparency.types false in
/-- THE RUN: at the compiled mesh, from any memory with zero counters, every weakly fair execution of @main on the
    TensorCores terminates, nothing faulting, and every final state holds EVERY unscoped buffer at the last
    boundary's contents `W5`: the launch over the five items, the last thread state read against the final state. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W5 m c b) :=
  Pipeline.θ_run_regions_kit (pcfgs (F := F)) adm (pdats m) () cellOf_inj emb₁ defs₀ 𝒱₀ noPairs noLevel m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rest c)) (Tₙ := Tend m)
    (hch := ⟨fun _ => .rfl, fun _ => .rfl, fun _ => .rfl, fun _ => .rfl, fun _ => .rfl, fun _ => .rfl⟩)
    (hinit := by
      refine Pipeline.initEach noPairs noLevel fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- THE FRAME, at any float family: @main runs and every argument array ends as launched — each argument is an
    unscoped buffer, read at `W5` by `run_all` and walked back through the fold to the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W5_arg0 m c),
     (h c _ (mem_uc main_arg1 (by decide))).trans (W5_arg1 m c),
     (h c _ (mem_uc main_arg2 (by decide))).trans (W5_arg2 m c),
     (h c _ (mem_uc main_arg3 (by decide))).trans (W5_arg3 m c),
     (h c _ (mem_uc main_arg4 (by decide))).trans (W5_arg4 m c),
     (h c _ (mem_uc main_arg5 (by decide))).trans (W5_arg5 m c),
     (h c _ (mem_uc main_arg6 (by decide))).trans (W5_arg6 m c)⟩) (run_all m ρ)

end Cert.KernelIdeal.Pass

end
-- ==== Proof.Ideal.StatsValue.lean ====
import proofs.«156525_j26182120636725_1_alg».proof.Proof.Ideal.StatsBody
import Idealize.ShloMosaic.Lib.Pipeline.Value
import Idealize.ShloMosaic.Lib.ValueIdx
import Idealize.ShloMosaic.Lib.ValueLayout
import Idealize.ShloMosaic.PureOps.Ideal.Laws

/-! # The statistics pass: what its result array holds, at the ideal instance

Over the extended reals the first pallas_call leaves in its [5, 8, 257] result array the five column sums over the
whole batch axis (16384 rows) of x, y, x·x, x·y and y·y, x and y the two input arrays as the region finds them.

The road. Each grid point's body ends in five row stores, row k receiving "row k of what the block held + the k-th
column sum of the point's two input blocks" (under them, at the first point, a fill of zeros): so one point's step is
read entry by entry (`rowStores_apply`), the first point leaving block 0's column sums (0 + a = a) and a later point
adding its own to what the point before left. By induction on the point the block holds after point n the column
sums of blocks 0 … n added up (`sumsAt_apply`); the block is written back once, after the last point, and is the
whole array (`final_sums`); and sixteen blocks of 1024 rows are the 16384 rows of the batch (`sum_blocks`). Addition
of extended reals is associative and commutative with 0 neutral, so no finiteness is asked of the inputs. -/

set_option maxRecDepth 16384

noncomputable section

namespace Cert.KernelIdeal.Pass

open Cert.KernelIdeal Cert.KernelIdeal.Gen
open Idealize.ShloMosaic Idealize.ShloMosaic.TcCoe Idealize.ShloMosaic.Tactic Idealize.SL.Sem
open Idealize.ShloMosaic.Pipeline (Dat)
open Idealize.ShloMosaic.ValueIdx

namespace Stats

theorem hz3 : (![0, 0, 0] : Fin 3 → ℕ) = fun _ => 0 := funext fun a => by fin_cases a <;> rfl

/-! ## Rows of the block of sums -/

section Rows
variable {Val : EltTy → Type} [∀ e, Nonempty (Val e)]

/-- Row `k`'s rectangle sends (0, ch, f) to (k, ch, f). -/
theorem row_idx (k : ℕ) (hk : k < 5) (inb : ∀ a, ![k, 0, 0] a + ![1, 8, 257] a ≤ S5x8x257.size a) (u : Fin 1) (ch : Fin 8) (f : Fin 257) :
    (Rect.unit (s := S5x8x257) ![k, 0, 0] ![1, 8, 257] inb).idx (ix3 u ch f) = ix3 (⟨k, hk⟩ : Fin 5) ch f := by
  funext a
  apply Fin.ext
  have hu : u.val = 0 := by omega
  match a with
  | ⟨0, _⟩ => show k + 1 * u.val = k; omega
  | ⟨1, _⟩ => show 0 + 1 * ch.val = ch.val; omega
  | ⟨2, _⟩ => show 0 + 1 * f.val = f.val; omega

/-- The same at any index of the row's own shape. -/
theorem row_idx_gen (k : ℕ) (hk : k < 5) (inb : ∀ a, ![k, 0, 0] a + ![1, 8, 257] a ≤ S5x8x257.size a)
    (x : (Rect.unit (s := S5x8x257) ![k, 0, 0] ![1, 8, 257] inb).shape.Idx) :
    (Rect.unit (s := S5x8x257) ![k, 0, 0] ![1, 8, 257] inb).idx x = ix3 (⟨k, hk⟩ : Fin 5) (x 1) (x 2) := by
  funext a
  apply Fin.ext
  have hu : (x 0).val = 0 := by have : (x 0).val < 1 := (x 0).isLt; omega
  match a with
  | ⟨0, _⟩ => show k + 1 * (x 0).val = k; omega
  | ⟨1, _⟩ => show 0 + 1 * (x 1).val = (x 1).val; omega
  | ⟨2, _⟩ => show 0 + 1 * (x 2).val = (x 2).val; omega

/-- An index of row `k` is in no other row's rectangle. -/
theorem not_mem_row {j k : ℕ} (hjk : j ≠ k) (hk : k < 5) (inb : ∀ a, ![j, 0, 0] a + ![1, 8, 257] a ≤ S5x8x257.size a) (ch : Fin 8) (f : Fin 257) :
    ix3 (⟨k, hk⟩ : Fin 5) ch f ∉ (Rect.unit (s := S5x8x257) ![j, 0, 0] ![1, 8, 257] inb).set := by
  rw [Rect.mem_set_unit]
  intro hm
  have h0 := hm 0
  have e : ((ix3 (⟨k, hk⟩ : Fin 5) ch f : S5x8x257.Idx) 0 : ℕ) = k := rfl
  rw [e] at h0
  have e1 : (![j, 0, 0] : Fin 3 → ℕ) 0 = j := rfl
  have e2 : (![1, 8, 257] : Fin 3 → ℕ) 0 = 1 := rfl
  rw [e1, e2] at h0
  omega

/-- Under row `k`'s store, last, an index of row `k` reads its payload; -/
theorem canon_row_hit (k : ℕ) (hk : k < 5) (inb : ∀ a, ![k, 0, 0] a + ![1, 8, 257] a ≤ S5x8x257.size a)
    (w : S1x8x257.Idx → Val .f32) (L : List (View.Piece Val S5x8x257 .f32)) (ch : Fin 8) (f : Fin 257) :
    View.canon (⟨Rect.unit (s := S5x8x257) ![k, 0, 0] ![1, 8, 257] inb, w⟩ :: L) (ix3 (⟨k, hk⟩ : Fin 5) ch f) = w (ix3 0 ch f) := by
  rw [← row_idx k hk inb 0 ch f]
  exact View.canon_cons_emb (Rect.unit (s := S5x8x257) ![k, 0, 0] ![1, 8, 257] inb) w L (ix3 0 ch f)

/-- under another row's, what the earlier stores left. -/
theorem canon_row_skip {j k : ℕ} (hjk : j ≠ k) (hk : k < 5) (inb : ∀ a, ![j, 0, 0] a + ![1, 8, 257] a ≤ S5x8x257.size a)
    (w : S1x8x257.Idx → Val .f32) (L : List (View.Piece Val S5x8x257 .f32)) (ch : Fin 8) (f : Fin 257) :
    View.canon (⟨Rect.unit (s := S5x8x257) ![j, 0, 0] ![1, 8, 257] inb, w⟩ :: L) (ix3 (⟨k, hk⟩ : Fin 5) ch f)
      = View.canon L (ix3 (⟨k, hk⟩ : Fin 5) ch f) :=
  View.canon_cons_of_not_mem _ L (not_mem_row hjk hk inb ch f)

end Rows

/-! ## A column sum added to a row, at the ideal instance -/

/-- The reduced index (ch, f) with the batch coordinate `r` inserted is (r, ch, f). -/
theorem lift_ix (h : S1024x8x257.Reduces [0] S8x257) (ch : Fin 8) (f : Fin 257) (r : Fin 1024) :
    h.lift (ix2 ch f) r = ix3 r ch f := by
  funext a
  apply Fin.ext
  match a with
  | ⟨0, _⟩ => rfl
  | ⟨1, _⟩ => rfl
  | ⟨2, _⟩ => rfl

theorem rowPlusColSum (src : FVec Ideal S1024x8x257 .f32) (v : Vec Ideal S1x8x257 .f32)
    (h1 : S1x8x257.ShapeCasts S1x8x257) (h2 : S8x257.ShapeCasts S1x8x257) (hr : S1024x8x257.Reduces [0] S8x257)
    (hφ : FKind.Formats .f32) (hacc : (0x00000000#32 : BitVec 32) = FKind.add.neutral .f32 hφ) (ch : Fin 8) (f : Fin 257) :
    addf (shapeCast S1x8x257 v h1) (shapeCast S1x8x257 (multiReduction (F := Ideal) .add [0] S8x257 src 0x00000000#32 hr hφ hacc) h2) (ix3 0 ch f)
      = v (ix3 0 ch f) + ∑ r : Fin 1024, src (ix3 r ch f) := by
  refine (addf_apply _ _ _).trans ?_
  rw [shapeCast_self]
  refine congrArg (v (ix3 0 ch f) + ·) ?_
  refine (shapeCast_ab_1ab_apply _ h2 0 ch f).trans ?_
  refine (Ideal.multiReduction_add_single src _ hr hφ hacc (ix2 ch f)).trans ?_
  exact Finset.sum_congr rfl fun r _ => congrArg src (lift_ix hr ch f r)

theorem pay4_apply (x0 : Vec Ideal S1024x8x257 .f32) (v : Vec Ideal S1x8x257 .f32) (ch : Fin 8) (f : Fin 257) :
    k0_pay4 x0 v (ix3 0 ch f) = v (ix3 0 ch f) + ∑ r : Fin 1024, x0 (ix3 r ch f) := by
  unfold k0_pay4
  exact rowPlusColSum x0 v _ _ _ _ _ ch f

theorem pay6_apply (x0 : Vec Ideal S1024x8x257 .f32) (v : Vec Ideal S1x8x257 .f32) (ch : Fin 8) (f : Fin 257) :
    k0_pay6 x0 v (ix3 0 ch f) = v (ix3 0 ch f) + ∑ r : Fin 1024, x0 (ix3 r ch f) * x0 (ix3 r ch f) := by
  unfold k0_pay6
  exact rowPlusColSum (mulf x0 x0) v _ _ _ _ _ ch f

/-! ## What each case leaves, as one list of row stores -/

section AnyF
variable {F : FTy → Type} [FloatOps F]

section Loads
variable {Val : EltTy → Type} [∀ e, Nonempty (Val e)] {sig' : RefSig} {κ : Kind} {sp : Space}

/-- A load of row `k` after a store of another row reads what the earlier stores left there; -/
theorem readCov_row_skip (v : View sig' κ sp S5x8x257 .f32) {j k : ℕ} (hjk : j ≠ k) (hk : k < 5)
    (inbj : ∀ a, ![j, 0, 0] a + ![1, 8, 257] a ≤ S5x8x257.size a) (inbk : ∀ a, ![k, 0, 0] a + ![1, 8, 257] a ≤ S5x8x257.size a)
    (w : S1x8x257.Idx → Val .f32) (L : List (View.Piece Val S5x8x257 .f32)) :
    v.readCov (⟨Rect.unit (s := S5x8x257) ![j, 0, 0] ![1, 8, 257] inbj, w⟩ :: L) (Rect.unit (s := S5x8x257) ![k, 0, 0] ![1, 8, 257] inbk).toLoadRect
      = v.readCov L (Rect.unit (s := S5x8x257) ![k, 0, 0] ![1, 8, 257] inbk).toLoadRect := by
  rw [View.readCov_eq_canon', View.readCov_eq_canon']
  funext x
  show View.canon _ ((Rect.unit (s := S5x8x257) ![k, 0, 0] ![1, 8, 257] inbk).idx x) = View.canon L ((Rect.unit (s := S5x8x257) ![k, 0, 0] ![1, 8, 257] inbk).idx x)
  rw [row_idx_gen k hk inbk x]
  exact canon_row_skip hjk hk inbj w L _ _

/-- after a fill of the whole block, the fill's row. -/
theorem readCov_fill_row (v : View sig' κ sp S5x8x257 .f32) (k : ℕ)
    (inb0 : ∀ a, ![0, 0, 0] a + S5x8x257.size a ≤ S5x8x257.size a) (inbk : ∀ a, ![k, 0, 0] a + ![1, 8, 257] a ≤ S5x8x257.size a)
    (Z : S5x8x257.Idx → Val .f32) (L : List (View.Piece Val S5x8x257 .f32)) :
    v.readCov (⟨Rect.unit (s := S5x8x257) ![0, 0, 0] S5x8x257.size inb0, Z⟩ :: L) (Rect.unit (s := S5x8x257) ![k, 0, 0] ![1, 8, 257] inbk).toLoadRect
      = View.ld Z (Rect.unit (s := S5x8x257) ![k, 0, 0] ![1, 8, 257] inbk) := by
  rw [View.readCov_eq_canon']
  funext x
  exact congrFun (View.canon_cons_unit_zero (S := S5x8x257) hz3 inb0 Z L) _

end Loads

/-- The five row stores of one point, last first, over a block `acc` of running sums: row `k` receives
    "row `k` of `acc` + the k-th column sum of the input blocks". -/
def rowStores (x0 x1 : Vec F S1024x8x257 .f32) (acc : Vec F S5x8x257 .f32) : List (View.Piece (Elt F) S5x8x257 .f32) :=
  [⟨Rect.unit ![4, 0, 0] ![1, 8, 257] inb_S5x8x257_S1x8x257_4_0_0, k0_pay2 x1 (View.ld acc (Rect.unit ![4, 0, 0] ![1, 8, 257] inb_S5x8x257_S1x8x257_4_0_0))⟩,
   ⟨Rect.unit ![3, 0, 0] ![1, 8, 257] inb_S5x8x257_S1x8x257_3_0_0, k0_pay1 x0 x1 (View.ld acc (Rect.unit ![3, 0, 0] ![1, 8, 257] inb_S5x8x257_S1x8x257_3_0_0))⟩,
   ⟨Rect.unit ![2, 0, 0] ![1, 8, 257] inb_S5x8x257_S1x8x257_2_0_0, k0_pay6 x0 (View.ld acc (Rect.unit ![2, 0, 0] ![1, 8, 257] inb_S5x8x257_S1x8x257_2_0_0))⟩,
   ⟨Rect.unit ![1, 0, 0] ![1, 8, 257] inb_S5x8x257_S1x8x257_1_0_0, k0_pay5 x1 (View.ld acc (Rect.unit ![1, 0, 0] ![1, 8, 257] inb_S5x8x257_S1x8x257_1_0_0))⟩,
   ⟨Rect.unit ![0, 0, 0] ![1, 8, 257] inb_S5x8x257_S1x8x257_0_0_0, k0_pay4 x0 (View.ld acc (Rect.unit ![0, 0, 0] ![1, 8, 257] inb_S5x8x257_S1x8x257_0_0_0))⟩]

set_option maxHeartbeats 400000 in
/-- A later point leaves the row stores over the running sums. -/
theorem sumsLater_eq (c : Dev nD) (i : grid0.Coords) (a1 : Memref sig .tc .vmem S1024x8x257 .f32) (h1 : a1.IsWhole) (a2 : Memref sig .tc .vmem S1024x8x257 .f32) (h2 : a2.IsWhole) (a3 : Memref sig .tc .vmem S5x8x257 .f32) (h3 : a3.IsWhole) (h : ¬isFirst0 i)
    (x0 x1 : Vec F S1024x8x257 .f32) (acc : Vec F S5x8x257 .f32) :
    sumsLater c i a1 h1 a2 h2 a3 h3 h x0 x1 acc = View.canon (rowStores x0 x1 acc) := by
  unfold sumsLater rowStores
  rw [View.read_writes_eq_canon _ _ _ (coverLater c i a1 h1 a2 h2 a3 h3 h x0 x1 acc)]
  unfold statsRunLater
  dsimp only
  sl_unfold_words
  simp only [View.readAt_eq_ld, h1.read_unread, h2.read_unread, h3.read_unread, View.ld_unit_zero (S := S1024x8x257) hz3]

set_option maxHeartbeats 400000 in
/-- The first point leaves the row stores over the zero fill, and the fill under them. -/
theorem sumsFirst_eq (c : Dev nD) (i : grid0.Coords) (a1 : Memref sig .tc .vmem S1024x8x257 .f32) (h1 : a1.IsWhole) (a2 : Memref sig .tc .vmem S1024x8x257 .f32) (h2 : a2.IsWhole) (a3 : Memref sig .tc .vmem S5x8x257 .f32) (h3 : a3.IsWhole) (h : isFirst0 i)
    (x0 x1 : Vec F S1024x8x257 .f32) :
    sumsFirst c i a1 h1 a2 h2 a3 h3 h x0 x1
      = View.canon (rowStores x0 x1 (k0_pay3 (F := F)) ++ [⟨Rect.unit ![0, 0, 0] ![5, 8, 257] inb_S5x8x257_S5x8x257_0_0_0, k0_pay3 (F := F)⟩]) := by
  unfold sumsFirst rowStores
  rw [View.read_writes_eq_canon _ _ _ (coverFirst c i a1 h1 a2 h2 a3 h3 h x0 x1)]
  unfold statsRunFirst
  dsimp only
  sl_unfold_words
  simp (disch := decide) only [View.readAt_eq_ld, h1.read_unread, h2.read_unread, View.ld_unit_zero (S := S1024x8x257) hz3,
    readCov_row_skip, readCov_fill_row a3.view _ inb_S5x8x257_S5x8x257_0_0_0, List.cons_append, List.nil_append]

end AnyF

/-! ## One point's step, entry by entry, at the ideal instance -/

theorem pay5_apply (x1 : Vec Ideal S1024x8x257 .f32) (v : Vec Ideal S1x8x257 .f32) (ch : Fin 8) (f : Fin 257) :
    k0_pay5 x1 v (ix3 0 ch f) = v (ix3 0 ch f) + ∑ r : Fin 1024, x1 (ix3 r ch f) := by
  unfold k0_pay5
  exact rowPlusColSum x1 v _ _ _ _ _ ch f

theorem pay1_apply (x0 x1 : Vec Ideal S1024x8x257 .f32) (v : Vec Ideal S1x8x257 .f32) (ch : Fin 8) (f : Fin 257) :
    k0_pay1 x0 x1 v (ix3 0 ch f) = v (ix3 0 ch f) + ∑ r : Fin 1024, x0 (ix3 r ch f) * x1 (ix3 r ch f) := by
  unfold k0_pay1
  exact rowPlusColSum (mulf x0 x1) v _ _ _ _ _ ch f

theorem pay2_apply (x1 : Vec Ideal S1024x8x257 .f32) (v : Vec Ideal S1x8x257 .f32) (ch : Fin 8) (f : Fin 257) :
    k0_pay2 x1 v (ix3 0 ch f) = v (ix3 0 ch f) + ∑ r : Fin 1024, x1 (ix3 r ch f) * x1 (ix3 r ch f) := by
  unfold k0_pay2
  exact rowPlusColSum (mulf x1 x1) v _ _ _ _ _ ch f

/-- The k-th of the five statistics' summand, from one entry `x` of the first input and one `y` of the second:
    x, y, x·x, x·y, y·y. -/
def term (k : ℕ) (x y : EReal) : EReal :=
  match k with
  | 0 => x
  | 1 => y
  | 2 => x * x
  | 3 => x * y
  | _ => y * y

/-- The row stores of one point, over ANY earlier stores `T`, leave at (k, ch, f) the entry of `acc` there plus the
    k-th column sum of the input blocks. -/
theorem rowStores_apply (x0 x1 : Vec Ideal S1024x8x257 .f32) (acc : Vec Ideal S5x8x257 .f32)
    (T : List (View.Piece (Elt Ideal) S5x8x257 .f32)) (k : ℕ) (hk : k < 5) (ch : Fin 8) (f : Fin 257) :
    View.canon (rowStores x0 x1 acc ++ T) (ix3 (⟨k, hk⟩ : Fin 5) ch f)
      = acc (ix3 (⟨k, hk⟩ : Fin 5) ch f) + ∑ r : Fin 1024, term k (x0 (ix3 r ch f)) (x1 (ix3 r ch f)) := by
  unfold rowStores
  match k, hk with
  | 0, hk =>
    refine (canon_row_skip (j := 4) (by decide) hk _ _ _ ch f).trans ?_
    refine (canon_row_skip (j := 3) (by decide) hk _ _ _ ch f).trans ?_
    refine (canon_row_skip (j := 2) (by decide) hk _ _ _ ch f).trans ?_
    refine (canon_row_skip (j := 1) (by decide) hk _ _ _ ch f).trans ?_
    refine (canon_row_hit 0 hk _ _ _ ch f).trans ?_
    refine (pay4_apply x0 _ ch f).trans ?_
    exact congrArg (fun y => acc y + _) (row_idx 0 hk _ 0 ch f)
  | 1, hk =>
    refine (canon_row_skip (j := 4) (by decide) hk _ _ _ ch f).trans ?_
    refine (canon_row_skip (j := 3) (by decide) hk _ _ _ ch f).trans ?_
    refine (canon_row_skip (j := 2) (by decide) hk _ _ _ ch f).trans ?_
    refine (canon_row_hit 1 hk _ _ _ ch f).trans ?_
    refine (pay5_apply x1 _ ch f).trans ?_
    exact congrArg (fun y => acc y + _) (row_idx 1 hk _ 0 ch f)
  | 2, hk =>
    refine (canon_row_skip (j := 4) (by decide) hk _ _ _ ch f).trans ?_
    refine (canon_row_skip (j := 3) (by decide) hk _ _ _ ch f).trans ?_
    refine (canon_row_hit 2 hk _ _ _ ch f).trans ?_
    refine (pay6_apply x0 _ ch f).trans ?_
    exact congrArg (fun y => acc y + _) (row_idx 2 hk _ 0 ch f)
  | 3, hk =>
    refine (canon_row_skip (j := 4) (by decide) hk _ _ _ ch f).trans ?_
    refine (canon_row_hit 3 hk _ _ _ ch f).trans ?_
    refine (pay1_apply x0 x1 _ ch f).trans ?_
    exact congrArg (fun y => acc y + _) (row_idx 3 hk _ 0 ch f)
  | 4, hk =>
    refine (canon_row_hit 4 hk _ _ _ ch f).trans ?_
    refine (pay2_apply x1 _ ch f).trans ?_
    exact congrArg (fun y => acc y + _) (row_idx 4 hk _ 0 ch f)
  | k + 5, hk => exact absurd hk (by omega)

/-- A later point adds the k-th column sum of its input blocks to the running sums. -/
theorem sumsLater_apply (c : Dev nD) (i : grid0.Coords) (a1 : Memref sig .tc .vmem S1024x8x257 .f32) (h1 : a1.IsWhole) (a2 : Memref sig .tc .vmem S1024x8x257 .f32) (h2 : a2.IsWhole) (a3 : Memref sig .tc .vmem S5x8x257 .f32) (h3 : a3.IsWhole) (h : ¬isFirst0 i)
    (x0 x1 : Vec Ideal S1024x8x257 .f32) (acc : Vec Ideal S5x8x257 .f32) (k : ℕ) (hk : k < 5) (ch : Fin 8) (f : Fin 257) :
    sumsLater c i a1 h1 a2 h2 a3 h3 h x0 x1 acc (ix3 (⟨k, hk⟩ : Fin 5) ch f)
      = acc (ix3 (⟨k, hk⟩ : Fin 5) ch f) + ∑ r : Fin 1024, term k (x0 (ix3 r ch f)) (x1 (ix3 r ch f)) := by
  rw [sumsLater_eq]
  exact rowStores_apply x0 x1 acc [] k hk ch f

/-- The first point leaves the k-th column sum of its input blocks: the fill is zero, and 0 + a = a. -/
theorem sumsFirst_apply (c : Dev nD) (i : grid0.Coords) (a1 : Memref sig .tc .vmem S1024x8x257 .f32) (h1 : a1.IsWhole) (a2 : Memref sig .tc .vmem S1024x8x257 .f32) (h2 : a2.IsWhole) (a3 : Memref sig .tc .vmem S5x8x257 .f32) (h3 : a3.IsWhole) (h : isFirst0 i)
    (x0 x1 : Vec Ideal S1024x8x257 .f32) (k : ℕ) (hk : k < 5) (ch : Fin 8) (f : Fin 257) :
    sumsFirst c i a1 h1 a2 h2 a3 h3 h x0 x1 (ix3 (⟨k, hk⟩ : Fin 5) ch f)
      = ∑ r : Fin 1024, term k (x0 (ix3 r ch f)) (x1 (ix3 r ch f)) := by
  rw [sumsFirst_eq]
  refine (rowStores_apply x0 x1 (k0_pay3 (F := Ideal)) _ k hk ch f).trans ?_
  have hzero : (k0_pay3 (F := Ideal)) (ix3 (⟨k, hk⟩ : Fin 5) ch f) = 0 := Ideal.ofBits_zero_f32
  rw [hzero, zero_add]

/-! ## The input blocks, read off the arrays -/

variable (V : (c : Dev nD) → (b : Ref sig .tc) → Buf (Elt Ideal) ((c : Thread nD τ).loc b))

/-- The two input arrays as the region finds them, at their literal type. -/
abbrev xarr (c : Dev nD) : Vec Ideal S16384x8x257 .f32 := V c main_arg0
abbrev yarr (c : Dev nD) : Vec Ideal S16384x8x257 .f32 := V c main_arg1

/-- Row `r` of block `t` is row `1024 t + r` of the batch. -/
theorem batch_lt (t : Fin cfg0.N) (r : Fin 1024) : 1024 * t.val + r.val < 16384 := by
  have hN : t.val < 16 := lt_of_lt_of_eq t.isLt (show cfg0.N = 16 from N_0)
  have := r.isLt
  omega

/-- The first input's block at point `t`, at (r, ch, f), is the array at (1024 t + r, ch, f); -/
theorem xblk_apply (c : Dev nD) (t : Fin cfg0.N) (r : Fin 1024) (ch : Fin 8) (f : Fin 257) :
    (iblk0 V c 0 t : Vec Ideal S1024x8x257 .f32) (ix3 r ch f) = xarr V c (ix3 ⟨1024 * t.val + r.val, batch_lt t r⟩ ch f) := by
  have hN : t.val < 16 := lt_of_lt_of_eq t.isLt (show cfg0.N = 16 from N_0)
  have hi : win0_0.index t 0 = t.val ∧ win0_0.index t 1 = 0 ∧ win0_0.index t 2 = 0 := by
    refine ⟨?_, rfl, rfl⟩
    show (BitVec.ofNat 32 (t.val / 1 % 16)).toNat = t.val
    rw [BitVec.toNat_ofNat]; omega
  unfold iblk0
  rw [View.read_apply]
  show V c main_arg0 _ = V c main_arg0 _
  congr 1
  funext a
  apply Fin.ext
  match a with
  | ⟨0, _⟩ => show win0_0.index t 0 * 1024 + 1 * r.val = 1024 * t.val + r.val; rw [hi.1]; omega
  | ⟨1, _⟩ => show win0_0.index t 1 * 8 + 1 * ch.val = ch.val; rw [hi.2.1]; omega
  | ⟨2, _⟩ => show win0_0.index t 2 * 257 + 1 * f.val = f.val; rw [hi.2.2]; omega

/-- and the second input's likewise. -/
theorem yblk_apply (c : Dev nD) (t : Fin cfg0.N) (r : Fin 1024) (ch : Fin 8) (f : Fin 257) :
    (iblk0 V c 1 t : Vec Ideal S1024x8x257 .f32) (ix3 r ch f) = yarr V c (ix3 ⟨1024 * t.val + r.val, batch_lt t r⟩ ch f) := by
  have hN : t.val < 16 := lt_of_lt_of_eq t.isLt (show cfg0.N = 16 from N_0)
  have hi : win0_1.index t 0 = t.val ∧ win0_1.index t 1 = 0 ∧ win0_1.index t 2 = 0 := by
    refine ⟨?_, rfl, rfl⟩
    show (BitVec.ofNat 32 (t.val / 1 % 16)).toNat = t.val
    rw [BitVec.toNat_ofNat]; omega
  unfold iblk0
  rw [View.read_apply]
  show V c main_arg1 _ = V c main_arg1 _
  congr 1
  funext a
  apply Fin.ext
  match a with
  | ⟨0, _⟩ => show win0_1.index t 0 * 1024 + 1 * r.val = 1024 * t.val + r.val; rw [hi.1]; omega
  | ⟨1, _⟩ => show win0_1.index t 1 * 8 + 1 * ch.val = ch.val; rw [hi.2.1]; omega
  | ⟨2, _⟩ => show win0_1.index t 2 * 257 + 1 * f.val = f.val; rw [hi.2.2]; omega

/-! ## The running sums -/

/-- Block `s`'s k-th column sum at (ch, f), off the arrays (nothing past the grid). -/
def blockSum (c : Dev nD) (k : ℕ) (ch : Fin 8) (f : Fin 257) (s : ℕ) : EReal :=
  if hs : s < cfg0.N then
    ∑ r : Fin 1024, term k (xarr V c (ix3 ⟨1024 * s + r.val, batch_lt ⟨s, hs⟩ r⟩ ch f)) (yarr V c (ix3 ⟨1024 * s + r.val, batch_lt ⟨s, hs⟩ r⟩ ch f))
  else 0

/-- After point `n` the block of sums holds, at (k, ch, f), the k-th column sums of blocks 0 … n added up — by
    induction on the point: the first point leaves block 0's, a later one adds its own to what the point before left. -/
theorem sumsAt_apply (c : Dev nD) (k : ℕ) (hk : k < 5) (ch : Fin 8) (f : Fin 257) :
    ∀ (n : ℕ) (h : n < cfg0.N), sumsAt V c n h (ix3 (⟨k, hk⟩ : Fin 5) ch f) = ∑ s ∈ Finset.range (n + 1), blockSum V c k ch f s
  | 0, h => by
    rw [sumsAt_first V c ⟨0, h⟩ rfl]
    refine (sumsFirst_apply c (grid0.coords ⟨0, h⟩) (stg0_0 ⟨0, h⟩) (hstg0_0 ⟨0, h⟩) (stg0_1 ⟨0, h⟩) (hstg0_1 ⟨0, h⟩) (stg0_2 ⟨0, h⟩) (hstg0_2 ⟨0, h⟩)
      ((isFirst0_iff ⟨0, h⟩).mpr rfl) (iblk0 V c 0 ⟨0, h⟩) (iblk0 V c 1 ⟨0, h⟩) k hk ch f).trans ?_
    rw [Finset.sum_range_one]
    unfold blockSum
    rw [dif_pos h]
    exact Finset.sum_congr rfl fun r _ => by rw [xblk_apply V c ⟨0, h⟩ r ch f, yblk_apply V c ⟨0, h⟩ r ch f]
  | n + 1, h => by
    have hN : cfg0.N = 16 := N_0
    have hB : ¬(⟨n + 1, h⟩ : Fin cfg0.N).val % 16 = 0 := by dsimp only; omega
    rw [sumsAt_later V c ⟨n + 1, h⟩ hB]
    refine (sumsLater_apply c (grid0.coords ⟨n + 1, h⟩) (stg0_0 ⟨n + 1, h⟩) (hstg0_0 ⟨n + 1, h⟩) (stg0_1 ⟨n + 1, h⟩) (hstg0_1 ⟨n + 1, h⟩) (stg0_2 ⟨n + 1, h⟩) (hstg0_2 ⟨n + 1, h⟩)
      (fun hf => hB ((isFirst0_iff ⟨n + 1, h⟩).mp hf)) (iblk0 V c 0 ⟨n + 1, h⟩) (iblk0 V c 1 ⟨n + 1, h⟩)
      (sumsAt V c n (Nat.lt_of_succ_lt h)) k hk ch f).trans ?_
    rw [Finset.sum_range_succ _ (n + 1)]
    refine congrArg₂ (· + ·) (sumsAt_apply c k hk ch f n (Nat.lt_of_succ_lt h)) ?_
    unfold blockSum
    rw [dif_pos h]
    exact Finset.sum_congr rfl fun r _ => by rw [xblk_apply V c ⟨n + 1, h⟩ r ch f, yblk_apply V c ⟨n + 1, h⟩ r ch f]

/-! ## The array after the region -/

/-- What the block of sums holds after the last point, as contents of the result array (its one block IS the array). -/
abbrev lastSums (c : Dev nD) : Buf (Elt Ideal) ((c : Thread nD τ).loc main_v0) :=
  sumsAt V c 15 (by rw [show cfg0.N = 16 from N_0]; decide)

/-- The one write-back, at the last point, writes it: the block at zero offsets of the [5,8,257] array is the array. -/
theorem flushed_eq0 (c : Dev nD) (t : Fin cfg0.N) (hf : (cfg0.win 2).flush t = true) :
    (dat0 V c).flushed 2 t = ((cfg0.win 2).blk t).view.read (Elt Ideal) (lastSums V c) := by
  have hN : cfg0.N = 16 := N_0
  have h15 : t.val = 15 := by have := (flush0_2 t).mp hf; have := t.isLt; omega
  obtain rfl : t = t0_15 := Fin.ext h15
  show (cfg0.win 2).cut (grid0.coords t0_15) ((dat0 V c).after 2 t0_15) = _
  rw [after0_2]
  have hz' : (fun a => win0_2.index t0_15 a * main_v0.ty.shape.size a) = fun _ => 0 := funext fun a => by fin_cases a <;> decide
  exact (Memref.read_access_unit_zero (Elt Ideal) main_v0 hz' (fun a => by rw [congrFun hz' a]; simp) (lastSums V c)).symm

/-- So the result array ends holding the block of sums as the last point left it. -/
theorem final_sums (c : Dev nD) : (dat0 V c).arrAt 2 cfg0.N = lastSums V c :=
  (dat0 V c).arrAt_eq_of_cover 2 (lastSums V c) (flushed_eq0 V c) fun i =>
    ⟨t0_15, (flush0_2 t0_15).mpr rfl, by
      show i ∈ ((View.whole main_v0).slice (win0_2.rect t0_15)).set
      rw [View.set_slice_whole, Rect.mem_set_unit]
      intro a
      have h0 : (i 0 : Nat) < 5 := (i 0).isLt
      have h1 : (i 1 : Nat) < 8 := (i 1).isLt
      have h2 : (i 2 : Nat) < 257 := (i 2).isLt
      match a with
      | ⟨0, _⟩ => show win0_2.index t0_15 0 * win0_2.size 0 ≤ (i 0 : Nat) ∧ (i 0 : Nat) < win0_2.index t0_15 0 * win0_2.size 0 + win0_2.xsize (grid0.coords t0_15) 0
                  rw [show win0_2.index t0_15 0 * win0_2.size 0 = 0 from by decide +kernel, show win0_2.xsize (grid0.coords t0_15) 0 = 5 from by decide +kernel]; omega
      | ⟨1, _⟩ => show win0_2.index t0_15 1 * win0_2.size 1 ≤ (i 1 : Nat) ∧ (i 1 : Nat) < win0_2.index t0_15 1 * win0_2.size 1 + win0_2.xsize (grid0.coords t0_15) 1
                  rw [show win0_2.index t0_15 1 * win0_2.size 1 = 0 from by decide +kernel, show win0_2.xsize (grid0.coords t0_15) 1 = 8 from by decide +kernel]; omega
      | ⟨2, _⟩ => show win0_2.index t0_15 2 * win0_2.size 2 ≤ (i 2 : Nat) ∧ (i 2 : Nat) < win0_2.index t0_15 2 * win0_2.size 2 + win0_2.xsize (grid0.coords t0_15) 2
                  rw [show win0_2.index t0_15 2 * win0_2.size 2 = 0 from by decide +kernel, show win0_2.xsize (grid0.coords t0_15) 2 = 257 from by decide +kernel]; omega⟩

/-! ## Sixteen blocks of 1024 rows are the batch -/

/-- A sum over the batch, block by block. -/
theorem sum_blocks (g : Fin 16384 → EReal) :
    ∑ s : Fin 16, ∑ r : Fin 1024, g ⟨1024 * s.val + r.val, by have := s.isLt; have := r.isLt; omega⟩ = ∑ n : Fin 16384, g n := by
  rw [← Finset.sum_product', Finset.univ_product_univ]
  exact Fintype.sum_equiv (finProdFinEquiv (m := 16) (n := 1024)) _ g fun p => congrArg g (Fin.ext (by
    show 1024 * p.1.val + p.2.val = p.2.val + 1024 * p.1.val
    omega))

/-- The sixteen blocks' k-th column sums added up are the k-th sum over the whole batch axis. -/
theorem total_apply (c : Dev nD) (k : ℕ) (ch : Fin 8) (f : Fin 257) :
    ∑ s ∈ Finset.range 16, blockSum V c k ch f s = ∑ n : Fin 16384, term k (xarr V c (ix3 n ch f)) (yarr V c (ix3 n ch f)) := by
  rw [Finset.sum_range]
  have hN : cfg0.N = 16 := N_0
  refine (Finset.sum_congr rfl fun s _ => ?_).trans (sum_blocks fun n => term k (xarr V c (ix3 n ch f)) (yarr V c (ix3 n ch f)))
  unfold blockSum
  rw [dif_pos (by rw [hN]; exact s.isLt)]

/-- The result array after the region, at (k, ch, f): the k-th statistic's sum over the whole batch axis. -/
theorem stats_apply_gen (c : Dev nD) (k : ℕ) (hk : k < 5) (ch : Fin 8) (f : Fin 257) :
    (dat0 V c).arrAt 2 cfg0.N (ix3 (⟨k, hk⟩ : Fin 5) ch f) = ∑ n : Fin 16384, term k (xarr V c (ix3 n ch f)) (yarr V c (ix3 n ch f)) := by
  rw [final_sums]
  exact (sumsAt_apply V c k hk ch f 15 _).trans (total_apply V c k ch f)

end Stats

variable (V : (c : Dev nD) → (b : Ref sig .tc) → Buf (Elt Ideal) ((c : Thread nD τ).loc b))

/-! ## The five statistics -/

theorem stats_apply0 (c : Dev nD) (ch : Fin 8) (f : Fin 257) :
    (dat0 V c).arrAt 2 cfg0.N (ValueIdx.ix3 0 ch f) = ∑ n : Fin 16384, Stats.xarr V c (ValueIdx.ix3 n ch f) :=
  Stats.stats_apply_gen V c 0 (by decide) ch f

theorem stats_apply1 (c : Dev nD) (ch : Fin 8) (f : Fin 257) :
    (dat0 V c).arrAt 2 cfg0.N (ValueIdx.ix3 1 ch f) = ∑ n : Fin 16384, Stats.yarr V c (ValueIdx.ix3 n ch f) :=
  Stats.stats_apply_gen V c 1 (by decide) ch f

theorem stats_apply2 (c : Dev nD) (ch : Fin 8) (f : Fin 257) :
    (dat0 V c).arrAt 2 cfg0.N (ValueIdx.ix3 2 ch f)
      = ∑ n : Fin 16384, Stats.xarr V c (ValueIdx.ix3 n ch f) * Stats.xarr V c (ValueIdx.ix3 n ch f) :=
  Stats.stats_apply_gen V c 2 (by decide) ch f

theorem stats_apply3 (c : Dev nD) (ch : Fin 8) (f : Fin 257) :
    (dat0 V c).arrAt 2 cfg0.N (ValueIdx.ix3 3 ch f)
      = ∑ n : Fin 16384, Stats.xarr V c (ValueIdx.ix3 n ch f) * Stats.yarr V c (ValueIdx.ix3 n ch f) :=
  Stats.stats_apply_gen V c 3 (by decide) ch f

theorem stats_apply4 (c : Dev nD) (ch : Fin 8) (f : Fin 257) :
    (dat0 V c).arrAt 2 cfg0.N (ValueIdx.ix3 4 ch f)
      = ∑ n : Fin 16384, Stats.yarr V c (ValueIdx.ix3 n ch f) * Stats.yarr V c (ValueIdx.ix3 n ch f) :=
  Stats.stats_apply_gen V c 4 (by decide) ch f

/-- info: 'Cert.KernelIdeal.Pass.stats_apply3' depends on axioms: [propext, Classical.choice, Quot.sound] -/
#guard_msgs in #print axioms stats_apply3

end Cert.KernelIdeal.Pass

end
-- ==== Proof.Ideal.AffineValue.lean ====
import proofs.«156525_j26182120636725_1_alg».proof.Proof.Ideal.AffineBody
import Idealize.ShloMosaic.Lib.Pipeline.Value
import Idealize.ShloMosaic.Lib.ValueIdx
import Idealize.ShloMosaic.Lib.ValueLayout

/-! # The affine pass, from blocks to arrays

What the second pipeline leaves in its two output ARRAYS, as whole-array functions of its three input arrays as the
region finds them. The body is pointwise in the batch row: at row `n`, channel `c`, feature `f`,

  re = (p₂ · (x − p₀) + p₃ · (y − p₁)) + p₆,    im = (p₄ · (x − p₀) + p₅ · (y − p₁)) + p₇

where `x`, `y` are the two inputs at `(n, c, f)` and `pₖ` is row `k` of the parameter array at `(c, f)`. The grid's
32 points each write one block of 512 rows; the blocks tile the 16384 rows. -/

set_option maxRecDepth 16384

noncomputable section

namespace Cert.KernelIdeal.Pass

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]

/-! ## The two whole-array functions -/

/-- The real output: `(p₂ · (x − p₀) + p₃ · (y − p₁)) + p₆` at every index. -/
def affRe (x y : FVec F S16384x8x257 .f32) (p : FVec F S8x8x257 .f32) : FVec F S16384x8x257 .f32 := fun i =>
  FloatOps.addf
    (FloatOps.addf (FloatOps.mulf (p (ix3 2 (i 1) (i 2))) (FloatOps.subf (x i) (p (ix3 0 (i 1) (i 2)))))
      (FloatOps.mulf (p (ix3 3 (i 1) (i 2))) (FloatOps.subf (y i) (p (ix3 1 (i 1) (i 2))))))
    (p (ix3 6 (i 1) (i 2)))

/-- The imaginary output: `(p₄ · (x − p₀) + p₅ · (y − p₁)) + p₇` at every index. -/
def affIm (x y : FVec F S16384x8x257 .f32) (p : FVec F S8x8x257 .f32) : FVec F S16384x8x257 .f32 := fun i =>
  FloatOps.addf
    (FloatOps.addf (FloatOps.mulf (p (ix3 4 (i 1) (i 2))) (FloatOps.subf (x i) (p (ix3 0 (i 1) (i 2)))))
      (FloatOps.mulf (p (ix3 5 (i 1) (i 2))) (FloatOps.subf (y i) (p (ix3 1 (i 1) (i 2))))))
    (p (ix3 7 (i 1) (i 2)))

theorem affRe_apply (x y : FVec F S16384x8x257 .f32) (p : FVec F S8x8x257 .f32) (n : Fin 16384) (c : Fin 8) (f : Fin 257) :
    affRe x y p (ix3 n c f)
      = FloatOps.addf
          (FloatOps.addf (FloatOps.mulf (p (ix3 2 c f)) (FloatOps.subf (x (ix3 n c f)) (p (ix3 0 c f))))
            (FloatOps.mulf (p (ix3 3 c f)) (FloatOps.subf (y (ix3 n c f)) (p (ix3 1 c f)))))
          (p (ix3 6 c f)) := rfl

theorem affIm_apply (x y : FVec F S16384x8x257 .f32) (p : FVec F S8x8x257 .f32) (n : Fin 16384) (c : Fin 8) (f : Fin 257) :
    affIm x y p (ix3 n c f)
      = FloatOps.addf
          (FloatOps.addf (FloatOps.mulf (p (ix3 4 c f)) (FloatOps.subf (x (ix3 n c f)) (p (ix3 0 c f))))
            (FloatOps.mulf (p (ix3 5 c f)) (FloatOps.subf (y (ix3 n c f)) (p (ix3 1 c f)))))
          (p (ix3 7 c f)) := rfl

variable (V : (c : Dev nD) → (b : Ref sig .tc) → Buf (Elt F) ((c : Thread nD τ).loc b))

/-! ## The body's payloads at an index -/

theorem hz3 : (![0, 0, 0] : Fin 3 → Nat) = fun _ => 0 := funext fun a => by fin_cases a <;> rfl

/-- Row `o` of the parameter block, sliced out and broadcast along the batch rows, read at an index: the parameter at
    `(o, c, f)`. -/
theorem row_apply (p : Vec F S8x8x257 .f32) (o : Nat) (ho : o < 8) (h1 : S8x8x257.Slices ![o, 0, 0] S1x8x257)
    (h2 : S1x8x257.Broadcasts S512x8x257) (j : S512x8x257.Idx) :
    broadcastTo S512x8x257 (extractStridedSlice S1x8x257 ![o, 0, 0] p h1) h2 j = p (ix3 ⟨o, ho⟩ (j 1) (j 2)) := by
  refine (broadcastTo_apply _ h2 j (ix3 (0 : Fin 1) (j 1) (j 2)) fun a => ?_).trans
    (extractStridedSlice_apply _ p h1 (ix3 (0 : Fin 1) (j 1) (j 2)) (ix3 ⟨o, ho⟩ (j 1) (j 2)) fun a => ?_)
  · match a with
    | ⟨0, _⟩ => rfl
    | ⟨1, _⟩ => rfl
    | ⟨2, _⟩ => rfl
  · match a with
    | ⟨0, _⟩ => rfl
    | ⟨1, _⟩ => exact (Nat.zero_add _).symm
    | ⟨2, _⟩ => exact (Nat.zero_add _).symm

/-- The real payload at an index. -/
theorem pay4_apply (p : Vec F S8x8x257 .f32) (x0 x1 : Vec F S512x8x257 .f32) (j : S512x8x257.Idx) :
    k1_pay4 p x0 x1 j
      = FloatOps.addf
          (FloatOps.addf (FloatOps.mulf (p (ix3 2 (j 1) (j 2))) (FloatOps.subf (x0 j) (p (ix3 0 (j 1) (j 2)))))
            (FloatOps.mulf (p (ix3 3 (j 1) (j 2))) (FloatOps.subf (x1 j) (p (ix3 1 (j 1) (j 2))))))
          (p (ix3 6 (j 1) (j 2))) := by
  unfold k1_pay4 k1_pay2 k1_pay3 k1_pay1
  simp only [shapeCast_self]
  show FloatOps.addf
      (FloatOps.addf
        (FloatOps.mulf (broadcastTo S512x8x257 (extractStridedSlice S1x8x257 ![2, 0, 0] p _) _ j)
          (FloatOps.subf (x0 j) (broadcastTo S512x8x257 (extractStridedSlice S1x8x257 ![0, 0, 0] p _) _ j)))
        (FloatOps.mulf (broadcastTo S512x8x257 (extractStridedSlice S1x8x257 ![3, 0, 0] p _) _ j)
          (FloatOps.subf (x1 j) (broadcastTo S512x8x257 (extractStridedSlice S1x8x257 ![1, 0, 0] p _) _ j))))
      (broadcastTo S512x8x257 (extractStridedSlice S1x8x257 ![6, 0, 0] p _) _ j) = _
  rw [row_apply p 2 (by decide), row_apply p 0 (by decide), row_apply p 3 (by decide), row_apply p 1 (by decide),
    row_apply p 6 (by decide)]
  rfl

/-- The imaginary payload at an index. -/
theorem pay5_apply (p : Vec F S8x8x257 .f32) (x0 x1 : Vec F S512x8x257 .f32) (j : S512x8x257.Idx) :
    k1_pay5 p x0 x1 j
      = FloatOps.addf
          (FloatOps.addf (FloatOps.mulf (p (ix3 4 (j 1) (j 2))) (FloatOps.subf (x0 j) (p (ix3 0 (j 1) (j 2)))))
            (FloatOps.mulf (p (ix3 5 (j 1) (j 2))) (FloatOps.subf (x1 j) (p (ix3 1 (j 1) (j 2))))))
          (p (ix3 7 (j 1) (j 2))) := by
  unfold k1_pay5 k1_pay2 k1_pay3 k1_pay1
  simp only [shapeCast_self]
  show FloatOps.addf
      (FloatOps.addf
        (FloatOps.mulf (broadcastTo S512x8x257 (extractStridedSlice S1x8x257 ![4, 0, 0] p _) _ j)
          (FloatOps.subf (x0 j) (broadcastTo S512x8x257 (extractStridedSlice S1x8x257 ![0, 0, 0] p _) _ j)))
        (FloatOps.mulf (broadcastTo S512x8x257 (extractStridedSlice S1x8x257 ![5, 0, 0] p _) _ j)
          (FloatOps.subf (x1 j) (broadcastTo S512x8x257 (extractStridedSlice S1x8x257 ![1, 0, 0] p _) _ j))))
      (broadcastTo S512x8x257 (extractStridedSlice S1x8x257 ![7, 0, 0] p _) _ j) = _
  rw [row_apply p 4 (by decide), row_apply p 0 (by decide), row_apply p 5 (by decide), row_apply p 1 (by decide),
    row_apply p 7 (by decide)]
  rfl

/-! ## From a point's block to the array -/

/-- The index maps over the grid: the two inputs and the two outputs move together along the batch axis, one block of
    512 rows per point, and stay at block 0 on the other two axes; the parameter window stays at block 0 throughout. -/
theorem idx_facts1 : ∀ t : Fin cfg1.N,
    win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 3) = 0 ∧ win1_2.index t (1 : Fin 3) = 0 ∧ win1_2.index t (2 : Fin 3) = 0
    ∧ win1_3.index t (0 : Fin 3) = t.val ∧ win1_3.index t (1 : Fin 3) = 0 ∧ win1_3.index t (2 : Fin 3) = 0
    ∧ win1_4.index t (0 : Fin 3) = t.val ∧ win1_4.index t (1 : Fin 3) = 0 ∧ win1_4.index t (2 : Fin 3) = 0 :=
  (by decide +kernel : ∀ t : Fin grid1.N, _)

/-- Where row `r` of point `t`'s block sits in an array of 16384 rows: row `512 t + r`, the same channel and feature. -/
def rowAt (t : Fin cfg1.N) (j : S512x8x257.Idx) : S16384x8x257.Idx :=
  ix3 ⟨t.val * 512 + (j 0).val, by
    have ht : t.val < grid1.N := t.isLt
    have h : (j 0).val < 512 := (j 0).isLt
    rw [N_1] at ht; omega⟩ (j 1) (j 2)

/-- A block's coordinate is its index times its size plus the coordinate inside the block: for each of the two inputs
    and the two outputs that is `rowAt`. -/
theorem emb1_0 (t : Fin cfg1.N) (j : S512x8x257.Idx) : ((cfg1.win 0).blk t).view.emb j = rowAt t j := by
  have e := idx_facts1 t
  funext a; apply Fin.ext
  match a with
  | ⟨0, _⟩ => show win1_0.index t (0 : Fin 3) * 512 + 1 * (j 0).val = t.val * 512 + (j 0).val; omega
  | ⟨1, _⟩ => show win1_0.index t (1 : Fin 3) * 8 + 1 * (j 1).val = (j 1).val; omega
  | ⟨2, _⟩ => show win1_0.index t (2 : Fin 3) * 257 + 1 * (j 2).val = (j 2).val; omega
theorem emb1_1 (t : Fin cfg1.N) (j : S512x8x257.Idx) : ((cfg1.win 1).blk t).view.emb j = rowAt t j := by
  have e := idx_facts1 t
  funext a; apply Fin.ext
  match a with
  | ⟨0, _⟩ => show win1_1.index t (0 : Fin 3) * 512 + 1 * (j 0).val = t.val * 512 + (j 0).val; omega
  | ⟨1, _⟩ => show win1_1.index t (1 : Fin 3) * 8 + 1 * (j 1).val = (j 1).val; omega
  | ⟨2, _⟩ => show win1_1.index t (2 : Fin 3) * 257 + 1 * (j 2).val = (j 2).val; omega
theorem emb1_3 (t : Fin cfg1.N) (j : S512x8x257.Idx) : ((cfg1.win 3).blk t).view.emb j = rowAt t j := by
  have e := idx_facts1 t
  funext a; apply Fin.ext
  match a with
  | ⟨0, _⟩ => show win1_3.index t (0 : Fin 3) * 512 + 1 * (j 0).val = t.val * 512 + (j 0).val; omega
  | ⟨1, _⟩ => show win1_3.index t (1 : Fin 3) * 8 + 1 * (j 1).val = (j 1).val; omega
  | ⟨2, _⟩ => show win1_3.index t (2 : Fin 3) * 257 + 1 * (j 2).val = (j 2).val; omega
theorem emb1_4 (t : Fin cfg1.N) (j : S512x8x257.Idx) : ((cfg1.win 4).blk t).view.emb j = rowAt t j := by
  have e := idx_facts1 t
  funext a; apply Fin.ext
  match a with
  | ⟨0, _⟩ => show win1_4.index t (0 : Fin 3) * 512 + 1 * (j 0).val = t.val * 512 + (j 0).val; omega
  | ⟨1, _⟩ => show win1_4.index t (1 : Fin 3) * 8 + 1 * (j 1).val = (j 1).val; omega
  | ⟨2, _⟩ => show win1_4.index t (2 : Fin 3) * 257 + 1 * (j 2).val = (j 2).val; omega

/-- The parameter window's one block is the whole parameter array. -/
theorem emb1_2 (t : Fin cfg1.N) (y : S8x8x257.Idx) : ((cfg1.win 2).blk t).view.emb y = y := by
  have e := idx_facts1 t
  funext a; apply Fin.ext
  match a with
  | ⟨0, _⟩ => show win1_2.index t (0 : Fin 3) * 8 + 1 * (y 0).val = (y 0).val; omega
  | ⟨1, _⟩ => show win1_2.index t (1 : Fin 3) * 8 + 1 * (y 1).val = (y 1).val; omega
  | ⟨2, _⟩ => show win1_2.index t (2 : Fin 3) * 257 + 1 * (y 2).val = (y 2).val; omega

/-- WHAT POINT `t` WRITES BACK to the real output is block `t` of `affRe` of the input arrays as the region finds them. -/
theorem flushedRe_eq (c : Dev nD) (t : Fin cfg1.N) :
    (dat1 V c).flushed 3 t
      = ((cfg1.win 3).blk t).view.read (Elt F) (affRe (V c main_arg0) (V c main_arg1) (V c main_v63)) := by
  show (cfg1.win 3).cut (grid1.coords t) ((dat1 V c).after 3 t) = _
  rw [after1_3]
  unfold outRe1
  rw [View.canon_unit_zero hz3]
  simp only [View.ld_unit_zero (S := S512x8x257) hz3, View.ld_unit_zero (S := S8x8x257) hz3]
  funext j
  show k1_pay4 (iblk1 V c 2 t) (iblk1 V c 0 t) (iblk1 V c 1 t) j
    = affRe (V c main_arg0) (V c main_arg1) (V c main_v63) (((cfg1.win 3).blk t).view.emb j)
  rw [pay4_apply, emb1_3]
  show FloatOps.addf
      (FloatOps.addf
        (FloatOps.mulf (V c main_v63 (((cfg1.win 2).blk t).view.emb (ix3 2 (j 1) (j 2))))
          (FloatOps.subf (V c main_arg0 (((cfg1.win 0).blk t).view.emb j))
            (V c main_v63 (((cfg1.win 2).blk t).view.emb (ix3 0 (j 1) (j 2))))))
        (FloatOps.mulf (V c main_v63 (((cfg1.win 2).blk t).view.emb (ix3 3 (j 1) (j 2))))
          (FloatOps.subf (V c main_arg1 (((cfg1.win 1).blk t).view.emb j))
            (V c main_v63 (((cfg1.win 2).blk t).view.emb (ix3 1 (j 1) (j 2)))))))
      (V c main_v63 (((cfg1.win 2).blk t).view.emb (ix3 6 (j 1) (j 2)))) = _
  rw [emb1_2, emb1_2, emb1_2, emb1_2, emb1_2, emb1_0, emb1_1]
  rfl

/-- WHAT POINT `t` WRITES BACK to the imaginary output is block `t` of `affIm` of the input arrays as the region finds
    them. -/
theorem flushedIm_eq (c : Dev nD) (t : Fin cfg1.N) :
    (dat1 V c).flushed 4 t
      = ((cfg1.win 4).blk t).view.read (Elt F) (affIm (V c main_arg0) (V c main_arg1) (V c main_v63)) := by
  show (cfg1.win 4).cut (grid1.coords t) ((dat1 V c).after 4 t) = _
  rw [after1_4]
  unfold outIm1
  rw [View.canon_unit_zero hz3]
  simp only [View.ld_unit_zero (S := S512x8x257) hz3, View.ld_unit_zero (S := S8x8x257) hz3]
  funext j
  show k1_pay5 (iblk1 V c 2 t) (iblk1 V c 0 t) (iblk1 V c 1 t) j
    = affIm (V c main_arg0) (V c main_arg1) (V c main_v63) (((cfg1.win 4).blk t).view.emb j)
  rw [pay5_apply, emb1_4]
  show FloatOps.addf
      (FloatOps.addf
        (FloatOps.mulf (V c main_v63 (((cfg1.win 2).blk t).view.emb (ix3 4 (j 1) (j 2))))
          (FloatOps.subf (V c main_arg0 (((cfg1.win 0).blk t).view.emb j))
            (V c main_v63 (((cfg1.win 2).blk t).view.emb (ix3 0 (j 1) (j 2))))))
        (FloatOps.mulf (V c main_v63 (((cfg1.win 2).blk t).view.emb (ix3 5 (j 1) (j 2))))
          (FloatOps.subf (V c main_arg1 (((cfg1.win 1).blk t).view.emb j))
            (V c main_v63 (((cfg1.win 2).blk t).view.emb (ix3 1 (j 1) (j 2)))))))
      (V c main_v63 (((cfg1.win 2).blk t).view.emb (ix3 7 (j 1) (j 2)))) = _
  rw [emb1_2, emb1_2, emb1_2, emb1_2, emb1_2, emb1_0, emb1_1]
  rfl

/-! ## The blocks tile the arrays -/

/-- An index of the array is in point `t`'s block iff each coordinate is in the block's range on its axis. -/
theorem mem_blk1_3 (t : Fin cfg1.N) (i : S16384x8x257.Idx) :
    i ∈ ((cfg1.win 3).blk t).view.set ↔ ∀ a : Fin 3, win1_3.index t a * S512x8x257.size a ≤ (i a).val
      ∧ (i a).val < win1_3.index t a * S512x8x257.size a + S512x8x257.size a := by
  show i ∈ ((View.whole main_v64_0).slice (win1_3.rect t)).set ↔ _
  rw [View.set_slice_whole, Rect.mem_set_unit]
  exact Iff.rfl

/-- Every index of the array is in a written block: row `n` is in the block of point `n / 512`. -/
theorem cover1_3 (i : S16384x8x257.Idx) :
    ∃ t : Fin cfg1.N, (cfg1.win 3).flush t = true ∧ i ∈ ((cfg1.win 3).blk t).view.set := by
  have hi0 : (i 0).val < 16384 := (i 0).isLt
  have hi1 : (i 1).val < 8 := (i 1).isLt
  have hi2 : (i 2).val < 257 := (i 2).isLt
  have hN : (i 0).val / 512 < cfg1.N := by show _ < grid1.N; rw [N_1]; omega
  obtain ⟨t, ht⟩ : ∃ t : Fin cfg1.N, t.val = (i 0).val / 512 := ⟨⟨_, hN⟩, rfl⟩
  have e := idx_facts1 t
  refine ⟨t, flush1_3 t, ?_⟩
  rw [mem_blk1_3]
  intro a
  match a with
  | ⟨0, _⟩ => show win1_3.index t (0 : Fin 3) * 512 ≤ (i 0).val ∧ (i 0).val < win1_3.index t (0 : Fin 3) * 512 + 512; omega
  | ⟨1, _⟩ => show win1_3.index t (1 : Fin 3) * 8 ≤ (i 1).val ∧ (i 1).val < win1_3.index t (1 : Fin 3) * 8 + 8; omega
  | ⟨2, _⟩ => show win1_3.index t (2 : Fin 3) * 257 ≤ (i 2).val ∧ (i 2).val < win1_3.index t (2 : Fin 3) * 257 + 257; omega

/-- An index of the array is in point `t`'s block iff each coordinate is in the block's range on its axis. -/
theorem mem_blk1_4 (t : Fin cfg1.N) (i : S16384x8x257.Idx) :
    i ∈ ((cfg1.win 4).blk t).view.set ↔ ∀ a : Fin 3, win1_4.index t a * S512x8x257.size a ≤ (i a).val
      ∧ (i a).val < win1_4.index t a * S512x8x257.size a + S512x8x257.size a := by
  show i ∈ ((View.whole main_v64_1).slice (win1_4.rect t)).set ↔ _
  rw [View.set_slice_whole, Rect.mem_set_unit]
  exact Iff.rfl

/-- Every index of the array is in a written block: row `n` is in the block of point `n / 512`. -/
theorem cover1_4 (i : S16384x8x257.Idx) :
    ∃ t : Fin cfg1.N, (cfg1.win 4).flush t = true ∧ i ∈ ((cfg1.win 4).blk t).view.set := by
  have hi0 : (i 0).val < 16384 := (i 0).isLt
  have hi1 : (i 1).val < 8 := (i 1).isLt
  have hi2 : (i 2).val < 257 := (i 2).isLt
  have hN : (i 0).val / 512 < cfg1.N := by show _ < grid1.N; rw [N_1]; omega
  obtain ⟨t, ht⟩ : ∃ t : Fin cfg1.N, t.val = (i 0).val / 512 := ⟨⟨_, hN⟩, rfl⟩
  have e := idx_facts1 t
  refine ⟨t, flush1_4 t, ?_⟩
  rw [mem_blk1_4]
  intro a
  match a with
  | ⟨0, _⟩ => show win1_4.index t (0 : Fin 3) * 512 ≤ (i 0).val ∧ (i 0).val < win1_4.index t (0 : Fin 3) * 512 + 512; omega
  | ⟨1, _⟩ => show win1_4.index t (1 : Fin 3) * 8 ≤ (i 1).val ∧ (i 1).val < win1_4.index t (1 : Fin 3) * 8 + 8; omega
  | ⟨2, _⟩ => show win1_4.index t (2 : Fin 3) * 257 ≤ (i 2).val ∧ (i 2).val < win1_4.index t (2 : Fin 3) * 257 + 257; omega

/-! ## The arrays after the run -/

/-- THE REAL OUTPUT ARRAY after the run: every point writes its block of `affRe`, and the blocks cover the array. -/
theorem final_re (c : Dev nD) :
    (dat1 V c).arrAt 3 cfg1.N = affRe (V c main_arg0) (V c main_arg1) (V c main_v63) :=
  (dat1 V c).arrAt_eq_of_cover 3 _ (fun t _ => flushedRe_eq V c t) cover1_3

/-- THE IMAGINARY OUTPUT ARRAY after the run. -/
theorem final_im (c : Dev nD) :
    (dat1 V c).arrAt 4 cfg1.N = affIm (V c main_arg0) (V c main_arg1) (V c main_v63) :=
  (dat1 V c).arrAt_eq_of_cover 4 _ (fun t _ => flushedIm_eq V c t) cover1_4

end Cert.KernelIdeal.Pass

end
-- ==== Proof.Whiten.lean ====
/-
  The per-(channel, feature) whitening of a complex batch norm, as ONE function of the three second moments and the
  three mixing weights. Both programs compute it with the same operations in the same order; stating it once, over
  rows of shape (1, 8, 257), lets each side be identified with it by unfolding, and the two sides then agree as soon as
  their moments do.

  With vrr, vri, vii the (co)variances of the real and imaginary parts:
    δ   = clip(vrr·vii − vri², 1e-6, 1e8)      (the clip is min(hi, max(lo, ·)))
    s   = √δ,   t = √(vrr + vii + 2·s),   r = 1 / (s·t)
    Urr = (s + vii)·r,   Uii = (s + vrr)·r,   Uri = (−vri)·r          (the inverse square root of the 2×2 covariance)
    Zrr = Wrr·Urr + Wri·Uri,  Zri = Wrr·Uri + Wri·Uii,  Zir = Wri·Urr + Wii·Uri,  Zii = Wri·Uri + Wii·Uii.
  Everything is elementwise; the weights, of shape (8, 257), are read along the two trailing axes.
-/
import Idealize.ShloMosaic.PureOps.Vector
import Idealize.ShloMosaic.PureOps.ShapeOps

noncomputable section

namespace Cert.Whiten

open Idealize.ShloMosaic

variable {F : FTy → Type} [FloatOps F]

/-- A scalar. -/
abbrev Sc : Shape := ⟨0, ![]⟩
/-- One row of per-(channel, feature) statistics. -/
abbrev Row : Shape := ⟨3, ![1, 8, 257]⟩
/-- A weight table over (channel, feature). -/
abbrev Tab : Shape := ⟨2, ![8, 257]⟩

variable (h0 : Sc.BroadcastsInDim Row (![] : Fin 0 → Fin Row.rank))
variable (h2 : Tab.BroadcastsInDim Row (![1, 2] : Fin 2 → Fin Row.rank))

/-- The row every entry of which is the float with bit pattern `b`. -/
def splat (b : BitVec 32) : FVec F Row .f32 := broadcastInDim Row ![] h0 (constant Sc .f32 b)

/-- A weight table read as a row. -/
def asRow (w : FVec F Tab .f32) : FVec F Row .f32 := broadcastInDim Row ![1, 2] h2 w

/-- δ: the determinant vrr·vii − vri², clipped below at the float 1e-6 and above at 1e8. -/
def det (vrr vri vii : FVec F Row .f32) : FVec F Row .f32 :=
  minimumf (splat h0 0x4CBEBC20#32) (maximumf (splat h0 0x358637BD#32) (subf (mulf vrr vii) (mulf vri vri)))

/-- s = √δ. -/
def rootDet (vrr vri vii : FVec F Row .f32) : FVec F Row .f32 := Host.sqrt (det h0 vrr vri vii)

/-- r = 1 / (s · √(vrr + vii + 2·s)). -/
def scale (vrr vri vii : FVec F Row .f32) : FVec F Row .f32 :=
  Host.divf (splat h0 0x3F800000#32)
    (mulf (rootDet h0 vrr vri vii)
      (Host.sqrt (addf (addf vrr vii) (mulf (splat h0 0x40000000#32) (rootDet h0 vrr vri vii)))))

/-- Urr = (s + vii) · r. -/
def uRR (vrr vri vii : FVec F Row .f32) : FVec F Row .f32 :=
  mulf (addf (rootDet h0 vrr vri vii) vii) (scale h0 vrr vri vii)
/-- Uii = (s + vrr) · r. -/
def uII (vrr vri vii : FVec F Row .f32) : FVec F Row .f32 :=
  mulf (addf (rootDet h0 vrr vri vii) vrr) (scale h0 vrr vri vii)
/-- Uri = (−vri) · r. -/
def uRI (vrr vri vii : FVec F Row .f32) : FVec F Row .f32 :=
  mulf (Host.negf vri) (scale h0 vrr vri vii)

/-- Zrr = Wrr·Urr + Wri·Uri. -/
def zRR (vrr vri vii : FVec F Row .f32) (wrr wri : FVec F Tab .f32) : FVec F Row .f32 :=
  addf (mulf (asRow h2 wrr) (uRR h0 vrr vri vii)) (mulf (asRow h2 wri) (uRI h0 vrr vri vii))
/-- Zri = Wrr·Uri + Wri·Uii. -/
def zRI (vrr vri vii : FVec F Row .f32) (wrr wri : FVec F Tab .f32) : FVec F Row .f32 :=
  addf (mulf (asRow h2 wrr) (uRI h0 vrr vri vii)) (mulf (asRow h2 wri) (uII h0 vrr vri vii))
/-- Zir = Wri·Urr + Wii·Uri. -/
def zIR (vrr vri vii : FVec F Row .f32) (wri wii : FVec F Tab .f32) : FVec F Row .f32 :=
  addf (mulf (asRow h2 wri) (uRR h0 vrr vri vii)) (mulf (asRow h2 wii) (uRI h0 vrr vri vii))
/-- Zii = Wri·Uri + Wii·Uii. -/
def zII (vrr vri vii : FVec F Row .f32) (wri wii : FVec F Tab .f32) : FVec F Row .f32 :=
  addf (mulf (asRow h2 wri) (uRI h0 vrr vri vii)) (mulf (asRow h2 wii) (uII h0 vrr vri vii))

end Cert.Whiten

end
-- ==== Proof.Ideal.HostParams.lean ====
import proofs.«156525_j26182120636725_1_alg».proof.Proof.Gen.KernelIdeal.Launch
import proofs.«156525_j26182120636725_1_alg».proof.Proof.Whiten
import Idealize.ShloMosaic.Lib.StableHlo.Run
import Idealize.ShloMosaic.Lib.ValueIdx
import Idealize.ShloMosaic.Lib.Pipeline.Value

/-! # From the five sums to the eight parameter rows

Between its two passes the program turns the (5, 8, 257) array of column sums the first pass leaves into the
(8, 8, 257) array of parameters the second pass reads: the two means, the four entries of the whitening matrix
mixed with the weights, and the two bias rows. This module states that array as ONE function of the sums and of
the five weight and bias tables, proves that the host operations between the two passes compute it, and reads it
row by row. -/

noncomputable section

namespace Cert.KernelIdeal.Pass

open Cert.KernelIdeal Cert.KernelIdeal.Gen
open Idealize.ShloMosaic Idealize.ShloMosaic.TcCoe Idealize.SL.Sem Idealize.ShloMosaic.StableHlo

variable {F : FTy → Type} [FloatOps F]

/-! ## The rows of sums and the moments -/

/-- Row 0 of the sums: Σ xr. -/
def sumRow0 (S : FVec F S5x8x257 .f32) : FVec F S1x8x257 .f32 :=
  extractStridedSlice S1x8x257 ![0, 0, 0] S slices_S5x8x257_S1x8x257_0_0_0
/-- Row 1 of the sums: Σ xi. -/
def sumRow1 (S : FVec F S5x8x257 .f32) : FVec F S1x8x257 .f32 :=
  extractStridedSlice S1x8x257 ![1, 0, 0] S slices_S5x8x257_S1x8x257_1_0_0
/-- Row 2 of the sums: Σ xr². -/
def sumRow2 (S : FVec F S5x8x257 .f32) : FVec F S1x8x257 .f32 :=
  extractStridedSlice S1x8x257 ![2, 0, 0] S slices_S5x8x257_S1x8x257_2_0_0
/-- Row 3 of the sums: Σ xr·xi. -/
def sumRow3 (S : FVec F S5x8x257 .f32) : FVec F S1x8x257 .f32 :=
  extractStridedSlice S1x8x257 ![3, 0, 0] S slices_S5x8x257_S1x8x257_3_0_0
/-- Row 4 of the sums: Σ xi². -/
def sumRow4 (S : FVec F S5x8x257 .f32) : FVec F S1x8x257 .f32 :=
  extractStridedSlice S1x8x257 ![4, 0, 0] S slices_S5x8x257_S1x8x257_4_0_0

/-- The batch size N = 16384, as a row. -/
def countRow : FVec F S1x8x257 .f32 := Cert.Whiten.splat bcast_S_S1x8x257 0x46800000#32

/-- Mr = Σ xr / N. -/
def meanRe (S : FVec F S5x8x257 .f32) : FVec F S1x8x257 .f32 := Host.divf (sumRow0 S) countRow
/-- Mi = Σ xi / N. -/
def meanIm (S : FVec F S5x8x257 .f32) : FVec F S1x8x257 .f32 := Host.divf (sumRow1 S) countRow
/-- Vrr = Σ xr² / N − Mr·Mr. -/
def varRe (S : FVec F S5x8x257 .f32) : FVec F S1x8x257 .f32 :=
  subf (Host.divf (sumRow2 S) countRow) (mulf (meanRe S) (meanRe S))
/-- Vri = Σ xr·xi / N − Mr·Mi. -/
def covReIm (S : FVec F S5x8x257 .f32) : FVec F S1x8x257 .f32 :=
  subf (Host.divf (sumRow3 S) countRow) (mulf (meanRe S) (meanIm S))
/-- Vii = Σ xi² / N − Mi·Mi. -/
def varIm (S : FVec F S5x8x257 .f32) : FVec F S1x8x257 .f32 :=
  subf (Host.divf (sumRow4 S) countRow) (mulf (meanIm S) (meanIm S))

/-! ## The parameter array -/

/-- The eight parameter rows stacked along axis 0: Mr, Mi, Zrr, Zri, Zir, Zii, Br, Bi. -/
def paramsOf (S : FVec F S5x8x257 .f32) (wrr wri wii br bi : FVec F S8x257 .f32) : FVec F S8x8x257 .f32 :=
  concatenate S8x8x257 0
    [⟨S1x8x257, meanRe S⟩, ⟨S1x8x257, meanIm S⟩,
     ⟨S1x8x257, Cert.Whiten.zRR bcast_S_S1x8x257 bcast_S8x257_S1x8x257_1_2 (varRe S) (covReIm S) (varIm S) wrr wri⟩,
     ⟨S1x8x257, Cert.Whiten.zRI bcast_S_S1x8x257 bcast_S8x257_S1x8x257_1_2 (varRe S) (covReIm S) (varIm S) wrr wri⟩,
     ⟨S1x8x257, Cert.Whiten.zIR bcast_S_S1x8x257 bcast_S8x257_S1x8x257_1_2 (varRe S) (covReIm S) (varIm S) wri wii⟩,
     ⟨S1x8x257, Cert.Whiten.zII bcast_S_S1x8x257 bcast_S8x257_S1x8x257_1_2 (varRe S) (covReIm S) (varIm S) wri wii⟩,
     ⟨S1x8x257, Cert.Whiten.asRow bcast_S8x257_S1x8x257_1_2 br⟩,
     ⟨S1x8x257, Cert.Whiten.asRow bcast_S8x257_S1x8x257_1_2 bi⟩]
    concatenates_S1x8x257_S1x8x257_S1x8x257_S1x8x257_S1x8x257_S1x8x257_S1x8x257_S1x8x257_S8x8x257_d0

/-! ## What the host operations leave -/

/-- The stacking operation leaves at its result the eight rows it finds at its operands, stacked along axis 0. -/
theorem params_stack_result (V : Valuation τ sig (Elt F)) :
    (StableHlo.nary ![main_v7, main_v9, main_v45, main_v50, main_v55, main_v60, main_v61, main_v62] main_v63
        (fun u => concatenate S8x8x257 0 [⟨S1x8x257, u 0⟩, ⟨S1x8x257, u 1⟩, ⟨S1x8x257, u 2⟩, ⟨S1x8x257, u 3⟩, ⟨S1x8x257, u 4⟩, ⟨S1x8x257, u 5⟩, ⟨S1x8x257, u 6⟩, ⟨S1x8x257, u 7⟩]
          concatenates_S1x8x257_S1x8x257_S1x8x257_S1x8x257_S1x8x257_S1x8x257_S1x8x257_S1x8x257_S8x8x257_d0)
        : HloOp τ sig (Elt F)).result V (Proc.devRef .tc main_v63)
      = concatenate S8x8x257 0
          [⟨S1x8x257, V (Proc.devRef .tc main_v7)⟩, ⟨S1x8x257, V (Proc.devRef .tc main_v9)⟩,
           ⟨S1x8x257, V (Proc.devRef .tc main_v45)⟩, ⟨S1x8x257, V (Proc.devRef .tc main_v50)⟩,
           ⟨S1x8x257, V (Proc.devRef .tc main_v55)⟩, ⟨S1x8x257, V (Proc.devRef .tc main_v60)⟩,
           ⟨S1x8x257, V (Proc.devRef .tc main_v61)⟩, ⟨S1x8x257, V (Proc.devRef .tc main_v62)⟩]
          concatenates_S1x8x257_S1x8x257_S1x8x257_S1x8x257_S1x8x257_S1x8x257_S1x8x257_S1x8x257_S8x8x257_d0 := by
  rw [nary_result]; rfl

/-- After the last stretch the parameter array is the stack of the eight rows the stretch leaves. -/
theorem params_stack_after (V : Valuation τ sig (Elt F)) :
    StableHlo.after hostOps1_2 V (Proc.devRef .tc main_v63)
      = concatenate S8x8x257 0
          [⟨S1x8x257, StableHlo.after hostOps1_2 V (Proc.devRef .tc main_v7)⟩,
           ⟨S1x8x257, StableHlo.after hostOps1_2 V (Proc.devRef .tc main_v9)⟩,
           ⟨S1x8x257, StableHlo.after hostOps1_2 V (Proc.devRef .tc main_v45)⟩,
           ⟨S1x8x257, StableHlo.after hostOps1_2 V (Proc.devRef .tc main_v50)⟩,
           ⟨S1x8x257, StableHlo.after hostOps1_2 V (Proc.devRef .tc main_v55)⟩,
           ⟨S1x8x257, StableHlo.after hostOps1_2 V (Proc.devRef .tc main_v60)⟩,
           ⟨S1x8x257, StableHlo.after hostOps1_2 V (Proc.devRef .tc main_v61)⟩,
           ⟨S1x8x257, StableHlo.after hostOps1_2 V (Proc.devRef .tc main_v62)⟩]
          concatenates_S1x8x257_S1x8x257_S1x8x257_S1x8x257_S1x8x257_S1x8x257_S1x8x257_S1x8x257_S8x8x257_d0 := by
  simp only [after_cons, after_nil]
  rw [params_stack_result]
  repeat (rw [nary_result_ne]; rotate_left; decide)

/-- The first row the host operations leave: Mr. -/
theorem params_row0_after (W : Valuation τ sig (Elt F)) :
    StableHlo.after hostOps1_2 (StableHlo.after hostOps1_1 (StableHlo.after hostOps1 W)) (Proc.devRef .tc main_v7)
      = meanRe (W (Proc.devRef .tc main_v0)) := by
  after_results_simp; rfl

/-- The second row: Mi. -/
theorem params_row1_after (W : Valuation τ sig (Elt F)) :
    StableHlo.after hostOps1_2 (StableHlo.after hostOps1_1 (StableHlo.after hostOps1 W)) (Proc.devRef .tc main_v9)
      = meanIm (W (Proc.devRef .tc main_v0)) := by
  after_results_simp; rfl

set_option maxHeartbeats 800000 in
/-- The third row: Zrr, the whitening of the moments mixed with Wrr and Wri. -/
theorem params_row2_after (W : Valuation τ sig (Elt F)) :
    StableHlo.after hostOps1_2 (StableHlo.after hostOps1_1 (StableHlo.after hostOps1 W)) (Proc.devRef .tc main_v45)
      = Cert.Whiten.zRR bcast_S_S1x8x257 bcast_S8x257_S1x8x257_1_2 (varRe (W (Proc.devRef .tc main_v0))) (covReIm (W (Proc.devRef .tc main_v0))) (varIm (W (Proc.devRef .tc main_v0))) (W (Proc.devRef .tc main_arg2)) (W (Proc.devRef .tc main_arg3)) := by
  after_results_simp; rfl

set_option maxHeartbeats 800000 in
/-- The fourth row: Zri. -/
theorem params_row3_after (W : Valuation τ sig (Elt F)) :
    StableHlo.after hostOps1_2 (StableHlo.after hostOps1_1 (StableHlo.after hostOps1 W)) (Proc.devRef .tc main_v50)
      = Cert.Whiten.zRI bcast_S_S1x8x257 bcast_S8x257_S1x8x257_1_2 (varRe (W (Proc.devRef .tc main_v0))) (covReIm (W (Proc.devRef .tc main_v0))) (varIm (W (Proc.devRef .tc main_v0))) (W (Proc.devRef .tc main_arg2)) (W (Proc.devRef .tc main_arg3)) := by
  after_results_simp; rfl

set_option maxHeartbeats 800000 in
/-- The fifth row: Zir. -/
theorem params_row4_after (W : Valuation τ sig (Elt F)) :
    StableHlo.after hostOps1_2 (StableHlo.after hostOps1_1 (StableHlo.after hostOps1 W)) (Proc.devRef .tc main_v55)
      = Cert.Whiten.zIR bcast_S_S1x8x257 bcast_S8x257_S1x8x257_1_2 (varRe (W (Proc.devRef .tc main_v0))) (covReIm (W (Proc.devRef .tc main_v0))) (varIm (W (Proc.devRef .tc main_v0))) (W (Proc.devRef .tc main_arg3)) (W (Proc.devRef .tc main_arg4)) := by
  after_results_simp; rfl

set_option maxHeartbeats 800000 in
/-- The sixth row: Zii. -/
theorem params_row5_after (W : Valuation τ sig (Elt F)) :
    StableHlo.after hostOps1_2 (StableHlo.after hostOps1_1 (StableHlo.after hostOps1 W)) (Proc.devRef .tc main_v60)
      = Cert.Whiten.zII bcast_S_S1x8x257 bcast_S8x257_S1x8x257_1_2 (varRe (W (Proc.devRef .tc main_v0))) (covReIm (W (Proc.devRef .tc main_v0))) (varIm (W (Proc.devRef .tc main_v0))) (W (Proc.devRef .tc main_arg3)) (W (Proc.devRef .tc main_arg4)) := by
  after_results_simp; rfl

/-- The seventh row: the bias Br read as a row. -/
theorem params_row6_after (W : Valuation τ sig (Elt F)) :
    StableHlo.after hostOps1_2 (StableHlo.after hostOps1_1 (StableHlo.after hostOps1 W)) (Proc.devRef .tc main_v61)
      = Cert.Whiten.asRow bcast_S8x257_S1x8x257_1_2 (W (Proc.devRef .tc main_arg5)) := by
  after_results_simp; rfl

/-- The eighth row: the bias Bi read as a row. -/
theorem params_row7_after (W : Valuation τ sig (Elt F)) :
    StableHlo.after hostOps1_2 (StableHlo.after hostOps1_1 (StableHlo.after hostOps1 W)) (Proc.devRef .tc main_v62)
      = Cert.Whiten.asRow bcast_S8x257_S1x8x257_1_2 (W (Proc.devRef .tc main_arg6)) := by
  after_results_simp; rfl

/-- The host operations between the two passes leave the parameter array of the sums and the tables they find. -/
theorem params_after (W : Valuation τ sig (Elt F)) :
    StableHlo.after hostOps1_2 (StableHlo.after hostOps1_1 (StableHlo.after hostOps1 W)) (Proc.devRef .tc main_v63)
      = paramsOf (W (Proc.devRef .tc main_v0)) (W (Proc.devRef .tc main_arg2)) (W (Proc.devRef .tc main_arg3))
          (W (Proc.devRef .tc main_arg4)) (W (Proc.devRef .tc main_arg5)) (W (Proc.devRef .tc main_arg6)) := by
  rw [params_stack_after, params_row0_after, params_row1_after, params_row2_after, params_row3_after, params_row4_after, params_row5_after, params_row6_after, params_row7_after]
  rfl

/-! ## The parameter array row by row

The array is a stack of eight rows of extent 1 along axis 0, so its entry at (k, c, f) is row k's entry at (0, c, f). -/

variable (S : FVec F S5x8x257 .f32) (wrr wri wii br bi : FVec F S8x257 .f32)

/-- Row 0 of the parameter array at channel `c`, feature `f`: Mr there. -/
theorem paramsOf_row0 (c : Fin 8) (f : Fin 257) :
    paramsOf S wrr wri wii br bi (ValueIdx.ix3 0 c f) = meanRe S (ValueIdx.ix3 0 c f) := by
  unfold paramsOf
  refine concatenate_apply_piece (t := S8x8x257) (0 : Fin 3) _ _ (ValueIdx.ix3 (0 : Fin 8) c f) 0 ?hk S1x8x257 _ ?hxk ?hr 0 ?hpre
    (ValueIdx.ix3 (0 : Fin 1) c f) ?hi ?ha
  case hk => exact (by decide : 0 < 8)
  case hxk => rfl
  case hr => rfl
  case hpre => rfl
  case ha => rfl
  case hi =>
    intro b hb
    match b, hb with
    | ⟨0, _⟩, hb => exact absurd rfl hb
    | ⟨1, _⟩, _ => rfl
    | ⟨2, _⟩, _ => rfl

/-- Row 1 of the parameter array at channel `c`, feature `f`: Mi there. -/
theorem paramsOf_row1 (c : Fin 8) (f : Fin 257) :
    paramsOf S wrr wri wii br bi (ValueIdx.ix3 1 c f) = meanIm S (ValueIdx.ix3 0 c f) := by
  unfold paramsOf
  refine concatenate_apply_piece (t := S8x8x257) (0 : Fin 3) _ _ (ValueIdx.ix3 (1 : Fin 8) c f) 1 ?hk S1x8x257 _ ?hxk ?hr 1 ?hpre
    (ValueIdx.ix3 (0 : Fin 1) c f) ?hi ?ha
  case hk => exact (by decide : 1 < 8)
  case hxk => rfl
  case hr => rfl
  case hpre => rfl
  case ha => rfl
  case hi =>
    intro b hb
    match b, hb with
    | ⟨0, _⟩, hb => exact absurd rfl hb
    | ⟨1, _⟩, _ => rfl
    | ⟨2, _⟩, _ => rfl

/-- Row 2 of the parameter array at channel `c`, feature `f`: Zrr there. -/
theorem paramsOf_row2 (c : Fin 8) (f : Fin 257) :
    paramsOf S wrr wri wii br bi (ValueIdx.ix3 2 c f)
      = Cert.Whiten.zRR bcast_S_S1x8x257 bcast_S8x257_S1x8x257_1_2 (varRe S) (covReIm S) (varIm S) wrr wri (ValueIdx.ix3 0 c f) := by
  unfold paramsOf
  refine concatenate_apply_piece (t := S8x8x257) (0 : Fin 3) _ _ (ValueIdx.ix3 (2 : Fin 8) c f) 2 ?hk S1x8x257 _ ?hxk ?hr 2 ?hpre
    (ValueIdx.ix3 (0 : Fin 1) c f) ?hi ?ha
  case hk => exact (by decide : 2 < 8)
  case hxk => rfl
  case hr => rfl
  case hpre => rfl
  case ha => rfl
  case hi =>
    intro b hb
    match b, hb with
    | ⟨0, _⟩, hb => exact absurd rfl hb
    | ⟨1, _⟩, _ => rfl
    | ⟨2, _⟩, _ => rfl

/-- Row 3 of the parameter array at channel `c`, feature `f`: Zri there. -/
theorem paramsOf_row3 (c : Fin 8) (f : Fin 257) :
    paramsOf S wrr wri wii br bi (ValueIdx.ix3 3 c f)
      = Cert.Whiten.zRI bcast_S_S1x8x257 bcast_S8x257_S1x8x257_1_2 (varRe S) (covReIm S) (varIm S) wrr wri (ValueIdx.ix3 0 c f) := by
  unfold paramsOf
  refine concatenate_apply_piece (t := S8x8x257) (0 : Fin 3) _ _ (ValueIdx.ix3 (3 : Fin 8) c f) 3 ?hk S1x8x257 _ ?hxk ?hr 3 ?hpre
    (ValueIdx.ix3 (0 : Fin 1) c f) ?hi ?ha
  case hk => exact (by decide : 3 < 8)
  case hxk => rfl
  case hr => rfl
  case hpre => rfl
  case ha => rfl
  case hi =>
    intro b hb
    match b, hb with
    | ⟨0, _⟩, hb => exact absurd rfl hb
    | ⟨1, _⟩, _ => rfl
    | ⟨2, _⟩, _ => rfl

/-- Row 4 of the parameter array at channel `c`, feature `f`: Zir there. -/
theorem paramsOf_row4 (c : Fin 8) (f : Fin 257) :
    paramsOf S wrr wri wii br bi (ValueIdx.ix3 4 c f)
      = Cert.Whiten.zIR bcast_S_S1x8x257 bcast_S8x257_S1x8x257_1_2 (varRe S) (covReIm S) (varIm S) wri wii (ValueIdx.ix3 0 c f) := by
  unfold paramsOf
  refine concatenate_apply_piece (t := S8x8x257) (0 : Fin 3) _ _ (ValueIdx.ix3 (4 : Fin 8) c f) 4 ?hk S1x8x257 _ ?hxk ?hr 4 ?hpre
    (ValueIdx.ix3 (0 : Fin 1) c f) ?hi ?ha
  case hk => exact (by decide : 4 < 8)
  case hxk => rfl
  case hr => rfl
  case hpre => rfl
  case ha => rfl
  case hi =>
    intro b hb
    match b, hb with
    | ⟨0, _⟩, hb => exact absurd rfl hb
    | ⟨1, _⟩, _ => rfl
    | ⟨2, _⟩, _ => rfl

/-- Row 5 of the parameter array at channel `c`, feature `f`: Zii there. -/
theorem paramsOf_row5 (c : Fin 8) (f : Fin 257) :
    paramsOf S wrr wri wii br bi (ValueIdx.ix3 5 c f)
      = Cert.Whiten.zII bcast_S_S1x8x257 bcast_S8x257_S1x8x257_1_2 (varRe S) (covReIm S) (varIm S) wri wii (ValueIdx.ix3 0 c f) := by
  unfold paramsOf
  refine concatenate_apply_piece (t := S8x8x257) (0 : Fin 3) _ _ (ValueIdx.ix3 (5 : Fin 8) c f) 5 ?hk S1x8x257 _ ?hxk ?hr 5 ?hpre
    (ValueIdx.ix3 (0 : Fin 1) c f) ?hi ?ha
  case hk => exact (by decide : 5 < 8)
  case hxk => rfl
  case hr => rfl
  case hpre => rfl
  case ha => rfl
  case hi =>
    intro b hb
    match b, hb with
    | ⟨0, _⟩, hb => exact absurd rfl hb
    | ⟨1, _⟩, _ => rfl
    | ⟨2, _⟩, _ => rfl

/-- Row 6 of the parameter array at channel `c`, feature `f`: Br as a row there. -/
theorem paramsOf_row6 (c : Fin 8) (f : Fin 257) :
    paramsOf S wrr wri wii br bi (ValueIdx.ix3 6 c f)
      = Cert.Whiten.asRow bcast_S8x257_S1x8x257_1_2 br (ValueIdx.ix3 0 c f) := by
  unfold paramsOf
  refine concatenate_apply_piece (t := S8x8x257) (0 : Fin 3) _ _ (ValueIdx.ix3 (6 : Fin 8) c f) 6 ?hk S1x8x257 _ ?hxk ?hr 6 ?hpre
    (ValueIdx.ix3 (0 : Fin 1) c f) ?hi ?ha
  case hk => exact (by decide : 6 < 8)
  case hxk => rfl
  case hr => rfl
  case hpre => rfl
  case ha => rfl
  case hi =>
    intro b hb
    match b, hb with
    | ⟨0, _⟩, hb => exact absurd rfl hb
    | ⟨1, _⟩, _ => rfl
    | ⟨2, _⟩, _ => rfl

/-- Row 7 of the parameter array at channel `c`, feature `f`: Bi as a row there. -/
theorem paramsOf_row7 (c : Fin 8) (f : Fin 257) :
    paramsOf S wrr wri wii br bi (ValueIdx.ix3 7 c f)
      = Cert.Whiten.asRow bcast_S8x257_S1x8x257_1_2 bi (ValueIdx.ix3 0 c f) := by
  unfold paramsOf
  refine concatenate_apply_piece (t := S8x8x257) (0 : Fin 3) _ _ (ValueIdx.ix3 (7 : Fin 8) c f) 7 ?hk S1x8x257 _ ?hxk ?hr 7 ?hpre
    (ValueIdx.ix3 (0 : Fin 1) c f) ?hi ?ha
  case hk => exact (by decide : 7 < 8)
  case hxk => rfl
  case hr => rfl
  case hpre => rfl
  case ha => rfl
  case hi =>
    intro b hb
    match b, hb with
    | ⟨0, _⟩, hb => exact absurd rfl hb
    | ⟨1, _⟩, _ => rfl
    | ⟨2, _⟩, _ => rfl

end Cert.KernelIdeal.Pass

end
-- ==== Proof.RefRead.lean ====
/-
  The reference's two results, and its five moments, read at one (row, channel, feature) index.

  The reference forms, per (channel c, feature f) and with N = 16384 rows:
    Mr = (Σₙ xr)/N,  Mi = (Σₙ xi)/N,
    Vrr = (Σₙ (xr − Mr)²)/N,  Vri = (Σₙ (xr − Mr)(xi − Mi))/N,  Vii = (Σₙ (xi − Mi)²)/N,
  whitens (Vrr, Vri, Vii) with the weights into Zrr, Zri, Zir, Zii, and returns
    yr = (Zrr·(xr − Mr) + Zri·(xi − Mi)) + Br,   yi = (Zir·(xr − Mr) + Zii·(xi − Mi)) + Bi.
  Here: the four Z rows ARE the whitening of the three second moments (by unfolding, for every float family); each
  result at (n, c, f) is that expression of the rows at (0, c, f), the inputs at (n, c, f) and the bias at (c, f)
  (every broadcast reads its operand at the index with the broadcast axis set to 0, or dropped); and, over the
  extended reals, each moment at (0, c, f) is its sum over the rows divided by N.
-/
import proofs.«156525_j26182120636725_1_alg».proof.Proof.Gen.ReferenceIdeal.Read
import proofs.«156525_j26182120636725_1_alg».proof.Proof.Whiten
import Idealize.ShloMosaic.Lib.ValueIdx

noncomputable section

namespace Cert.RefRead

open Idealize.ShloMosaic Idealize.ShloMosaic.ValueIdx Cert.ReferenceIdeal Cert.ReferenceIdeal.Gen

variable {F : FTy → Type} [FloatOps F]

/-- A full array of the batch. -/
abbrev Arr (F : FTy → Type) [FloatOps F] : Type := (⟨S16384x8x257, .f32⟩ : BufTy).Contents (Elt F)
/-- A (channel, feature) table. -/
abbrev Tbl (F : FTy → Type) [FloatOps F] : Type := (⟨S8x257, .f32⟩ : BufTy).Contents (Elt F)

/-! ## The four mixing rows are the whitening of the second moments

Each is the same composition of the same elementwise operations, so the two sides agree by unfolding. -/

theorem zrr_eq (x0 x1 : Arr F) (x2 x3 : Tbl F) :
    Read.val_main_v50 (F := F) x0 x1 x2 x3
      = Cert.Whiten.zRR bcast_S_S1x8x257 bcast_S8x257_S1x8x257_1_2
          (Read.val_main_v16 x0) (Read.val_main_v21 x0 x1) (Read.val_main_v26 x1) x2 x3 := rfl

theorem zri_eq (x0 x1 : Arr F) (x2 x3 : Tbl F) :
    Read.val_main_v55 (F := F) x0 x1 x2 x3
      = Cert.Whiten.zRI bcast_S_S1x8x257 bcast_S8x257_S1x8x257_1_2
          (Read.val_main_v16 x0) (Read.val_main_v21 x0 x1) (Read.val_main_v26 x1) x2 x3 := rfl

theorem zir_eq (x0 x1 : Arr F) (x3 x4 : Tbl F) :
    Read.val_main_v60 (F := F) x0 x1 x3 x4
      = Cert.Whiten.zIR bcast_S_S1x8x257 bcast_S8x257_S1x8x257_1_2
          (Read.val_main_v16 x0) (Read.val_main_v21 x0 x1) (Read.val_main_v26 x1) x3 x4 := rfl

theorem zii_eq (x0 x1 : Arr F) (x3 x4 : Tbl F) :
    Read.val_main_v65 (F := F) x0 x1 x3 x4
      = Cert.Whiten.zII bcast_S_S1x8x257 bcast_S8x257_S1x8x257_1_2
          (Read.val_main_v16 x0) (Read.val_main_v21 x0 x1) (Read.val_main_v26 x1) x3 x4 := rfl

/-! ## Where the layout operations read

A row broadcast along the batch axis reads its operand at batch coordinate 0; a table broadcast to a row drops that
coordinate; a sum over the batch axis runs over the first coordinate. -/

/-- The batch broadcast of a row, at (n, c, f), reads the row at (0, c, f). -/
theorem rowIdx (n : Fin 16384) (c : Fin 8) (f : Fin 257) : Read.idx_main_v8 (ix3 n c f) = ix3 0 c f := by
  funext a; match a with | ⟨0, _⟩ => rfl | ⟨1, _⟩ => rfl | ⟨2, _⟩ => rfl

/-- A table read as a row, at (0, c, f), reads the table at (c, f). -/
theorem tabIdx (c : Fin 8) (f : Fin 257) : Read.idx_main_v1 (ix3 0 c f) = ix2 c f := by
  funext a; match a with | ⟨0, _⟩ => rfl | ⟨1, _⟩ => rfl

/-- The k-th summand of a batch sum into (c, f) sits at (k, c, f). -/
theorem sumIdx (c : Fin 8) (f : Fin 257) (k : Fin 16384) : Read.idx_main_v0 (ix2 c f) k = ix3 k c f := by
  funext a; match a with | ⟨0, _⟩ => rfl | ⟨1, _⟩ => rfl | ⟨2, _⟩ => rfl

/-! ## The centred inputs and the biases at an index -/

/-- xr − Mr at (n, c, f). -/
theorem dr_apply (x0 : Arr F) (n : Fin 16384) (c : Fin 8) (f : Fin 257) :
    Read.val_main_v9 (F := F) x0 (ix3 n c f)
      = FloatOps.subf (x0 (ix3 n c f)) (Read.val_main_v3 x0 (ix3 0 c f)) :=
  congrArg (FloatOps.subf (x0 (ix3 n c f)))
    ((Read.val_main_v8_apply x0 _).trans (congrArg (Read.val_main_v3 x0) (rowIdx n c f)))

/-- xi − Mi at (n, c, f). -/
theorem di_apply (x1 : Arr F) (n : Fin 16384) (c : Fin 8) (f : Fin 257) :
    Read.val_main_v11 (F := F) x1 (ix3 n c f)
      = FloatOps.subf (x1 (ix3 n c f)) (Read.val_main_v7 x1 (ix3 0 c f)) :=
  congrArg (FloatOps.subf (x1 (ix3 n c f)))
    ((Read.val_main_v10_apply x1 _).trans (congrArg (Read.val_main_v7 x1) (rowIdx n c f)))

/-- The real bias, broadcast to the batch, at (n, c, f). -/
theorem br_apply (x5 : Tbl F) (n : Fin 16384) (c : Fin 8) (f : Fin 257) :
    Read.val_main_v72 (F := F) x5 (ix3 n c f) = x5 (ix2 c f) :=
  ((Read.val_main_v72_apply x5 _).trans (congrArg (Read.val_main_v71 x5) (rowIdx n c f))).trans
    ((Read.val_main_v71_apply x5 _).trans (congrArg x5 (tabIdx c f)))

/-- The imaginary bias, broadcast to the batch, at (n, c, f). -/
theorem bi_apply (x6 : Tbl F) (n : Fin 16384) (c : Fin 8) (f : Fin 257) :
    Read.val_main_v80 (F := F) x6 (ix3 n c f) = x6 (ix2 c f) :=
  ((Read.val_main_v80_apply x6 _).trans (congrArg (Read.val_main_v79 x6) (rowIdx n c f))).trans
    ((Read.val_main_v79_apply x6 _).trans (congrArg x6 (tabIdx c f)))

/-! ## The two results at an index -/

/-- yr at (n, c, f) = (Zrr·(xr − Mr) + Zri·(xi − Mi)) + Br. -/
theorem re_apply (x0 x1 : Arr F) (x2 x3 x5 : Tbl F) (n : Fin 16384) (c : Fin 8) (f : Fin 257) :
    Read.val_main_v73 (F := F) x0 x1 x2 x3 x5 (ix3 n c f)
      = FloatOps.addf
          (FloatOps.addf
            (FloatOps.mulf (Read.val_main_v50 x0 x1 x2 x3 (ix3 0 c f))
              (FloatOps.subf (x0 (ix3 n c f)) (Read.val_main_v3 x0 (ix3 0 c f))))
            (FloatOps.mulf (Read.val_main_v55 x0 x1 x2 x3 (ix3 0 c f))
              (FloatOps.subf (x1 (ix3 n c f)) (Read.val_main_v7 x1 (ix3 0 c f)))))
          (x5 (ix2 c f)) := by
  have hrr : Read.val_main_v66 (F := F) x0 x1 x2 x3 (ix3 n c f) = Read.val_main_v50 x0 x1 x2 x3 (ix3 0 c f) :=
    (Read.val_main_v66_apply x0 x1 x2 x3 _).trans (congrArg (Read.val_main_v50 x0 x1 x2 x3) (rowIdx n c f))
  have hri : Read.val_main_v68 (F := F) x0 x1 x2 x3 (ix3 n c f) = Read.val_main_v55 x0 x1 x2 x3 (ix3 0 c f) :=
    (Read.val_main_v68_apply x0 x1 x2 x3 _).trans (congrArg (Read.val_main_v55 x0 x1 x2 x3) (rowIdx n c f))
  rw [Read.val_main_v73_apply, Read.val_main_v70_apply, Read.val_main_v67_apply, Read.val_main_v69_apply,
    hrr, hri, dr_apply, di_apply, br_apply]

/-- yi at (n, c, f) = (Zir·(xr − Mr) + Zii·(xi − Mi)) + Bi. -/
theorem im_apply (x0 x1 : Arr F) (x3 x4 x6 : Tbl F) (n : Fin 16384) (c : Fin 8) (f : Fin 257) :
    Read.val_main_v81 (F := F) x0 x1 x3 x4 x6 (ix3 n c f)
      = FloatOps.addf
          (FloatOps.addf
            (FloatOps.mulf (Read.val_main_v60 x0 x1 x3 x4 (ix3 0 c f))
              (FloatOps.subf (x0 (ix3 n c f)) (Read.val_main_v3 x0 (ix3 0 c f))))
            (FloatOps.mulf (Read.val_main_v65 x0 x1 x3 x4 (ix3 0 c f))
              (FloatOps.subf (x1 (ix3 n c f)) (Read.val_main_v7 x1 (ix3 0 c f)))))
          (x6 (ix2 c f)) := by
  have hir : Read.val_main_v74 (F := F) x0 x1 x3 x4 (ix3 n c f) = Read.val_main_v60 x0 x1 x3 x4 (ix3 0 c f) :=
    (Read.val_main_v74_apply x0 x1 x3 x4 _).trans (congrArg (Read.val_main_v60 x0 x1 x3 x4) (rowIdx n c f))
  have hii : Read.val_main_v76 (F := F) x0 x1 x3 x4 (ix3 n c f) = Read.val_main_v65 x0 x1 x3 x4 (ix3 0 c f) :=
    (Read.val_main_v76_apply x0 x1 x3 x4 _).trans (congrArg (Read.val_main_v65 x0 x1 x3 x4) (rowIdx n c f))
  rw [Read.val_main_v81_apply, Read.val_main_v78_apply, Read.val_main_v75_apply, Read.val_main_v77_apply,
    hir, hii, dr_apply, di_apply, bi_apply]

/-! ## The five moments at an index, over the extended reals

Each is (0 + Σₙ summand at (n, c, f)) / N, the zero and N the floats the program names. -/

/-- Mr at (0, c, f). -/
theorem mr_apply (x0 : Arr Ideal) (c : Fin 8) (f : Fin 257) :
    Read.val_main_v3 (F := Ideal) x0 (ix3 0 c f)
      = FloatOps.hostDivf (F := Ideal) (FloatOps.ofBits .f32 0x00000000#32 + ∑ n : Fin 16384, x0 (ix3 n c f))
          (FloatOps.ofBits .f32 0x46800000#32) := by
  rw [Read.val_main_v3_apply, Read.val_main_v1_apply, tabIdx, Read.val_main_v0_apply, Read.val_main_v2_apply,
    Read.val_main_cst_apply, Read.val_main_cst_0_apply]
  refine congrArg (fun s => FloatOps.hostDivf (F := Ideal) (FloatOps.ofBits .f32 0x00000000#32 + s)
    (FloatOps.ofBits .f32 0x46800000#32)) (Finset.sum_congr rfl fun k _ => ?_)
  exact congrArg x0 (sumIdx c f k)

/-- Mi at (0, c, f). -/
theorem mi_apply (x1 : Arr Ideal) (c : Fin 8) (f : Fin 257) :
    Read.val_main_v7 (F := Ideal) x1 (ix3 0 c f)
      = FloatOps.hostDivf (F := Ideal) (FloatOps.ofBits .f32 0x00000000#32 + ∑ n : Fin 16384, x1 (ix3 n c f))
          (FloatOps.ofBits .f32 0x46800000#32) := by
  have ht : Read.idx_main_v5 (ix3 0 c f) = ix2 c f := tabIdx c f
  rw [Read.val_main_v7_apply, Read.val_main_v5_apply, ht, Read.val_main_v4_apply, Read.val_main_v6_apply,
    Read.val_main_cst_1_apply, Read.val_main_cst_2_apply]
  refine congrArg (fun s => FloatOps.hostDivf (F := Ideal) (FloatOps.ofBits .f32 0x00000000#32 + s)
    (FloatOps.ofBits .f32 0x46800000#32)) (Finset.sum_congr rfl fun k _ => ?_)
  exact congrArg x1 (sumIdx c f k)

/-- Vrr at (0, c, f). -/
theorem vrr_apply (x0 : Arr Ideal) (c : Fin 8) (f : Fin 257) :
    Read.val_main_v16 (F := Ideal) x0 (ix3 0 c f)
      = FloatOps.hostDivf (F := Ideal)
          (FloatOps.ofBits .f32 0x00000000#32 + ∑ n : Fin 16384,
            FloatOps.mulf (FloatOps.subf (x0 (ix3 n c f)) (Read.val_main_v3 x0 (ix3 0 c f)))
              (FloatOps.subf (x0 (ix3 n c f)) (Read.val_main_v3 x0 (ix3 0 c f))))
          (FloatOps.ofBits .f32 0x46800000#32) := by
  have ht : Read.idx_main_v14 (ix3 0 c f) = ix2 c f := tabIdx c f
  rw [Read.val_main_v16_apply, Read.val_main_v14_apply, ht, Read.val_main_v13_apply, Read.val_main_v15_apply,
    Read.val_main_cst_3_apply, Read.val_main_cst_4_apply]
  refine congrArg (fun s => FloatOps.hostDivf (F := Ideal) (FloatOps.ofBits .f32 0x00000000#32 + s)
    (FloatOps.ofBits .f32 0x46800000#32)) (Finset.sum_congr rfl fun k _ => ?_)
  have hk : Read.idx_main_v13 (ix2 c f) k = ix3 k c f := sumIdx c f k
  rw [hk, Read.val_main_v12_apply, dr_apply]

/-- Vri at (0, c, f). -/
theorem vri_apply (x0 x1 : Arr Ideal) (c : Fin 8) (f : Fin 257) :
    Read.val_main_v21 (F := Ideal) x0 x1 (ix3 0 c f)
      = FloatOps.hostDivf (F := Ideal)
          (FloatOps.ofBits .f32 0x00000000#32 + ∑ n : Fin 16384,
            FloatOps.mulf (FloatOps.subf (x0 (ix3 n c f)) (Read.val_main_v3 x0 (ix3 0 c f)))
              (FloatOps.subf (x1 (ix3 n c f)) (Read.val_main_v7 x1 (ix3 0 c f))))
          (FloatOps.ofBits .f32 0x46800000#32) := by
  have ht : Read.idx_main_v19 (ix3 0 c f) = ix2 c f := tabIdx c f
  rw [Read.val_main_v21_apply, Read.val_main_v19_apply, ht, Read.val_main_v18_apply, Read.val_main_v20_apply,
    Read.val_main_cst_5_apply, Read.val_main_cst_6_apply]
  refine congrArg (fun s => FloatOps.hostDivf (F := Ideal) (FloatOps.ofBits .f32 0x00000000#32 + s)
    (FloatOps.ofBits .f32 0x46800000#32)) (Finset.sum_congr rfl fun k _ => ?_)
  have hk : Read.idx_main_v18 (ix2 c f) k = ix3 k c f := sumIdx c f k
  rw [hk, Read.val_main_v17_apply, dr_apply, di_apply]

/-- Vii at (0, c, f). -/
theorem vii_apply (x1 : Arr Ideal) (c : Fin 8) (f : Fin 257) :
    Read.val_main_v26 (F := Ideal) x1 (ix3 0 c f)
      = FloatOps.hostDivf (F := Ideal)
          (FloatOps.ofBits .f32 0x00000000#32 + ∑ n : Fin 16384,
            FloatOps.mulf (FloatOps.subf (x1 (ix3 n c f)) (Read.val_main_v7 x1 (ix3 0 c f)))
              (FloatOps.subf (x1 (ix3 n c f)) (Read.val_main_v7 x1 (ix3 0 c f))))
          (FloatOps.ofBits .f32 0x46800000#32) := by
  have ht : Read.idx_main_v24 (ix3 0 c f) = ix2 c f := tabIdx c f
  rw [Read.val_main_v26_apply, Read.val_main_v24_apply, ht, Read.val_main_v23_apply, Read.val_main_v25_apply,
    Read.val_main_cst_7_apply, Read.val_main_cst_8_apply]
  refine congrArg (fun s => FloatOps.hostDivf (F := Ideal) (FloatOps.ofBits .f32 0x00000000#32 + s)
    (FloatOps.ofBits .f32 0x46800000#32)) (Finset.sum_congr rfl fun k _ => ?_)
  have hk : Read.idx_main_v23 (ix2 c f) k = ix3 k c f := sumIdx c f k
  rw [hk, Read.val_main_v22_apply, di_apply]

end Cert.RefRead

end
-- ==== Proof.Moments.lean ====
/-
  The algebra of the two ways of taking a (co)variance, at the ideal float values (extended reals, every operation
  exact), for one (channel, feature) column of N = 16384 finite entries.

  One program forms E[ab] − E[a]·E[b] from the column sums Σ aₙbₙ, Σ aₙ, Σ bₙ; the other forms E[(a − E a)(b − E b)]
  from the centred entries. Over the reals these are the same number:
      Σ (aₙ − ā)(bₙ − b̄) = Σ aₙbₙ − ā·Σ bₙ − b̄·Σ aₙ + N·ā·b̄ = Σ aₙbₙ − N·ā·b̄        (ā = Σ aₙ / N, b̄ = Σ bₙ / N),
  and dividing by N gives Σ aₙbₙ / N − ā·b̄. Finite entries keep every intermediate value finite, so the extended-real
  operations are the real ones throughout.
-/
import Idealize.ShloMosaic.PureOps.Ideal
import Idealize.ShloMosaic.PureOps.Ideal.Laws
import Mathlib.Data.EReal.Basic
import Mathlib.Data.EReal.Operations
import Mathlib.Algebra.BigOperators.Ring.Finset
import Mathlib.Algebra.BigOperators.Field
import Mathlib.Data.Fintype.BigOperators
import Mathlib.Tactic.FieldSimp
import Mathlib.Tactic.Ring
import Mathlib.Tactic.NormNum

noncomputable section

namespace Cert.Moments

open Idealize.ShloMosaic

/-- N, the number of entries of a column, as the float the programs divide by. -/
def cnt : EReal := FloatOps.ofBits (F := Ideal) .f32 0x46800000#32

/-- The pattern 0x46800000 denotes the real 16384 = 2¹⁴. -/
theorem cnt_eq : cnt = ((16384 : ℝ) : EReal) := by
  show Ideal.ofBits .f32 0x46800000#32 = _
  simp [Ideal.ofBits, Ideal.ieee, -EReal.coe_mul]; norm_num

/-- The pattern 0x00000000, from which a host sum starts, denotes 0. -/
theorem zero_eq : FloatOps.ofBits (F := Ideal) .f32 0x00000000#32 = 0 :=
  Ideal.ofBits_zero_f32

/-- A mean from a column sum: s / N. -/
def meanOf (s : EReal) : EReal := FloatOps.hostDivf (F := Ideal) (φ := .f32) s cnt

/-- E[ab] − E[a]·E[b] from the sum of products and the two means. -/
def covOfSums (s12 m1 m2 : EReal) : EReal :=
  FloatOps.subf (F := Ideal) (φ := .f32) (FloatOps.hostDivf s12 cnt) (FloatOps.mulf m1 m2)

/-- E[(a − ma)(b − mb)] from the entries: a sum started at the float zero, divided by N. -/
def covCentered (a b : Fin 16384 → EReal) (ma mb : EReal) : EReal :=
  FloatOps.hostDivf (F := Ideal) (φ := .f32)
    (FloatOps.ofBits (F := Ideal) .f32 0x00000000#32 + ∑ n, FloatOps.mulf (FloatOps.subf (a n) ma) (FloatOps.subf (b n) mb)) cnt

/-- A finite sum of reals, read in the extended reals, is the sum of the readings. -/
theorem coe_sum {ι : Type*} (s : Finset ι) (f : ι → ℝ) : ((∑ n ∈ s, f n : ℝ) : EReal) = ∑ n ∈ s, (f n : EReal) := by
  classical
  induction s using Finset.induction_on with
  | empty => simp
  | insert a s ha ih => rw [Finset.sum_insert ha, Finset.sum_insert ha, EReal.coe_add, ih]

/-- A mean of a real sum is the real mean. -/
theorem meanOf_coe (r : ℝ) : meanOf (r : EReal) = ((r / 16384 : ℝ) : EReal) := by
  show Ideal.div (r : EReal) cnt = _
  rw [cnt_eq, Ideal.div_coe (by norm_num), ← EReal.coe_mul, mul_one_div]

/-- The real identity, over any finite index set of N ≠ 0 entries. -/
theorem real_cov {ι : Type*} [Fintype ι] (N : ℝ) (hN : N ≠ 0) (hc : (Fintype.card ι : ℝ) = N) (u v : ι → ℝ) :
    (∑ n, u n * v n) / N - ((∑ n, u n) / N) * ((∑ n, v n) / N)
      = (∑ n, (u n - (∑ n, u n) / N) * (v n - (∑ n, v n) / N)) / N := by
  -- expand each centred product, sum the four terms, and use Σ 1 = N
  have e : ∀ n, (u n - (∑ n, u n) / N) * (v n - (∑ n, v n) / N)
      = u n * v n - (∑ n, v n) / N * u n - (∑ n, u n) / N * v n + (∑ n, u n) / N * ((∑ n, v n) / N) := fun n => by ring
  have h : ∑ n, (u n - (∑ n, u n) / N) * (v n - (∑ n, v n) / N)
      = (∑ n, u n * v n) - (∑ n, u n) * (∑ n, v n) / N := by
    simp only [e, Finset.sum_add_distrib, Finset.sum_sub_distrib, ← Finset.mul_sum, Finset.sum_const, Finset.card_univ,
      nsmul_eq_mul, hc]
    field_simp
    ring
  rw [h]; field_simp

/-- A host sum started at the float zero is the plain sum, so the mean taken from it is the mean of the sum. -/
theorem mean_ref (u : Fin 16384 → ℝ) :
    FloatOps.hostDivf (F := Ideal) (φ := .f32) (FloatOps.ofBits (F := Ideal) .f32 0x00000000#32 + ∑ n, ((u n : ℝ) : EReal)) cnt
      = meanOf (∑ n, ((u n : ℝ) : EReal)) := by
  rw [zero_eq, zero_add]; rfl

/-- The two covariances of two finite columns agree. -/
theorem cov_eq (u v : Fin 16384 → ℝ) :
    covOfSums (∑ n, FloatOps.mulf (F := Ideal) (φ := .f32) (u n : EReal) (v n : EReal))
        (meanOf (∑ n, (u n : EReal))) (meanOf (∑ n, (v n : EReal)))
      = covCentered (fun n => (u n : EReal)) (fun n => (v n : EReal))
        (meanOf (∑ n, (u n : EReal))) (meanOf (∑ n, (v n : EReal))) := by
  -- every quantity is the reading of a real: move the sums, the means and the two quotients to ℝ
  have hu : (∑ n, (u n : EReal)) = ((∑ n, u n : ℝ) : EReal) := (coe_sum _ _).symm
  have hv : (∑ n, (v n : EReal)) = ((∑ n, v n : ℝ) : EReal) := (coe_sum _ _).symm
  rw [hu, hv, meanOf_coe, meanOf_coe]
  unfold covOfSums covCentered
  simp only [Ideal.mulf_def, Ideal.subf_def, Ideal.hostDivf_def, zero_eq, zero_add, ← EReal.coe_mul, ← EReal.coe_sub,
    ← coe_sum]
  rw [cnt_eq, Ideal.div_coe (by norm_num), Ideal.div_coe (by norm_num), ← EReal.coe_mul, ← EReal.coe_mul,
    ← EReal.coe_sub, mul_one_div, mul_one_div]
  exact congrArg _ (real_cov 16384 (by norm_num) (by simp) u v)

/-- The variance case: both columns the same. -/
theorem var_eq (u : Fin 16384 → ℝ) :
    covOfSums (∑ n, FloatOps.mulf (F := Ideal) (φ := .f32) (u n : EReal) (u n : EReal))
        (meanOf (∑ n, (u n : EReal))) (meanOf (∑ n, (u n : EReal)))
      = covCentered (fun n => (u n : EReal)) (fun n => (u n : EReal))
        (meanOf (∑ n, (u n : EReal))) (meanOf (∑ n, (u n : EReal))) :=
  cov_eq u u

end Cert.Moments

end
-- ==== Proof.MomentRows.lean ====
/-
  The five moment rows of the two programs agree.

  Per (channel c, feature f), with N = 16384 and the column sums S1r = Σ xr, S1i = Σ xi, S2rr = Σ xr², S2ri = Σ xr·xi,
  S2ii = Σ xi² as rows 0..4 of the array of sums, one program forms
      Mr = S1r/N,  Mi = S1i/N,  Vrr = S2rr/N − Mr·Mr,  Vri = S2ri/N − Mr·Mi,  Vii = S2ii/N − Mi·Mi,
  and the other forms the same means and the centred moments
      Vrr = Σ (xr − Mr)²/N,  Vri = Σ (xr − Mr)(xi − Mi)/N,  Vii = Σ (xi − Mi)²/N.
  A row of shape (1, 8, 257) is determined by its entries at (0, c, f); there each side is a scalar expression of one
  column of the inputs, and the two expressions are equal over the reals (the entries are finite).
-/
import proofs.«156525_j26182120636725_1_alg».proof.Proof.Ideal.HostParams
import proofs.«156525_j26182120636725_1_alg».proof.Proof.RefRead
import proofs.«156525_j26182120636725_1_alg».proof.Proof.Moments
import Idealize.ShloMosaic.Lib.ValueIdx
import Idealize.ShloMosaic.Lib.Pipeline.Value
import Mathlib.Data.EReal.Basic

noncomputable section

namespace Cert.MomentRows

open Idealize.ShloMosaic Idealize.ShloMosaic.ValueIdx
open Cert.KernelIdeal Cert.KernelIdeal.Gen Cert.KernelIdeal.Pass

/-! ## A row is its entries at (0, c, f) -/

/-- Two rows of shape (1, 8, 257) that agree at every (0, c, f) are equal: the leading axis has one position. -/
theorem row_ext {α : Type} {u v : S1x8x257.Idx → α}
    (h : ∀ (c : Fin 8) (f : Fin 257), u (ix3 0 c f) = v (ix3 0 c f)) : u = v := by
  funext j
  obtain ⟨z, c, f, rfl⟩ : ∃ (z : Fin 1) (c : Fin 8) (f : Fin 257), j = ix3 z c f := ⟨j 0, j 1, j 2, eq_ix3 j⟩
  obtain rfl : z = 0 := Subsingleton.elim _ _
  exact h c f

/-! ## The rows of sums and the count, read at (0, c, f) -/

section Rows
variable {F : FTy → Type} [FloatOps F] (S : FVec F S5x8x257 .f32) (c : Fin 8) (f : Fin 257)

/-- Row k of the sums at (0, c, f) is the array of sums at (k, c, f): the slice starts at (k, 0, 0). -/
theorem slice_row (k : Fin 5) (h : S5x8x257.Slices ![k.val, 0, 0] S1x8x257) :
    extractStridedSlice S1x8x257 ![k.val, 0, 0] S h (ix3 0 c f) = S (ix3 k c f) :=
  extractStridedSlice_apply _ S h (ix3 0 c f) (ix3 k c f) (fun a => by
    match a with
    | ⟨0, _⟩ => rfl
    | ⟨1, _⟩ => exact (Nat.zero_add _).symm
    | ⟨2, _⟩ => exact (Nat.zero_add _).symm)

theorem sumRow0_apply : sumRow0 S (ix3 0 c f) = S (ix3 0 c f) := slice_row S c f 0 _
theorem sumRow1_apply : sumRow1 S (ix3 0 c f) = S (ix3 1 c f) := slice_row S c f 1 _
theorem sumRow2_apply : sumRow2 S (ix3 0 c f) = S (ix3 2 c f) := slice_row S c f 2 _
theorem sumRow3_apply : sumRow3 S (ix3 0 c f) = S (ix3 3 c f) := slice_row S c f 3 _
theorem sumRow4_apply : sumRow4 S (ix3 0 c f) = S (ix3 4 c f) := slice_row S c f 4 _

/-- The count row holds the float N everywhere. -/
theorem countRow_apply (j : S1x8x257.Idx) : countRow (F := F) j = FloatOps.ofBits .f32 0x46800000#32 := rfl

end Rows

/-! ## One column -/

/-- For one column pair of finite entries: E[ab] − E[a]·E[b], formed from the column sums, is E[(a − E a)(b − E b)],
    formed from the centred entries with each mean taken from a sum started at the float zero. -/
theorem col_cov (a b : Fin 16384 → EReal) (ha : ∀ n, ∃ r : ℝ, a n = (r : EReal)) (hb : ∀ n, ∃ r : ℝ, b n = (r : EReal)) :
    FloatOps.subf (F := Ideal) (φ := .f32)
        (FloatOps.hostDivf (∑ n, FloatOps.mulf (F := Ideal) (φ := .f32) (a n) (b n)) Cert.Moments.cnt)
        (FloatOps.mulf (FloatOps.hostDivf (F := Ideal) (φ := .f32) (∑ n, a n) Cert.Moments.cnt)
          (FloatOps.hostDivf (F := Ideal) (φ := .f32) (∑ n, b n) Cert.Moments.cnt))
      = FloatOps.hostDivf (F := Ideal) (φ := .f32)
          (FloatOps.ofBits (F := Ideal) .f32 0x00000000#32 + ∑ n,
            FloatOps.mulf (F := Ideal) (φ := .f32)
              (FloatOps.subf (a n) (FloatOps.hostDivf (F := Ideal) (φ := .f32)
                (FloatOps.ofBits (F := Ideal) .f32 0x00000000#32 + ∑ n, a n) Cert.Moments.cnt))
              (FloatOps.subf (b n) (FloatOps.hostDivf (F := Ideal) (φ := .f32)
                (FloatOps.ofBits (F := Ideal) .f32 0x00000000#32 + ∑ n, b n) Cert.Moments.cnt)))
          Cert.Moments.cnt := by
  choose u hu using ha
  choose v hv using hb
  obtain rfl : a = fun n => ((u n : ℝ) : EReal) := funext hu
  obtain rfl : b = fun n => ((v n : ℝ) : EReal) := funext hv
  rw [Cert.Moments.mean_ref u, Cert.Moments.mean_ref v]
  exact Cert.Moments.cov_eq u v

/-- A mean taken from a plain column sum is the mean taken from the sum started at the float zero. -/
theorem col_mean (a : Fin 16384 → EReal) :
    FloatOps.hostDivf (F := Ideal) (φ := .f32) (∑ n, a n) Cert.Moments.cnt
      = FloatOps.hostDivf (F := Ideal) (φ := .f32)
          (FloatOps.ofBits (F := Ideal) .f32 0x00000000#32 + ∑ n, a n) Cert.Moments.cnt := by
  rw [Cert.Moments.zero_eq, zero_add]

/-! ## The five rows -/

section Moments
variable (S : FVec Ideal S5x8x257 .f32) (x y : FVec Ideal S16384x8x257 .f32)

/-- Mr: the mean of the real parts. -/
theorem mean_re
    (h0 : ∀ (ch : Fin 8) (f : Fin 257), S (ix3 0 ch f) = ∑ n : Fin 16384, x (ix3 n ch f)) :
    meanRe S = Cert.ReferenceIdeal.Read.val_main_v3 (F := Ideal) x := by
  refine row_ext fun c f => ?_
  rw [Cert.RefRead.mr_apply x c f]
  show FloatOps.hostDivf (sumRow0 S (ix3 0 c f)) (countRow (F := Ideal) (ix3 0 c f)) = _
  rw [sumRow0_apply, h0 c f]
  exact col_mean fun n => x (ix3 n c f)

/-- Mi: the mean of the imaginary parts. -/
theorem mean_im
    (h1 : ∀ (ch : Fin 8) (f : Fin 257), S (ix3 1 ch f) = ∑ n : Fin 16384, y (ix3 n ch f)) :
    meanIm S = Cert.ReferenceIdeal.Read.val_main_v7 (F := Ideal) y := by
  refine row_ext fun c f => ?_
  rw [Cert.RefRead.mi_apply y c f]
  show FloatOps.hostDivf (sumRow1 S (ix3 0 c f)) (countRow (F := Ideal) (ix3 0 c f)) = _
  rw [sumRow1_apply, h1 c f]
  exact col_mean fun n => y (ix3 n c f)

/-- Vrr: the variance of the real parts. -/
theorem var_re
    (h0 : ∀ (ch : Fin 8) (f : Fin 257), S (ix3 0 ch f) = ∑ n : Fin 16384, x (ix3 n ch f))
    (h2 : ∀ (ch : Fin 8) (f : Fin 257), S (ix3 2 ch f)
      = ∑ n : Fin 16384, FloatOps.mulf (F := Ideal) (φ := .f32) (x (ix3 n ch f)) (x (ix3 n ch f)))
    (hx : ∀ i, ∃ r : ℝ, x i = (r : EReal)) :
    varRe S = Cert.ReferenceIdeal.Read.val_main_v16 (F := Ideal) x := by
  refine row_ext fun c f => ?_
  rw [Cert.RefRead.vrr_apply x c f, Cert.RefRead.mr_apply x c f]
  show FloatOps.subf
      (FloatOps.hostDivf (sumRow2 S (ix3 0 c f)) (countRow (F := Ideal) (ix3 0 c f)))
      (FloatOps.mulf
        (FloatOps.hostDivf (sumRow0 S (ix3 0 c f)) (countRow (F := Ideal) (ix3 0 c f)))
        (FloatOps.hostDivf (sumRow0 S (ix3 0 c f)) (countRow (F := Ideal) (ix3 0 c f)))) = _
  rw [sumRow2_apply, sumRow0_apply, h0 c f, h2 c f]
  exact col_cov (fun n => x (ix3 n c f)) (fun n => x (ix3 n c f)) (fun n => hx _) (fun n => hx _)

/-- Vri: the covariance of the real and the imaginary parts. -/
theorem cov_re_im
    (h0 : ∀ (ch : Fin 8) (f : Fin 257), S (ix3 0 ch f) = ∑ n : Fin 16384, x (ix3 n ch f))
    (h1 : ∀ (ch : Fin 8) (f : Fin 257), S (ix3 1 ch f) = ∑ n : Fin 16384, y (ix3 n ch f))
    (h3 : ∀ (ch : Fin 8) (f : Fin 257), S (ix3 3 ch f)
      = ∑ n : Fin 16384, FloatOps.mulf (F := Ideal) (φ := .f32) (x (ix3 n ch f)) (y (ix3 n ch f)))
    (hx : ∀ i, ∃ r : ℝ, x i = (r : EReal)) (hy : ∀ i, ∃ r : ℝ, y i = (r : EReal)) :
    covReIm S = Cert.ReferenceIdeal.Read.val_main_v21 (F := Ideal) x y := by
  refine row_ext fun c f => ?_
  rw [Cert.RefRead.vri_apply x y c f, Cert.RefRead.mr_apply x c f, Cert.RefRead.mi_apply y c f]
  show FloatOps.subf
      (FloatOps.hostDivf (sumRow3 S (ix3 0 c f)) (countRow (F := Ideal) (ix3 0 c f)))
      (FloatOps.mulf
        (FloatOps.hostDivf (sumRow0 S (ix3 0 c f)) (countRow (F := Ideal) (ix3 0 c f)))
        (FloatOps.hostDivf (sumRow1 S (ix3 0 c f)) (countRow (F := Ideal) (ix3 0 c f)))) = _
  rw [sumRow3_apply, sumRow0_apply, sumRow1_apply, h0 c f, h1 c f, h3 c f]
  exact col_cov (fun n => x (ix3 n c f)) (fun n => y (ix3 n c f)) (fun n => hx _) (fun n => hy _)

/-- Vii: the variance of the imaginary parts. -/
theorem var_im
    (h1 : ∀ (ch : Fin 8) (f : Fin 257), S (ix3 1 ch f) = ∑ n : Fin 16384, y (ix3 n ch f))
    (h4 : ∀ (ch : Fin 8) (f : Fin 257), S (ix3 4 ch f)
      = ∑ n : Fin 16384, FloatOps.mulf (F := Ideal) (φ := .f32) (y (ix3 n ch f)) (y (ix3 n ch f)))
    (hy : ∀ i, ∃ r : ℝ, y i = (r : EReal)) :
    varIm S = Cert.ReferenceIdeal.Read.val_main_v26 (F := Ideal) y := by
  refine row_ext fun c f => ?_
  rw [Cert.RefRead.vii_apply y c f, Cert.RefRead.mi_apply y c f]
  show FloatOps.subf
      (FloatOps.hostDivf (sumRow4 S (ix3 0 c f)) (countRow (F := Ideal) (ix3 0 c f)))
      (FloatOps.mulf
        (FloatOps.hostDivf (sumRow1 S (ix3 0 c f)) (countRow (F := Ideal) (ix3 0 c f)))
        (FloatOps.hostDivf (sumRow1 S (ix3 0 c f)) (countRow (F := Ideal) (ix3 0 c f)))) = _
  rw [sumRow4_apply, sumRow1_apply, h1 c f, h4 c f]
  exact col_cov (fun n => y (ix3 n c f)) (fun n => y (ix3 n c f)) (fun n => hy _) (fun n => hy _)

end Moments

end Cert.MomentRows

end
-- ==== Proof.ResultEq.lean ====
import proofs.«156525_j26182120636725_1_alg».proof.Proof.Ideal.AffineValue
import proofs.«156525_j26182120636725_1_alg».proof.Proof.Ideal.HostParams
import proofs.«156525_j26182120636725_1_alg».proof.Proof.RefRead
import Idealize.ShloMosaic.Lib.ValueIdx
import Idealize.ShloMosaic.Lib.Pipeline.Value

noncomputable section

/-! The two results agree, index by index, once the five moment rows do.

Both programs end with the same expression of the parameter rows and the inputs:
  re = (Zrr · (x − Mr) + Zri · (y − Mi)) + Br,    im = (Zir · (x − Mr) + Zii · (y − Mi)) + Bi,
the four Z rows being one function (the whitening) of the three second moments and the weights. So equal means and
equal second moments give equal results; no property of the floats is used. -/

namespace Cert.ResultEq

open Idealize.ShloMosaic Idealize.ShloMosaic.ValueIdx Cert.KernelIdeal Cert.KernelIdeal.Gen Cert.KernelIdeal.Pass

variable {F : FTy → Type} [FloatOps F]

/-- A weight or bias table read as a row, at (0, c, f), is the table at (c, f). -/
theorem asRow_apply (h2 : Cert.Whiten.Tab.BroadcastsInDim Cert.Whiten.Row (![1, 2] : Fin 2 → Fin Cert.Whiten.Row.rank))
    (w : FVec F Cert.Whiten.Tab .f32) (c : Fin 8) (f : Fin 257) :
    Cert.Whiten.asRow h2 w (ix3 0 c f) = w (ix2 c f) := by
  unfold Cert.Whiten.asRow
  exact broadcastInDim_apply _ h2 w _ (ix2 c f) (fun a => match a with
    | ⟨0, _⟩ => by show c.val = if (8 : Nat) = 1 then 0 else c.val; rw [if_neg (by decide)]
    | ⟨1, _⟩ => by show f.val = if (257 : Nat) = 1 then 0 else f.val; rw [if_neg (by decide)])

variable (S : FVec F S5x8x257 .f32) (x y : FVec F S16384x8x257 .f32) (wrr wri wii br bi : FVec F S8x257 .f32)

/-- The real results agree. -/
theorem re_eq (hmr : meanRe S = Cert.ReferenceIdeal.Read.val_main_v3 x) (hmi : meanIm S = Cert.ReferenceIdeal.Read.val_main_v7 y)
    (hvrr : varRe S = Cert.ReferenceIdeal.Read.val_main_v16 x) (hvri : covReIm S = Cert.ReferenceIdeal.Read.val_main_v21 x y)
    (hvii : varIm S = Cert.ReferenceIdeal.Read.val_main_v26 y) :
    affRe x y (paramsOf S wrr wri wii br bi) = Cert.ReferenceIdeal.Read.val_main_v73 x y wrr wri br := by
  funext i
  obtain ⟨n, c, f, rfl⟩ : ∃ (n : Fin 16384) (c : Fin 8) (f : Fin 257), i = ix3 n c f := ⟨i 0, i 1, i 2, eq_ix3 i⟩
  rw [affRe_apply, Cert.RefRead.re_apply, paramsOf_row0, paramsOf_row1, paramsOf_row2, paramsOf_row3, paramsOf_row6,
    Cert.RefRead.zrr_eq, Cert.RefRead.zri_eq, hmr, hmi, hvrr, hvri, hvii, asRow_apply]

/-- The imaginary results agree. -/
theorem im_eq (hmr : meanRe S = Cert.ReferenceIdeal.Read.val_main_v3 x) (hmi : meanIm S = Cert.ReferenceIdeal.Read.val_main_v7 y)
    (hvrr : varRe S = Cert.ReferenceIdeal.Read.val_main_v16 x) (hvri : covReIm S = Cert.ReferenceIdeal.Read.val_main_v21 x y)
    (hvii : varIm S = Cert.ReferenceIdeal.Read.val_main_v26 y) :
    affIm x y (paramsOf S wrr wri wii br bi) = Cert.ReferenceIdeal.Read.val_main_v81 x y wri wii bi := by
  funext i
  obtain ⟨n, c, f, rfl⟩ : ∃ (n : Fin 16384) (c : Fin 8) (f : Fin 257), i = ix3 n c f := ⟨i 0, i 1, i 2, eq_ix3 i⟩
  rw [affIm_apply, Cert.RefRead.im_apply, paramsOf_row0, paramsOf_row1, paramsOf_row4, paramsOf_row5, paramsOf_row7,
    Cert.RefRead.zir_eq, Cert.RefRead.zii_eq, hmr, hmi, hvrr, hvri, hvii, asRow_apply]

end Cert.ResultEq

end
-- ==== Proof.Finite.lean ====
/-
  From the precondition to real entries. The precondition is the conjunction, over the seven inputs, of
  "every entry x has |x| < +∞"; at the ideal float values an entry is an extended real, |x| is max x (−x), and
  max x (−x) < ⊤ rules out both infinities, so the entry is the reading of a real number.
-/
import proofs.«156525_j26182120636725_1_alg».proof.Pre_finite_inputs
import Idealize.ShloMosaic.PureOps.Ideal
import Idealize.ShloMosaic.PureOps.Ideal.Laws
import Idealize.ShloMosaic.Lib.ReduceAll
import Idealize.ShloMosaic.Lib.ValueIdx
import Mathlib.Data.EReal.Basic

noncomputable section

namespace Cert.Finite

open Idealize.ShloMosaic Cert.Pre_finite_inputs

/-- The rank-0 shape has one index. -/
instance : Subsingleton S_.Idx := ⟨fun a b => funext fun d => d.elim0⟩

/-- The pattern 0x7F800000 denotes +∞. -/
theorem inf_eq : FloatOps.ofBits (F := Ideal) .f32 0x7F800000#32 = ⊤ := by
  show Ideal.ofBits .f32 0x7F800000#32 = ⊤
  simp [Ideal.ofBits, Ideal.ieee]

/-- An extended real whose absolute value max x (−x) is below +∞ is the reading of a real. -/
theorem real_of_abs_lt (x : EReal)
    (h : FloatOps.cmpf (F := Ideal) (φ := .f32) .olt (FloatOps.hostAbsf x) (FloatOps.ofBits .f32 0x7F800000#32) = 1#1) :
    ∃ r : ℝ, x = (r : EReal) := by
  have h' : Ideal.cmp .olt (max x (-x)) ⊤ = 1#1 := by rw [← inf_eq]; exact h
  induction x using EReal.rec with
  | bot => simp [Ideal.cmp] at h'
  | top => simp [Ideal.cmp] at h'
  | coe r => exact ⟨r, rfl⟩

/-- Under the precondition every entry of the first two inputs (the real and the imaginary parts) is a real. -/
theorem entries_of_pre [Facts] (x0 x1 : FVec Ideal S16384x8x257 .f32) (x2 x3 x4 x5 x6 : FVec Ideal S8x257 .f32)
    (h : fn (F := Ideal) x0 x1 x2 x3 x4 x5 x6 = fun _ => 1#1) :
    (∀ i, ∃ r : ℝ, x0 i = (r : EReal)) ∧ (∀ i, ∃ r : ℝ, x1 i = (r : EReal)) := by
  -- the predicate at its one index is a conjunction of seven "all entries" tests; the first two are ours
  have h1 := congrFun h ValueIdx.ix0
  dsimp only [fn, fn_part1, andi] at h1
  simp only [IntOp.andi_eq_one] at h1
  obtain ⟨⟨⟨⟨⟨⟨a, b⟩, _⟩, _⟩, _⟩, _⟩, _⟩ := h1
  exact ⟨fun i => real_of_abs_lt (x0 i) (Host.reduce_andi_all _ _ _ _ _ a i),
    fun i => real_of_abs_lt (x1 i) (Host.reduce_andi_all _ _ _ _ _ b i)⟩

/-- The same as two real-valued arrays. -/
theorem real_of_pre [Facts] (x0 x1 : FVec Ideal S16384x8x257 .f32) (x2 x3 x4 x5 x6 : FVec Ideal S8x257 .f32)
    (h : fn (F := Ideal) x0 x1 x2 x3 x4 x5 x6 = fun _ => 1#1) :
    ∃ u v : S16384x8x257.Idx → ℝ, x0 = (fun i => (u i : EReal)) ∧ x1 = (fun i => (v i : EReal)) := by
  obtain ⟨h0, h1⟩ := entries_of_pre x0 x1 x2 x3 x4 x5 x6 h
  choose u hu using h0
  choose v hv using h1
  exact ⟨u, v, funext hu, funext hv⟩

end Cert.Finite

end
-- ==== Proof.Bridge.lean ====
/-
  The two idealized programs end with equal results.

  KERNEL. After the first pallas_call the array of sums holds, per (channel, feature), the five column sums of xr, xi,
  xr², xr·xi, xi² over the batch axis; the host operations turn them into the eight parameter rows (the two means, the
  four whitening-and-mixing coefficients Z, the two biases); the second pallas_call leaves, at (n, c, f),
      yr = (Zrr·(xr − Mr) + Zri·(xi − Mi)) + Br,      yi = (Zir·(xr − Mr) + Zii·(xi − Mi)) + Bi.
  REFERENCE. The same expression, its means the same quotients of sums and its second moments the CENTRED ones,
  Σ (a − Ea)(b − Eb) / N.
  The coefficients Z are one function of the second moments on both sides (`Cert.Whiten`), so the results agree as soon
  as the moments do: the means literally, the second moments by  Σ(a − Ea)(b − Eb)/N = Σab/N − Ea·Eb  over the reals,
  where every input entry lives by the precondition.
-/
import proofs.«156525_j26182120636725_1_alg».proof.Defs
import proofs.«156525_j26182120636725_1_alg».proof.Proof.Ideal.TwoPass
import proofs.«156525_j26182120636725_1_alg».proof.Proof.Ideal.StatsValue
import proofs.«156525_j26182120636725_1_alg».proof.Proof.Ideal.AffineValue
import proofs.«156525_j26182120636725_1_alg».proof.Proof.Ideal.HostParams
import proofs.«156525_j26182120636725_1_alg».proof.Proof.MomentRows
import proofs.«156525_j26182120636725_1_alg».proof.Proof.RefRead
import proofs.«156525_j26182120636725_1_alg».proof.Proof.ResultEq
import proofs.«156525_j26182120636725_1_alg».proof.Proof.Gen.ReferenceIdeal.Run
import proofs.«156525_j26182120636725_1_alg».proof.Proof.Finite
import proofs.«156525_j26182120636725_1_alg».proof.Proof.Gen.ReferenceIdeal.Read
import proofs.«156525_j26182120636725_1_alg».proof.Proof.Gen.Pre_finite_inputs

noncomputable section

namespace Cert.Bridge

open Idealize.ShloMosaic Idealize.ShloMosaic.TcCoe Idealize.SL.Sem
open Cert.KernelIdeal Cert.KernelIdeal.Gen Cert.KernelIdeal.Pass

variable (m : (ℓ : Loc nD τ sig) → Buf (Elt Ideal) ℓ)

/-- The array of sums the first pallas_call leaves on core `c`. -/
def sums (c : Dev nD) : FVec Ideal S5x8x257 .f32 := (dat0 (V0 m) c).arrAt 2 cfg0.N

/-- The parameter rows the host operations make of them. -/
def params (c : Dev nD) : FVec Ideal S8x8x257 .f32 :=
  paramsOf (sums m c) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6))

/-- The second pallas_call is entered with the parameter array at `params`. -/
theorem entry_params (c : Dev nD) : V4 m c main_v63 = params m c := by
  show StableHlo.after hostOps1_2 (StableHlo.after hostOps1_1 (StableHlo.after hostOps1 (W1 m c))) (Proc.devRef .tc main_v63) = _
  rw [params_after (W1 m c), W1_stats, W1_arg2, W1_arg3, W1_arg4, W1_arg5, W1_arg6]
  rfl

/-- The kernel's real result on core `c`. -/
def outRe (c : Dev nD) : FVec Ideal S16384x8x257 .f32 :=
  affRe (m ((c.tc : Thread nD τ).loc main_arg0)) (m ((c.tc : Thread nD τ).loc main_arg1)) (params m c)
/-- The kernel's imaginary result on core `c`. -/
def outIm (c : Dev nD) : FVec Ideal S16384x8x257 .f32 :=
  affIm (m ((c.tc : Thread nD τ).loc main_arg0)) (m ((c.tc : Thread nD τ).loc main_arg1)) (params m c)

theorem end_re (c : Dev nD) : W5 m c (Proc.devRef .tc main_v64_0) = outRe m c := by
  have h0 : V4 m c main_arg0 = m ((c : Thread nD τ).loc main_arg0) := W4_arg0 m c
  have h1 : V4 m c main_arg1 = m ((c : Thread nD τ).loc main_arg1) := W4_arg1 m c
  rw [W5_re, final_re, h0, h1, entry_params]; rfl

theorem end_im (c : Dev nD) : W5 m c (Proc.devRef .tc main_v64_1) = outIm m c := by
  have h0 : V4 m c main_arg0 = m ((c : Thread nD τ).loc main_arg0) := W4_arg0 m c
  have h1 : V4 m c main_arg1 = m ((c : Thread nD τ).loc main_arg1) := W4_arg1 m c
  rw [W5_im, final_im, h0, h1, entry_params]; rfl

/-! ## The moments agree, hence the results -/

section Agree

variable (c : Dev nD)
variable (hpre : Cert.Pre_finite_inputs.fn (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) = (fun _ => 1#1))

include hpre

/-- The kernel's real result is the reference's stage of the same arguments. -/
theorem re_agree : outRe m c = Cert.ReferenceIdeal.Read.val_main_v73 (F := Ideal) (m ((c.tc : Thread nD τ).loc main_arg0))
    (m ((c.tc : Thread nD τ).loc main_arg1)) (m ((c.tc : Thread nD τ).loc main_arg2)) (m ((c.tc : Thread nD τ).loc main_arg3))
    (m ((c.tc : Thread nD τ).loc main_arg5)) := by
  obtain ⟨hx, hy⟩ := Cert.Finite.entries_of_pre _ _ _ _ _ _ _ hpre
  unfold outRe params
  exact Cert.ResultEq.re_eq _ _ _ _ _ _ _ _
    (Cert.MomentRows.mean_re _ _ (stats_apply0 (V0 m) c))
    (Cert.MomentRows.mean_im _ _ (stats_apply1 (V0 m) c))
    (Cert.MomentRows.var_re _ _ (stats_apply0 (V0 m) c) (stats_apply2 (V0 m) c) hx)
    (Cert.MomentRows.cov_re_im _ _ _ (stats_apply0 (V0 m) c) (stats_apply1 (V0 m) c) (stats_apply3 (V0 m) c) hx hy)
    (Cert.MomentRows.var_im _ _ (stats_apply1 (V0 m) c) (stats_apply4 (V0 m) c) hy)

/-- The kernel's imaginary result is the reference's stage of the same arguments. -/
theorem im_agree : outIm m c = Cert.ReferenceIdeal.Read.val_main_v81 (F := Ideal) (m ((c.tc : Thread nD τ).loc main_arg0))
    (m ((c.tc : Thread nD τ).loc main_arg1)) (m ((c.tc : Thread nD τ).loc main_arg3)) (m ((c.tc : Thread nD τ).loc main_arg4))
    (m ((c.tc : Thread nD τ).loc main_arg6)) := by
  obtain ⟨hx, hy⟩ := Cert.Finite.entries_of_pre _ _ _ _ _ _ _ hpre
  unfold outIm params
  exact Cert.ResultEq.im_eq _ _ _ _ _ _ _ _
    (Cert.MomentRows.mean_re _ _ (stats_apply0 (V0 m) c))
    (Cert.MomentRows.mean_im _ _ (stats_apply1 (V0 m) c))
    (Cert.MomentRows.var_re _ _ (stats_apply0 (V0 m) c) (stats_apply2 (V0 m) c) hx)
    (Cert.MomentRows.cov_re_im _ _ _ (stats_apply0 (V0 m) c) (stats_apply1 (V0 m) c) (stats_apply3 (V0 m) c) hx hy)
    (Cert.MomentRows.var_im _ _ (stats_apply1 (V0 m) c) (stats_apply4 (V0 m) c) hy)

end Agree

/-! ## The claim -/

/-- Both idealized programs run; the kernel ends with `outRe`, `outIm` and so does the reference. -/
theorem algebraic : Cert.algebraic_KernelIdeal_ReferenceIdeal := by
  intro m ρ m' ρ' hpre hagree
  refine ⟨fun c => outRe m c, fun c => outIm m c, ?_, ?_⟩
  · refine (θ_run Cert.KernelIdeal.defs _ _).mono (fun r h c => ?_) (Cert.KernelIdeal.Pass.run_all (F := Ideal) m ρ)
    exact ⟨(h c _ (mem_uc main_v64_0 (by decide))).trans (end_re m c),
      (h c _ (mem_uc main_v64_1 (by decide))).trans (end_im m c),
      (h c _ (mem_uc main_arg0 (by decide))).trans (W5_arg0 m c),
      (h c _ (mem_uc main_arg1 (by decide))).trans (W5_arg1 m c),
      (h c _ (mem_uc main_arg2 (by decide))).trans (W5_arg2 m c),
      (h c _ (mem_uc main_arg3 (by decide))).trans (W5_arg3 m c),
      (h c _ (mem_uc main_arg4 (by decide))).trans (W5_arg4 m c),
      (h c _ (mem_uc main_arg5 (by decide))).trans (W5_arg5 m c),
      (h c _ (mem_uc main_arg6 (by decide))).trans (W5_arg6 m c)⟩
  · refine (θ_run Cert.ReferenceIdeal.defs _ _).mono (fun r h c => ⟨(h c).1.trans ?_, (h c).2.1.trans ?_, (h c).2.2⟩)
      (Cert.ReferenceIdeal.Value.run (F := Ideal) m' ρ')
    · rw [Cert.ReferenceIdeal.Read.val_main_v73_eq, (hagree c).1, (hagree c).2.1, (hagree c).2.2.1, (hagree c).2.2.2.1,
        (hagree c).2.2.2.2.2.1]
      exact (re_agree m c (hpre c)).symm
    · rw [Cert.ReferenceIdeal.Read.val_main_v81_eq, (hagree c).1, (hagree c).2.1, (hagree c).2.2.2.1, (hagree c).2.2.2.2.1,
        (hagree c).2.2.2.2.2.2]
      exact (im_agree m c (hpre c)).symm

end Cert.Bridge

end
-- ==== Proof.lean ====
/-
  A two-pass complex batch normalisation against its jnp reference, over the extended reals.

  The kernel program makes two passes over the (16384, 8, 257) real and imaginary inputs: the first pallas_call
  accumulates, per (channel, feature), the five sums Σxr, Σxi, Σxr², Σxr·xi, Σxi² over the batch axis; host operations
  turn them into the means, the second moments  E[ab] − E[a]·E[b],  the inverse square root of the 2×2 covariance and the
  mixed coefficients Z; the second pallas_call applies  y = Z·(x − M) + B  elementwise. The reference centres first and
  takes the second moments as  E[(a − Ea)(b − Eb)].

  * The three frames: each program runs to the end, faults nowhere and leaves its seven arguments as launched — the
    two kernel programs by one launch over their two pipelined regions and the host stretches between them
    (`Pass.frame`, the same text in both namespaces), the reference by its run.
  * The idealization rewrote nothing, so nothing is to be preserved.
  * At the ideal instance the results agree (`Cert.Bridge.algebraic`).
-/
import proofs.«156525_j26182120636725_1_alg».proof.Defs
import proofs.«156525_j26182120636725_1_alg».proof.Proof.Gen.Kernel
import proofs.«156525_j26182120636725_1_alg».proof.Proof.Gen.KernelIdeal
import proofs.«156525_j26182120636725_1_alg».proof.Proof.Gen.ReferenceIdeal
import proofs.«156525_j26182120636725_1_alg».proof.Proof.Gen.ReferenceIdeal.Run
import proofs.«156525_j26182120636725_1_alg».proof.Proof.Gen.ReferenceIdeal.Read
import proofs.«156525_j26182120636725_1_alg».proof.Proof.Gen.Pre_finite_inputs
import proofs.«156525_j26182120636725_1_alg».proof.Proof.Word.TwoPass
import proofs.«156525_j26182120636725_1_alg».proof.Proof.Ideal.TwoPass
import proofs.«156525_j26182120636725_1_alg».proof.Proof.Bridge

noncomputable section

namespace Cert.Proof

open Idealize.ShloMosaic Idealize.SL.Sem

theorem frame_word : Cert.frame_Kernel := fun m ρ _ => Cert.Kernel.Pass.frame m ρ

theorem frame_ideal : Cert.frame_KernelIdeal := fun m ρ _ => Cert.KernelIdeal.Pass.frame m ρ

theorem frame_reference : Cert.frame_ReferenceIdeal := fun m ρ _ =>
  (θ_run Cert.ReferenceIdeal.defs _ _).mono (fun _ h c => (h c).2.2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  frame_word, frame_ideal, frame_reference, trivial, Cert.Bridge.algebraic⟩

end Cert.Proof

end
